-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v126)) (v1 : (c : Dev Cert.KernelIdeal.nD) → Buf (Elt Ideal) ((c.tc : Thread Cert.KernelIdeal.nD Cert.KernelIdeal.τ).loc Cert.KernelIdeal.main_v111)) (v2 : (c : Dev Cert.KernelIdeal.nD) → Buf (Elt Ideal) ((c.tc : Thread Cert.KernelIdeal.nD Cert.KernelIdeal.τ).loc Cert.KernelIdeal.main_arg16)) (v3 : (c : Dev Cert.KernelIdeal.nD) → Buf (Elt Ideal) ((c.tc : Thread Cert.KernelIdeal.nD Cert.KernelIdeal.τ).loc Cert.KernelIdeal.main_arg17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_arg16) = v2 c
          ∧ r.2.mem ((c.tc : Thread Cert.KernelIdeal.nD Cert.KernelIdeal.τ).loc Cert.KernelIdeal.main_arg17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg16) = v2 c
          ∧ r.2.mem ((c.tc : Thread Cert.ReferenceIdeal.nD Cert.ReferenceIdeal.τ).loc Cert.ReferenceIdeal.main_arg17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x58 : Shape := ⟨2, ![50000, 58]⟩
abbrev S2x800000 : Shape := ⟨2, ![2, 800000]⟩
abbrev S58x300 : Shape := ⟨2, ![58, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S100x58 : Shape := ⟨2, ![100, 58]⟩
abbrev S_ : Shape := ⟨0, ![]⟩

class Facts : Prop where
  bcast_S_S50000x58 : S_.BroadcastsInDim S50000x58 (![] : Fin 0 → Fin S50000x58.rank)
  reducesTo_S50000x58_S_d0_1 : S50000x58.ReducesTo [0, 1] S_
  h_S_ : 0 < S_.numel
  bcast_S_S58x300 : S_.BroadcastsInDim S58x300 (![] : Fin 0 → Fin S58x300.rank)
  reducesTo_S58x300_S_d0_1 : S58x300.ReducesTo [0, 1] S_
  bcast_S_S300 : S_.BroadcastsInDim S300 (![] : Fin 0 → Fin S300.rank)
  reducesTo_S300_S_d0 : S300.ReducesTo [0] S_
  bcast_S_S300x100 : S_.BroadcastsInDim S300x100 (![] : Fin 0 → Fin S300x100.rank)
  reducesTo_S300x100_S_d0_1 : S300x100.ReducesTo [0, 1] S_
  bcast_S_S100 : S_.BroadcastsInDim S100 (![] : Fin 0 → Fin S100.rank)
  reducesTo_S100_S_d0 : S100.ReducesTo [0] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_
  bcast_S_S100x58 : S_.BroadcastsInDim S100x58 (![] : Fin 0 → Fin S100x58.rank)
  reducesTo_S100x58_S_d0_1 : S100x58.ReducesTo [0, 1] S_

variable [Facts]

def fn_part4 {F : FTy → Type} [FloatOps F] (main_arg16 : FVec F S1 .f32) (main_arg17 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S100 .f32) (main_arg14 : FVec F S100x58 .f32) (main_arg15 : FVec F S100 .f32) (main_arg16 : FVec F S1 .f32) (main_arg17 : FVec F S1 .f32) (main_v48 : IVec S_ 1) (main_v49 : FVec F S100x58 .f32) (main_v50 : FVec F S100x58 .f32) : IVec S_ 1 :=
  let main_v51 : IVec S100x58 1 := cmpf .olt main_v49 main_v50
  let main_c_19 : IVec S_ 1 := constantI S_ 1 1#1
  let main_v52 : IVec S_ 1 := (fun x v => Host.reduce IntOp.andi x v reducesTo_S100x58_S_d0_1 h_S_) main_v51 main_c_19
  let main_v53 : IVec S_ 1 := andi main_v48 main_v52
  let main_v54 : FVec F S100 .f32 := Host.absf main_arg13
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S100x58 .f32 := Host.absf main_arg14
  let main_cst_22 : FVec F S_ .f32 := constant S_ .f32 0x7F800000#32
  let main_v60 : FVec F S100x58 .f32 := broadcastInDim S100x58 ![] bcast_S_S100x58 main_cst_22
  let main_v61 : IVec S100x58 1 := cmpf .olt main_v59 main_v60
  let main_c_23 : IVec S_ 1 := constantI S_ 1 1#1
  let main_v62 : IVec S_ 1 := (fun x v => Host.reduce IntOp.andi x v reducesTo_S100x58_S_d0_1 h_S_) main_v61 main_c_23
  let main_v63 : IVec S_ 1 := andi main_v58 main_v62
  let main_v64 : FVec F S100 .f32 := Host.absf main_arg15
  let main_cst_24 : FVec F S_ .f32 := constant S_ .f32 0x7F800000#32
  let main_v65 : FVec F S100 .f32 := broadcastInDim S100 ![] bcast_S_S100 main_cst_24
  let main_v66 : IVec S100 1 := cmpf .olt main_v64 main_v65
  let main_c_25 : IVec S_ 1 := constantI S_ 1 1#1
  let main_v67 : IVec S_ 1 := (fun x v => Host.reduce IntOp.andi x v reducesTo_S100_S_d0 h_S_) main_v66 main_c_25
  fn_part4 (F := F) main_arg16 main_arg17 main_v63 main_v67

def fn_part2 {F : FTy → Type} [FloatOps F] (main_arg9 : FVec F S100x1 .f32) (main_arg10 : FVec F S100x1 .f32) (main_arg11 : FVec F S1 .f32) (main_arg12 : FVec F S100x58 .f32) (main_arg13 : FVec F S100 .f32) (main_arg14 : FVec F S100x58 .f32) (main_arg15 : FVec F S100 .f32) (main_arg16 : FVec F S1 .f32) (main_arg17 : FVec F S1 .f32) (main_v33 : IVec S_ 1) : IVec S_ 1 :=
  let main_v34 : FVec F S100x1 .f32 := Host.absf main_arg9
  let main_cst_12 : FVec F S_ .f32 := constant S_ .f32 0x7F800000#32
  let main_v35 : FVec F S100x1 .f32 := broadcastInDim S100x1 ![] bcast_S_S100x1 main_cst_12
  let main_v36 : IVec S100x1 1 := cmpf .olt main_v34 main_v35
  let main_c_13 : IVec S_ 1 := constantI S_ 1 1#1
  let main_v37 : IVec S_ 1 := (fun x v => Host.reduce IntOp.andi x v reducesTo_S100x1_S_d0_1 h_S_) main_v36 main_c_13
  let main_v38 : IVec S_ 1 := andi main_v33 main_v37
  let main_v39 : FVec F S100x1 .f32 := Host.absf main_arg10
  let main_cst_14 : FVec F S_ .f32 := constant S_ .f32 0x7F800000#32
  let main_v40 : FVec F S100x1 .f32 := broadcastInDim S100x1 ![] bcast_S_S100x1 main_cst_14
  let main_v41 : IVec S100x1 1 := cmpf .olt main_v39 main_v40
  let main_c_15 : IVec S_ 1 := constantI S_ 1 1#1
  let main_v42 : IVec S_ 1 := (fun x v => Host.reduce IntOp.andi x v reducesTo_S100x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S100x58 .f32 := Host.absf main_arg12
  let main_cst_18 : FVec F S_ .f32 := constant S_ .f32 0x7F800000#32
  let main_v50 : FVec F S100x58 .f32 := broadcastInDim S100x58 ![] bcast_S_S100x58 main_cst_18
  fn_part3 (F := F) main_arg13 main_arg14 main_arg15 main_arg16 main_arg17 main_v48 main_v49 main_v50

def fn_part1 {F : FTy → Type} [FloatOps F] (main_arg6 : FVec F S300x100 .f32) (main_arg7 : FVec F S300x100 .f32) (main_arg8 : FVec F S100 .f32) (main_arg9 : FVec F S100x1 .f32) (main_arg10 : FVec F S100x1 .f32) (main_arg11 : FVec F S1 .f32) (main_arg12 : FVec F S100x58 .f32) (main_arg13 : FVec F S100 .f32) (main_arg14 : FVec F S100x58 .f32) (main_arg15 : FVec F S100 .f32) (main_arg16 : FVec F S1 .f32) (main_arg17 : FVec F S1 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x100 .f32 := Host.absf main_arg6
  let main_cst_6 : FVec F S_ .f32 := constant S_ .f32 0x7F800000#32
  let main_v20 : FVec F S300x100 .f32 := broadcastInDim S300x100 ![] bcast_S_S300x100 main_cst_6
  let main_v21 : IVec S300x100 1 := cmpf .olt main_v19 main_v20
  let main_c_7 : IVec S_ 1 := constantI S_ 1 1#1
  let main_v22 : IVec S_ 1 := (fun x v => Host.reduce IntOp.andi x v reducesTo_S300x100_S_d0_1 h_S_) main_v21 main_c_7
  let main_v23 : IVec S_ 1 := andi main_v18 main_v22
  let main_v24 : FVec F S300x100 .f32 := Host.absf main_arg7
  let main_cst_8 : FVec F S_ .f32 := constant S_ .f32 0x7F800000#32
  let main_v25 : FVec F S300x100 .f32 := broadcastInDim S300x100 ![] bcast_S_S300x100 main_cst_8
  let main_v26 : IVec S300x100 1 := cmpf .olt main_v24 main_v25
  let main_c_9 : IVec S_ 1 := constantI S_ 1 1#1
  let main_v27 : IVec S_ 1 := (fun x v => Host.reduce IntOp.andi x v reducesTo_S300x100_S_d0_1 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x58 .f32) (main_arg1 : IVec S2x800000 32) (main_arg2 : IVec S2x800000 32) (main_arg3 : FVec F S58x300 .f32) (main_arg4 : FVec F S58x300 .f32) (main_arg5 : FVec F S300 .f32) (main_arg6 : FVec F S300x100 .f32) (main_arg7 : FVec F S300x100 .f32) (main_arg8 : FVec F S100 .f32) (main_arg9 : FVec F S100x1 .f32) (main_arg10 : FVec F S100x1 .f32) (main_arg11 : FVec F S1 .f32) (main_arg12 : FVec F S100x58 .f32) (main_arg13 : FVec F S100 .f32) (main_arg14 : FVec F S100x58 .f32) (main_arg15 : FVec F S100 .f32) (main_arg16 : FVec F S1 .f32) (main_arg17 : FVec F S1 .f32) : IVec S_ 1 :=
  let main_v0 : FVec F S50000x58 .f32 := Host.absf main_arg0
  let main_cst : FVec F S_ .f32 := constant S_ .f32 0x7F800000#32
  let main_v1 : FVec F S50000x58 .f32 := broadcastInDim S50000x58 ![] bcast_S_S50000x58 main_cst
  let main_v2 : IVec S50000x58 1 := cmpf .olt main_v0 main_v1
  let main_c : IVec S_ 1 := constantI S_ 1 1#1
  let main_v3 : IVec S_ 1 := (fun x v => Host.reduce IntOp.andi x v reducesTo_S50000x58_S_d0_1 h_S_) main_v2 main_c
  let main_v4 : FVec F S58x300 .f32 := Host.absf main_arg3
  let main_cst_0 : FVec F S_ .f32 := constant S_ .f32 0x7F800000#32
  let main_v5 : FVec F S58x300 .f32 := broadcastInDim S58x300 ![] bcast_S_S58x300 main_cst_0
  let main_v6 : IVec S58x300 1 := cmpf .olt main_v4 main_v5
  let main_c_1 : IVec S_ 1 := constantI S_ 1 1#1
  let main_v7 : IVec S_ 1 := (fun x v => Host.reduce IntOp.andi x v reducesTo_S58x300_S_d0_1 h_S_) main_v6 main_c_1
  let main_v8 : IVec S_ 1 := andi main_v3 main_v7
  let main_v9 : FVec F S58x300 .f32 := Host.absf main_arg4
  let main_cst_2 : FVec F S_ .f32 := constant S_ .f32 0x7F800000#32
  let main_v10 : FVec F S58x300 .f32 := broadcastInDim S58x300 ![] bcast_S_S58x300 main_cst_2
  let main_v11 : IVec S58x300 1 := cmpf .olt main_v9 main_v10
  let main_c_3 : IVec S_ 1 := constantI S_ 1 1#1
  let main_v12 : IVec S_ 1 := (fun x v => Host.reduce IntOp.andi x v reducesTo_S58x300_S_d0_1 h_S_) main_v11 main_c_3
  let main_v13 : IVec S_ 1 := andi main_v8 main_v12
  let main_v14 : FVec F S300 .f32 := Host.absf main_arg5
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x58 : Shape := ⟨2, ![50000, 58]⟩
abbrev S2x800000 : Shape := ⟨2, ![2, 800000]⟩
abbrev S58x300 : Shape := ⟨2, ![58, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S100x58 : Shape := ⟨2, ![100, 58]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x58 : Shape := ⟨2, ![800000, 58]⟩
abbrev S1x300 : Shape := ⟨2, ![1, 300]⟩
abbrev S50000x300 : Shape := ⟨2, ![50000, 300]⟩
abbrev S2000x58 : Shape := ⟨2, ![2000, 58]⟩
abbrev S2000x300 : Shape := ⟨2, ![2000, 300]⟩
abbrev S800000x300 : Shape := ⟨2, ![800000, 300]⟩
abbrev S1x100 : Shape := ⟨2, ![1, 100]⟩
abbrev S50000x100 : Shape := ⟨2, ![50000, 100]⟩
abbrev S2000x100 : Shape := ⟨2, ![2000, 100]⟩
abbrev S58x100 : Shape := ⟨2, ![58, 100]⟩
abbrev S800000x100 : Shape := ⟨2, ![800000, 100]⟩
abbrev S1x2 : Shape := ⟨2, ![1, 2]⟩
abbrev S4000x100 : Shape := ⟨2, ![4000, 100]⟩
abbrev S4000 : Shape := ⟨1, ![4000]⟩
abbrev S4000x1 : Shape := ⟨2, ![4000, 1]⟩
abbrev S1x1 : Shape := ⟨2, ![1, 1]⟩
abbrev S50000x1 : Shape := ⟨2, ![50000, 1]⟩
abbrev S2000x1 : Shape := ⟨2, ![2000, 1]⟩

abbrev nBuf : Space → Nat
  | .hbm => 180
  | .vmem => 48
  | .smem => 0
  | _ => 0

abbrev hbmTy0_0 (i : Nat) : BufTy := match i % 128 with
  | 0 => ⟨S50000x58, .f32⟩
  | 1 => ⟨S2x800000, .i32⟩
  | 2 => ⟨S2x800000, .i32⟩
  | 3 => ⟨S58x300, .f32⟩
  | 4 => ⟨S58x300, .f32⟩
  | 5 => ⟨S300, .f32⟩
  | 6 => ⟨S300x100, .f32⟩
  | 7 => ⟨S300x100, .f32⟩
  | 8 => ⟨S100, .f32⟩
  | 9 => ⟨S100x1, .f32⟩
  | 10 => ⟨S100x1, .f32⟩
  | 11 => ⟨S1, .f32⟩
  | 12 => ⟨S100x58, .f32⟩
  | 13 => ⟨S100, .f32⟩
  | 14 => ⟨S100x58, .f32⟩
  | 15 => ⟨S100, .f32⟩
  | 16 => ⟨S1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .i1⟩
  | 34 => ⟨S_, .f32⟩
  | 35 => ⟨S_, .f32⟩
  | 36 => ⟨S50000, .f32⟩
  | 37 => ⟨S50000, .f32⟩
  | 38 => ⟨S50000, .f32⟩
  | 39 => ⟨S_, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S800000, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x58, .f32⟩
  | 75 => ⟨S800000x1, .f32⟩
  | 76 => ⟨S800000x58, .f32⟩
  | 77 => ⟨S800000x58, .f32⟩
  | 78 => ⟨S_, .f32⟩
  | 79 => ⟨S50000x58, .f32⟩
  | 80 => ⟨S800000x1, .i32⟩
  | 81 => ⟨S50000x58, .f32⟩
  | 82 => ⟨S1x300, .f32⟩
  | 83 => ⟨S50000x300, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x300, .f32⟩
  | 93 => ⟨S800000x1, .f32⟩
  | 94 => ⟨S800000x300, .f32⟩
  | 95 => ⟨S800000x300, .f32⟩
  | 96 => ⟨S_, .f32⟩
  | 97 => ⟨S50000x300, .f32⟩
  | 98 => ⟨S800000x1, .i32⟩
  | 99 => ⟨S50000x300, .f32⟩
  | 100 => ⟨S1x100, .f32⟩
  | 101 => ⟨S50000x100, .f32⟩
  | 102 => ⟨S58x100, .f32⟩
  | 103 => ⟨S58x100, .f32⟩
  | 104 => ⟨S1x100, .f32⟩
  | 105 => ⟨S1x100, .f32⟩
  | 106 => ⟨S50000x100, .f32⟩
  | 107 => ⟨S50000x100, .f32⟩
  | 108 => ⟨S1x800000, .i32⟩
  | 109 => ⟨S800000, .i32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x100, .f32⟩
  | 119 => ⟨S1x800000, .i32⟩
  | 120 => ⟨S800000, .i32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x58, .f32⟩

abbrev hbmTy0_1 (i : Nat) : BufTy := match i % 128 with
  | 0 => ⟨S800000x1, .i32⟩
  | 1 => ⟨S800000x100, .f32⟩
  | 2 => ⟨S1x800000, .i32⟩
  | 3 => ⟨S800000, .i32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x100, .f32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x100, .f32⟩
  | 24 => ⟨S1x2, .f32⟩
  | 25 => ⟨S1x1, .f32⟩
  | 26 => ⟨S_, .f32⟩
  | 27 => ⟨S_, .f32⟩
  | 28 => ⟨S_, .f32⟩
  | 29 => ⟨S1x1, .f32⟩
  | 30 => ⟨S_, .f32⟩
  | 31 => ⟨S_, .f32⟩
  | 32 => ⟨S_, .f32⟩
  | 33 => ⟨S_, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x100, .f32⟩
  | 43 => ⟨S800000x1, .f32⟩
  | 44 => ⟨S800000x100, .f32⟩
  | 45 => ⟨S800000x100, .f32⟩
  | 46 => ⟨S_, .f32⟩
  | 47 => ⟨S50000x100, .f32⟩
  | 48 => ⟨S800000x1, .i32⟩
  | 49 => ⟨S50000x100, .f32⟩
  | 50 => ⟨S1x1, .f32⟩
  | 51 => ⟨S50000x1, .f32⟩
  | _ => ⟨S50000x58, .f32⟩

abbrev hbmTy (i : Nat) : BufTy := match i / 128 with
  | 0 => hbmTy0_0 i
  | 1 => hbmTy0_1 i
  | _ => ⟨S50000x58, .f32⟩

abbrev bufTy : (tb : Table) → Fin (tcTables nBuf tb) → BufTy
  | .hbm, ⟨i, _⟩ => hbmTy i
  | .local _ .vmem, ⟨0, _⟩ => ⟨S2000x58, .f32⟩
  | .local _ .vmem, ⟨1, _⟩ => ⟨S2000x58, .f32⟩
  | .local _ .vmem, ⟨2, _⟩ => ⟨S2000x58, .f32⟩
  | .local _ .vmem, ⟨3, _⟩ => ⟨S2000x58, .f32⟩
  | .local _ .vmem, ⟨4, _⟩ => ⟨S58x300, .f32⟩
  | .local _ .vmem, ⟨5, _⟩ => ⟨S58x300, .f32⟩
  | .local _ .vmem, ⟨6, _⟩ => ⟨S1x300, .f32⟩
  | .local _ .vmem, ⟨7, _⟩ => ⟨S2000x300, .f32⟩
  | .local _ .vmem, ⟨8, _⟩ => ⟨S2000x300, .f32⟩
  | .local _ .vmem, ⟨9, _⟩ => ⟨S2000x300, .f32⟩
  | .local _ .vmem, ⟨10, _⟩ => ⟨S2000x300, .f32⟩
  | .local _ .vmem, ⟨11, _⟩ => ⟨S2000x300, .f32⟩
  | .local _ .vmem, ⟨12, _⟩ => ⟨S2000x300, .f32⟩
  | .local _ .vmem, ⟨13, _⟩ => ⟨S300x100, .f32⟩
  | .local _ .vmem, ⟨14, _⟩ => ⟨S300x100, .f32⟩
  | .local _ .vmem, ⟨15, _⟩ => ⟨S1x100, .f32⟩
  | .local _ .vmem, ⟨16, _⟩ => ⟨S2000x100, .f32⟩
  | .local _ .vmem, ⟨17, _⟩ => ⟨S2000x100, .f32⟩
  | .local _ .vmem, ⟨18, _⟩ => ⟨S2000x58, .f32⟩
  | .local _ .vmem, ⟨19, _⟩ => ⟨S2000x58, .f32⟩
  | .local _ .vmem, ⟨20, _⟩ => ⟨S2000x100, .f32⟩
  | .local _ .vmem, ⟨21, _⟩ => ⟨S2000x100, .f32⟩
  | .local _ .vmem, ⟨22, _⟩ => ⟨S58x100, .f32⟩
  | .local _ .vmem, ⟨23, _⟩ => ⟨S1x100, .f32⟩
  | .local _ .vmem, ⟨24, _⟩ => ⟨S58x100, .f32⟩
  | .local _ .vmem, ⟨25, _⟩ => ⟨S1x100, .f32⟩
  | .local _ .vmem, ⟨26, _⟩ => ⟨S2000x100, .f32⟩
  | .local _ .vmem, ⟨27, _⟩ => ⟨S2000x100, .f32⟩
  | .local _ .vmem, ⟨28, _⟩ => ⟨S2000x100, .f32⟩
  | .local _ .vmem, ⟨29, _⟩ => ⟨S2000x100, .f32⟩
  | .local _ .vmem, ⟨30, _⟩ => ⟨S4000x100, .f32⟩
  | .local _ .vmem, ⟨31, _⟩ => ⟨S4000x100, .f32⟩
  | .local _ .vmem, ⟨32, _⟩ => ⟨S4000x100, .f32⟩
  | .local _ .vmem, ⟨33, _⟩ => ⟨S4000x100, .f32⟩
  | .local _ .vmem, ⟨34, _⟩ => ⟨S4000x100, .f32⟩
  | .local _ .vmem, ⟨35, _⟩ => ⟨S4000x100, .f32⟩
  | .local _ .vmem, ⟨36, _⟩ => ⟨S4000x100, .f32⟩
  | .local _ .vmem, ⟨37, _⟩ => ⟨S4000x100, .f32⟩
  | .local _ .vmem, ⟨38, _⟩ => ⟨S1x2, .f32⟩
  | .local _ .vmem, ⟨39, _⟩ => ⟨S2000x100, .f32⟩
  | .local _ .vmem, ⟨40, _⟩ => ⟨S2000x100, .f32⟩
  | .local _ .vmem, ⟨41, _⟩ => ⟨S2000x100, .f32⟩
  | .local _ .vmem, ⟨42, _⟩ => ⟨S2000x100, .f32⟩
  | .local _ .vmem, ⟨43, _⟩ => ⟨S100x1, .f32⟩
  | .local _ .vmem, ⟨44, _⟩ => ⟨S100x1, .f32⟩
  | .local _ .vmem, ⟨45, _⟩ => ⟨S1x1, .f32⟩
  | .local _ .vmem, ⟨46, _⟩ => ⟨S2000x1, .f32⟩
  | .local _ .vmem, ⟨47, _⟩ => ⟨S2000x1, .f32⟩
  | _, _ => ⟨S50000x58, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v12 : Ref sig .tc := ⟨.hbm, 37, rfl⟩
abbrev main_v13 : Ref sig .tc := ⟨.hbm, 38, rfl⟩
abbrev main_cst_4 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_6 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_c_8 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_9 : Ref sig .tc := ⟨.hbm, 66, rfl⟩
abbrev main_v33 : Ref sig .tc := ⟨.hbm, 67, rfl⟩
abbrev main_v34 : Ref sig .tc := ⟨.hbm, 68, rfl⟩
abbrev main_c_10 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_11 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_12 : Ref sig .tc := ⟨.hbm, 84, rfl⟩
abbrev main_v48 : Ref sig .tc := ⟨.hbm, 85, rfl⟩
abbrev main_v49 : Ref sig .tc := ⟨.hbm, 86, rfl⟩
abbrev main_c_13 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_14 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67_0 : Ref sig .tc := ⟨.hbm, 106, rfl⟩
abbrev main_v67_1 : Ref sig .tc := ⟨.hbm, 107, rfl⟩
abbrev main_v68 : Ref sig .tc := ⟨.hbm, 108, rfl⟩
abbrev main_v69 : Ref sig .tc := ⟨.hbm, 109, rfl⟩
abbrev main_c_15 : Ref sig .tc := ⟨.hbm, 110, rfl⟩
abbrev main_v70 : Ref sig .tc := ⟨.hbm, 111, rfl⟩
abbrev main_v71 : Ref sig .tc := ⟨.hbm, 112, rfl⟩
abbrev main_c_16 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_17 : Ref sig .tc := ⟨.hbm, 121, rfl⟩
abbrev main_v79 : Ref sig .tc := ⟨.hbm, 122, rfl⟩
abbrev main_v80 : Ref sig .tc := ⟨.hbm, 123, rfl⟩
abbrev main_c_18 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_19 : Ref sig .tc := ⟨.hbm, 132, rfl⟩
abbrev main_v88 : Ref sig .tc := ⟨.hbm, 133, rfl⟩
abbrev main_v89 : Ref sig .tc := ⟨.hbm, 134, rfl⟩
abbrev main_c_20 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_21 : Ref sig .tc := ⟨.hbm, 143, rfl⟩
abbrev main_v97 : Ref sig .tc := ⟨.hbm, 144, rfl⟩
abbrev main_v98 : Ref sig .tc := ⟨.hbm, 145, rfl⟩
abbrev main_c_22 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_23 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_24 : Ref sig .tc := ⟨.hbm, 159, rfl⟩
abbrev main_v110 : Ref sig .tc := ⟨.hbm, 160, rfl⟩
abbrev main_v111 : Ref sig .tc := ⟨.hbm, 161, rfl⟩
abbrev main_c_25 : Ref sig .tc := ⟨.hbm, 162, rfl⟩
abbrev main_v112 : Ref sig .tc := ⟨.hbm, 163, rfl⟩
abbrev main_v113 : Ref sig .tc := ⟨.hbm, 164, rfl⟩
abbrev main_c_26 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_27 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x58 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S58x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S58x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S300x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x58 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S58x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S58x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x100 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x100 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x100 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x100 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x100 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x100 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x100 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S100x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S100x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x58_0_1 : S800000x1.BroadcastsInDim S800000x58 (![0, 1] : Fin 2 → Fin S800000x58.rank)
  bcast_S_S50000x58 : S_.BroadcastsInDim S50000x58 (![] : Fin 0 → Fin S50000x58.rank)
  shapeCasts_S300_S1x300 : S300.ShapeCasts S1x300
  inb_S2000x58_S2000x58_0_0 : ∀ a, (![0, 0] : Fin 2 → Nat) a + S2000x58.size a ≤ S2000x58.size a
  h_S2000x58 : 0 < S2000x58.numel
  bitsLt_bf16_f32 : FTy.bits .bf16 < FTy.bits .f32
  shapeCasts_S2000x58_S2000x58 : S2000x58.ShapeCasts S2000x58
  inb_S58x300_S58x300_0_0 : ∀ a, (![0, 0] : Fin 2 → Nat) a + S58x300.size a ≤ S58x300.size a
  h_S58x300 : 0 < S58x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  inb_S2000x300_S2000x300_0_0 : ∀ a, (![0, 0] : Fin 2 → Nat) a + S2000x300.size a ≤ S2000x300.size a
  h_S2000x300 : 0 < S2000x300.numel
  bcast_S800000x1_S800000x300_0_1 : S800000x1.BroadcastsInDim S800000x300 (![0, 1] : Fin 2 → Fin S800000x300.rank)
  bcast_S_S50000x300 : S_.BroadcastsInDim S50000x300 (![] : Fin 0 → Fin S50000x300.rank)
  shapeCasts_S100_S1x100 : S100.ShapeCasts S1x100
  shapeCasts_S2000x300_S2000x300 : S2000x300.ShapeCasts S2000x300
  inb_S300x100_S300x100_0_0 : ∀ a, (![0, 0] : Fin 2 → Nat) a + S300x100.size a ≤ S300x100.size a
  h_S300x100 : 0 < S300x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2000x100 : S1x100.Broadcasts S2000x100
  inb_S2000x100_S2000x100_0_0 : ∀ a, (![0, 0] : Fin 2 → Nat) a + S2000x100.size a ≤ S2000x100.size a
  h_S2000x100 : 0 < S2000x100.numel
  transposes_S100x58_S58x100_1_0 : S100x58.Transposes [1, 0] S58x100
  inb_S58x100_S58x100_0_0 : ∀ a, (![0, 0] : Fin 2 → Nat) a + S58x100.size a ≤ S58x100.size a
  h_S58x100 : 0 < S58x100.numel
  shapeCasts_S58x100_S58x100 : S58x100.ShapeCasts S58x100
  shapeCasts_S2000x100_S2000x100 : S2000x100.ShapeCasts S2000x100
  inb_S1x2_S1x2_0_0 : ∀ a, (![0, 0] : Fin 2 → Nat) a + S1x2.size a ≤ S1x2.size a
  h_S1x2 : 0 < S1x2.numel
  inb_S4000x100_S4000x100_0_0 : ∀ a, (![0, 0] : Fin 2 → Nat) a + S4000x100.size a ≤ S4000x100.size a
  h_S4000x100 : 0 < S4000x100.numel
  shapeCasts_S4000x100_S4000x100 : S4000x100.ShapeCasts S4000x100
  reduces_S4000x100_S4000 : S4000x100.Reduces [1] S4000
  shapeCasts_S4000_S4000x1 : S4000.ShapeCasts S4000x1
  reduces_S4000x1_S1 : S4000x1.Reduces [0] S1
  shapeCasts_S1_S1x1 : S1.ShapeCasts S1x1
  concatenates_S1x1_S1x1_S1x2_d1 : Shape.Concatenates [S1x1, S1x1] S1x2 1
  shapeCasts_S1x2_S1x2 : S1x2.ShapeCasts S1x2
  slices_S1x2_S1x1_0_0 : S1x2.Slices ![0, 0] S1x1
  shapeCasts_S1x1_S_ : S1x1.ShapeCasts S_
  slices_S1x2_S1x1_0_1 : S1x2.Slices ![0, 1] S1x1
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  inb_S100x1_S100x1_0_0 : ∀ a, (![0, 0] : Fin 2 → Nat) a + S100x1.size a ≤ S100x1.size a
  h_S100x1 : 0 < S100x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x58_S800000x1_S800000x58_1_0_n_n_0_1_158_wf : GatherDims.WF S50000x58 S800000x1 S800000x58 [1] [0] [] [0] [] 1 ![1, 58]
  scatter_S50000x58_S800000x1_S800000x58_1_0_0_1_wf : ScatterDims.WF S50000x58 S800000x1 S800000x58 [1] [0] [0] 1
  dot_S2000x58_S58x300_S2000x300_1_0_0_1_n_n_wf : DotDims.WF S2000x58 S58x300 S2000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S2000x300_S300x100_S2000x100_1_0_0_1_n_n_wf : DotDims.WF S2000x300 S300x100 S2000x100 [1] [0] [0] [1] [] []
  dot_S2000x58_S58x100_S2000x100_1_0_0_1_n_n_wf : DotDims.WF S2000x58 S58x100 S2000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S2000x100_S100x1_S2000x1_1_0_0_1_n_n_wf : DotDims.WF S2000x100 S100x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x58.size a ≤ S50000x58.size a
  hwx0_0 : ∀ i : grid0.Coords, EltTy.bits .f32 = 32 ∨ (Rect.block (s := S50000x58) S2000x58.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x58.size a ≤ S50000x58.size a
  hwx0_1 : ∀ i : grid0.Coords, EltTy.bits .f32 = 32 ∨ (Rect.block (s := S50000x58) S2000x58.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S58x300.size a ≤ S58x300.size a
  hwx0_2 : ∀ i : grid0.Coords, EltTy.bits .f32 = 32 ∨ (Rect.block (s := S58x300) S58x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S58x300.size a ≤ S58x300.size a
  hwx0_3 : ∀ i : grid0.Coords, EltTy.bits .f32 = 32 ∨ (Rect.block (s := S58x300) S58x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x300.size a ≤ S50000x300.size a
  hwx0_5 : ∀ i : grid0.Coords, EltTy.bits .f32 = 32 ∨ (Rect.block (s := S50000x300) S2000x300.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S50000x300.size a
  hwx1_0 : ∀ i : grid1.Coords, EltTy.bits .f32 = 32 ∨ (Rect.block (s := S50000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x300.size a ≤ S50000x300.size a
  hwx1_1 : ∀ i : grid1.Coords, EltTy.bits .f32 = 32 ∨ (Rect.block (s := S50000x300) S2000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x100.size a ≤ S300x100.size a
  hwx1_2 : ∀ i : grid1.Coords, EltTy.bits .f32 = 32 ∨ (Rect.block (s := S300x100) S300x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x100.size a ≤ S300x100.size a
  hwx1_3 : ∀ i : grid1.Coords, EltTy.bits .f32 = 32 ∨ (Rect.block (s := S300x100) S300x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x100.size a ≤ S50000x100.size a
  hwx1_5 : ∀ i : grid1.Coords, EltTy.bits .f32 = 32 ∨ (Rect.block (s := S50000x100) S2000x100.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x58.size a ≤ S50000x58.size a
  hwx2_0 : ∀ i : grid2.Coords, EltTy.bits .f32 = 32 ∨ (Rect.block (s := S50000x58) S2000x58.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x100.size a ≤ S50000x100.size a
  hwx2_1 : ∀ i : grid2.Coords, EltTy.bits .f32 = 32 ∨ (Rect.block (s := S50000x100) S2000x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S58x100.size a ≤ S58x100.size a
  hwx2_2 : ∀ i : grid2.Coords, EltTy.bits .f32 = 32 ∨ (Rect.block (s := S58x100) S58x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x100.size a ≤ S1x100.size a
  hwx2_3 : ∀ i : grid2.Coords, EltTy.bits .f32 = 32 ∨ (Rect.block (s := S1x100) S1x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S58x100.size a ≤ S58x100.size a
  hwx2_4 : ∀ i : grid2.Coords, EltTy.bits .f32 = 32 ∨ (Rect.block (s := S58x100) S58x100.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x100.size a ≤ S1x100.size a
  hwx2_5 : ∀ i : grid2.Coords, EltTy.bits .f32 = 32 ∨ (Rect.block (s := S1x100) S1x100.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x100.size a ≤ S50000x100.size a
  hwx2_6 : ∀ i : grid2.Coords, EltTy.bits .f32 = 32 ∨ (Rect.block (s := S50000x100) S2000x100.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x100.size a ≤ S50000x100.size a
  hwx2_7 : ∀ i : grid2.Coords, EltTy.bits .f32 = 32 ∨ (Rect.block (s := S50000x100) S2000x100.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x100.size a ≤ S800000x100.size a
  hwx3_0 : ∀ i : grid3.Coords, EltTy.bits .f32 = 32 ∨ (Rect.block (s := S800000x100) S4000x100.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x100.size a ≤ S800000x100.size a
  hwx3_1 : ∀ i : grid3.Coords, EltTy.bits .f32 = 32 ∨ (Rect.block (s := S800000x100) S4000x100.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x100.size a ≤ S800000x100.size a
  hwx3_2 : ∀ i : grid3.Coords, EltTy.bits .f32 = 32 ∨ (Rect.block (s := S800000x100) S4000x100.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x100.size a ≤ S800000x100.size a
  hwx3_3 : ∀ i : grid3.Coords, EltTy.bits .f32 = 32 ∨ (Rect.block (s := S800000x100) S4000x100.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x100.size a ≤ S50000x100.size a
  hwx4_0 : ∀ i : grid4.Coords, EltTy.bits .f32 = 32 ∨ (Rect.block (s := S50000x100) S2000x100.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x100.size a ≤ S50000x100.size a
  hwx4_1 : ∀ i : grid4.Coords, EltTy.bits .f32 = 32 ∨ (Rect.block (s := S50000x100) S2000x100.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S100x1.size a ≤ S100x1.size a
  hwx4_2 : ∀ i : grid4.Coords, EltTy.bits .f32 = 32 ∨ (Rect.block (s := S100x1) S100x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S100x1.size a ≤ S100x1.size a
  hwx4_3 : ∀ i : grid4.Coords, EltTy.bits .f32 = 32 ∨ (Rect.block (s := S100x1) S100x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x1.size a ≤ S50000x1.size a
  hwx4_5 : ∀ i : grid4.Coords, EltTy.bits .f32 = 32 ∨ (Rect.block (s := S50000x1) S2000x1.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x58_S800000x1_S800000x58_1_0_n_n_0_1_158 : GatherDims S50000x58 S800000x1 S800000x58 where
  offsetDims := [1]
  collapsedSliceDims := [0]
  operandBatchingDims := []
  startIndicesBatchingDims := []
  startIndexMap := [0]
  indexVectorDim := 1
  sliceSizes := ![1, 58]
  wf := gather_S50000x58_S800000x1_S800000x58_1_0_n_n_0_1_158_wf
def scatter_S50000x58_S800000x1_S800000x58_1_0_0_1 : ScatterDims S50000x58 S800000x1 S800000x58 where
  updateWindowDims := [1]
  insertedWindowDims := [0]
  scatterDimsToOperandDims := [0]
  indexVectorDim := 1
  wf := scatter_S50000x58_S800000x1_S800000x58_1_0_0_1_wf
def dot_S2000x58_S58x300_S2000x300_1_0_0_1_n_n : DotDims S2000x58 S58x300 S2000x300 where
  lhsContracting := [1]
  rhsContracting := [0]
  lhsNonContracting := [0]
  rhsNonContracting := [1]
  lhsBatch := []
  rhsBatch := []
  wf := dot_S2000x58_S58x300_S2000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S2000x300_S300x100_S2000x100_1_0_0_1_n_n : DotDims S2000x300 S300x100 S2000x100 where
  lhsContracting := [1]
  rhsContracting := [0]
  lhsNonContracting := [0]
  rhsNonContracting := [1]
  lhsBatch := []
  rhsBatch := []
  wf := dot_S2000x300_S300x100_S2000x100_1_0_0_1_n_n_wf
def dot_S2000x58_S58x100_S2000x100_1_0_0_1_n_n : DotDims S2000x58 S58x100 S2000x100 where
  lhsContracting := [1]
  rhsContracting := [0]
  lhsNonContracting := [0]
  rhsNonContracting := [1]
  lhsBatch := []
  rhsBatch := []
  wf := dot_S2000x58_S58x100_S2000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S2000x100_S100x1_S2000x1_1_0_0_1_n_n : DotDims S2000x100 S100x1 S2000x1 where
  lhsContracting := [1]
  rhsContracting := [0]
  lhsNonContracting := [0]
  rhsNonContracting := [1]
  lhsBatch := []
  rhsBatch := []
  wf := dot_S2000x100_S100x1_S2000x1_1_0_0_1_n_n_wf

abbrev win0_0 : Pipeline.Window sig grid0 :=
  Pipeline.Window.ofSpec (Memref.whole main_arg0) S2000x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S2000x58.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S58x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S58x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S2000x300.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S2000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S300x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S300x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S2000x100.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S2000x58.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S2000x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S58x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S58x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S1x100.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v67_0) S2000x100.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v67_1) S2000x100.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v76) S4000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S4000x100.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v94) S4000x100.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v103) S4000x100.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v104) S1x2.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v67_0) S2000x100.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v124) S2000x100.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S100x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S100x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v125) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v126) S2000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x58 : Shape := ⟨2, ![50000, 58]⟩
abbrev S2x800000 : Shape := ⟨2, ![2, 800000]⟩
abbrev S58x300 : Shape := ⟨2, ![58, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S100x58 : Shape := ⟨2, ![100, 58]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x58 : Shape := ⟨2, ![800000, 58]⟩
abbrev S50000x300 : Shape := ⟨2, ![50000, 300]⟩
abbrev S1x300 : Shape := ⟨2, ![1, 300]⟩
abbrev S800000x300 : Shape := ⟨2, ![800000, 300]⟩
abbrev S50000x100 : Shape := ⟨2, ![50000, 100]⟩
abbrev S1x100 : Shape := ⟨2, ![1, 100]⟩
abbrev S58x100 : Shape := ⟨2, ![58, 100]⟩
abbrev S800000x100 : Shape := ⟨2, ![800000, 100]⟩
abbrev S50000x1 : Shape := ⟨2, ![50000, 1]⟩
abbrev S1x1 : Shape := ⟨2, ![1, 1]⟩

abbrev nBuf : Space → Nat
  | .hbm => 244
  | .vmem => 0
  | .smem => 0
  | _ => 0

abbrev hbmTy0_0 (i : Nat) : BufTy := match i % 128 with
  | 0 => ⟨S50000x58, .f32⟩
  | 1 => ⟨S2x800000, .i32⟩
  | 2 => ⟨S2x800000, .i32⟩
  | 3 => ⟨S58x300, .f32⟩
  | 4 => ⟨S58x300, .f32⟩
  | 5 => ⟨S300, .f32⟩
  | 6 => ⟨S300x100, .f32⟩
  | 7 => ⟨S300x100, .f32⟩
  | 8 => ⟨S100, .f32⟩
  | 9 => ⟨S100x1, .f32⟩
  | 10 => ⟨S100x1, .f32⟩
  | 11 => ⟨S1, .f32⟩
  | 12 => ⟨S100x58, .f32⟩
  | 13 => ⟨S100, .f32⟩
  | 14 => ⟨S100x58, .f32⟩
  | 15 => ⟨S100, .f32⟩
  | 16 => ⟨S1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .i1⟩
  | 34 => ⟨S_, .f32⟩
  | 35 => ⟨S_, .f32⟩
  | 36 => ⟨S50000, .f32⟩
  | 37 => ⟨S50000, .f32⟩
  | 38 => ⟨S50000, .f32⟩
  | 39 => ⟨S_, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S800000, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x58, .f32⟩
  | 75 => ⟨S800000x1, .f32⟩
  | 76 => ⟨S800000x58, .f32⟩
  | 77 => ⟨S800000x58, .f32⟩
  | 78 => ⟨S_, .f32⟩
  | 79 => ⟨S50000x58, .f32⟩
  | 80 => ⟨S800000x1, .i32⟩
  | 81 => ⟨S50000x58, .f32⟩
  | 82 => ⟨S50000x300, .f32⟩
  | 83 => ⟨S50000x300, .f32⟩
  | 84 => ⟨S50000x300, .f32⟩
  | 85 => ⟨S1x300, .f32⟩
  | 86 => ⟨S50000x300, .f32⟩
  | 87 => ⟨S50000x300, .f32⟩
  | 88 => ⟨S_, .f32⟩
  | 89 => ⟨S50000x300, .f32⟩
  | 90 => ⟨S50000x300, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x300, .f32⟩
  | 100 => ⟨S800000x1, .f32⟩
  | 101 => ⟨S800000x300, .f32⟩
  | 102 => ⟨S800000x300, .f32⟩
  | 103 => ⟨S_, .f32⟩
  | 104 => ⟨S50000x300, .f32⟩
  | 105 => ⟨S800000x1, .i32⟩
  | 106 => ⟨S50000x300, .f32⟩
  | 107 => ⟨S50000x100, .f32⟩
  | 108 => ⟨S50000x100, .f32⟩
  | 109 => ⟨S50000x100, .f32⟩
  | 110 => ⟨S1x100, .f32⟩
  | 111 => ⟨S50000x100, .f32⟩
  | 112 => ⟨S50000x100, .f32⟩
  | 113 => ⟨S_, .f32⟩
  | 114 => ⟨S50000x100, .f32⟩
  | 115 => ⟨S50000x100, .f32⟩
  | 116 => ⟨S58x100, .f32⟩
  | 117 => ⟨S50000x100, .f32⟩
  | 118 => ⟨S1x100, .f32⟩
  | 119 => ⟨S50000x100, .f32⟩
  | 120 => ⟨S50000x100, .f32⟩
  | 121 => ⟨S_, .f32⟩
  | 122 => ⟨S50000x100, .f32⟩
  | 123 => ⟨S50000x100, .f32⟩
  | 124 => ⟨S50000x100, .f32⟩
  | 125 => ⟨S58x100, .f32⟩
  | 126 => ⟨S50000x100, .f32⟩
  | 127 => ⟨S1x100, .f32⟩
  | _ => ⟨S50000x58, .f32⟩

abbrev hbmTy0_1 (i : Nat) : BufTy := match i % 128 with
  | 0 => ⟨S50000x100, .f32⟩
  | 1 => ⟨S50000x100, .f32⟩
  | 2 => ⟨S_, .f32⟩
  | 3 => ⟨S50000x100, .f32⟩
  | 4 => ⟨S50000x100, .f32⟩
  | 5 => ⟨S50000x100, .f32⟩
  | 6 => ⟨S1x800000, .i32⟩
  | 7 => ⟨S800000, .i32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x100, .f32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x100, .f32⟩
  | 28 => ⟨S800000x100, .f32⟩
  | 29 => ⟨S_, .f32⟩
  | 30 => ⟨S800000, .f32⟩
  | 31 => ⟨S800000, .f32⟩
  | 32 => ⟨S800000, .f32⟩
  | 33 => ⟨S_, .f32⟩
  | 34 => ⟨S800000, .f32⟩
  | 35 => ⟨S800000, .f32⟩
  | 36 => ⟨S_, .f32⟩
  | 37 => ⟨S800000, .f32⟩
  | 38 => ⟨S800000, .f32⟩
  | 39 => ⟨S_, .f32⟩
  | 40 => ⟨S800000, .f32⟩
  | 41 => ⟨S800000, .f32⟩
  | 42 => ⟨S800000, .f32⟩
  | 43 => ⟨S_, .f32⟩
  | 44 => ⟨S_, .f32⟩
  | 45 => ⟨S_, .f32⟩
  | 46 => ⟨S_, .f32⟩
  | 47 => ⟨S_, .f32⟩
  | 48 => ⟨S1x800000, .i32⟩
  | 49 => ⟨S800000, .i32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x100, .f32⟩
  | 59 => ⟨S1x800000, .i32⟩
  | 60 => ⟨S800000, .i32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x100, .f32⟩
  | 70 => ⟨S800000x100, .f32⟩
  | 71 => ⟨S_, .f32⟩
  | 72 => ⟨S800000, .f32⟩
  | 73 => ⟨S800000, .f32⟩
  | 74 => ⟨S800000, .f32⟩
  | 75 => ⟨S_, .f32⟩
  | 76 => ⟨S800000, .f32⟩
  | 77 => ⟨S800000, .f32⟩
  | 78 => ⟨S_, .f32⟩
  | 79 => ⟨S800000, .f32⟩
  | 80 => ⟨S800000, .f32⟩
  | 81 => ⟨S_, .f32⟩
  | 82 => ⟨S800000, .f32⟩
  | 83 => ⟨S800000, .f32⟩
  | 84 => ⟨S_, .f32⟩
  | 85 => ⟨S800000, .f32⟩
  | 86 => ⟨S800000, .f32⟩
  | 87 => ⟨S800000, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x100, .f32⟩
  | 103 => ⟨S800000x1, .f32⟩
  | 104 => ⟨S800000x100, .f32⟩
  | 105 => ⟨S800000x100, .f32⟩
  | 106 => ⟨S_, .f32⟩
  | 107 => ⟨S50000x100, .f32⟩
  | 108 => ⟨S800000x1, .i32⟩
  | 109 => ⟨S50000x100, .f32⟩
  | 110 => ⟨S50000x1, .f32⟩
  | 111 => ⟨S50000x1, .f32⟩
  | 112 => ⟨S50000x1, .f32⟩
  | 113 => ⟨S1x1, .f32⟩
  | 114 => ⟨S50000x1, .f32⟩
  | 115 => ⟨S50000x1, .f32⟩
  | _ => ⟨S50000x58, .f32⟩

abbrev hbmTy (i : Nat) : BufTy := match i / 128 with
  | 0 => hbmTy0_0 i
  | 1 => hbmTy0_1 i
  | _ => ⟨S50000x58, .f32⟩

abbrev bufTy : (tb : Table) → Fin (tcTables nBuf tb) → BufTy
  | .hbm, ⟨i, _⟩ => hbmTy i
  | _, _ => ⟨S50000x58, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v12 : Ref sig .tc := ⟨.hbm, 37, rfl⟩
abbrev main_v13 : Ref sig .tc := ⟨.hbm, 38, rfl⟩
abbrev main_cst_4 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_6 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_c_8 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_9 : Ref sig .tc := ⟨.hbm, 66, rfl⟩
abbrev main_v33 : Ref sig .tc := ⟨.hbm, 67, rfl⟩
abbrev main_v34 : Ref sig .tc := ⟨.hbm, 68, rfl⟩
abbrev main_c_10 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_11 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_cst : Ref sig .tc := ⟨.hbm, 88, rfl⟩
abbrev main_call2_v0 : Ref sig .tc := ⟨.hbm, 89, rfl⟩
abbrev main_v52 : Ref sig .tc := ⟨.hbm, 90, rfl⟩
abbrev main_c_12 : Ref sig .tc := ⟨.hbm, 91, rfl⟩
abbrev main_v53 : Ref sig .tc := ⟨.hbm, 92, rfl⟩
abbrev main_v54 : Ref sig .tc := ⟨.hbm, 93, rfl⟩
abbrev main_c_13 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_14 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_call3_cst : Ref sig .tc := ⟨.hbm, 113, rfl⟩
abbrev main_call3_v0 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_call4_cst : Ref sig .tc := ⟨.hbm, 121, rfl⟩
abbrev main_call4_v0 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_call5_cst : Ref sig .tc := ⟨.hbm, 130, rfl⟩
abbrev main_call5_v0 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_15 : Ref sig .tc := ⟨.hbm, 136, rfl⟩
abbrev main_v89 : Ref sig .tc := ⟨.hbm, 137, rfl⟩
abbrev main_v90 : Ref sig .tc := ⟨.hbm, 138, rfl⟩
abbrev main_c_16 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_17 : Ref sig .tc := ⟨.hbm, 147, rfl⟩
abbrev main_v98 : Ref sig .tc := ⟨.hbm, 148, rfl⟩
abbrev main_v99 : Ref sig .tc := ⟨.hbm, 149, rfl⟩
abbrev main_c_18 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_19 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_20 : Ref sig .tc := ⟨.hbm, 161, rfl⟩
abbrev main_v109 : Ref sig .tc := ⟨.hbm, 162, rfl⟩
abbrev main_v110 : Ref sig .tc := ⟨.hbm, 163, rfl⟩
abbrev main_cst_21 : Ref sig .tc := ⟨.hbm, 164, rfl⟩
abbrev main_v111 : Ref sig .tc := ⟨.hbm, 165, rfl⟩
abbrev main_v112 : Ref sig .tc := ⟨.hbm, 166, rfl⟩
abbrev main_cst_22 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_23 : Ref sig .tc := ⟨.hbm, 171, rfl⟩
abbrev main_v116 : Ref sig .tc := ⟨.hbm, 172, rfl⟩
abbrev main_cst_24 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_c_25 : Ref sig .tc := ⟨.hbm, 178, rfl⟩
abbrev main_v121 : Ref sig .tc := ⟨.hbm, 179, rfl⟩
abbrev main_v122 : Ref sig .tc := ⟨.hbm, 180, rfl⟩
abbrev main_c_26 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_c_27 : Ref sig .tc := ⟨.hbm, 189, rfl⟩
abbrev main_v130 : Ref sig .tc := ⟨.hbm, 190, rfl⟩
abbrev main_v131 : Ref sig .tc := ⟨.hbm, 191, rfl⟩
abbrev main_c_28 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_cst_29 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_cst_30 : Ref sig .tc := ⟨.hbm, 203, rfl⟩
abbrev main_v141 : Ref sig .tc := ⟨.hbm, 204, rfl⟩
abbrev main_v142 : Ref sig .tc := ⟨.hbm, 205, rfl⟩
abbrev main_cst_31 : Ref sig .tc := ⟨.hbm, 206, rfl⟩
abbrev main_v143 : Ref sig .tc := ⟨.hbm, 207, rfl⟩
abbrev main_v144 : Ref sig .tc := ⟨.hbm, 208, rfl⟩
abbrev main_cst_32 : Ref sig .tc := ⟨.hbm, 209, rfl⟩
abbrev main_v145 : Ref sig .tc := ⟨.hbm, 210, rfl⟩
abbrev main_v146 : Ref sig .tc := ⟨.hbm, 211, rfl⟩
abbrev main_cst_33 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_cst_34 : Ref sig .tc := ⟨.hbm, 216, rfl⟩
abbrev main_v150 : Ref sig .tc := ⟨.hbm, 217, rfl⟩
abbrev main_cst_35 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_c_36 : Ref sig .tc := ⟨.hbm, 222, rfl⟩
abbrev main_v154 : Ref sig .tc := ⟨.hbm, 223, rfl⟩
abbrev main_v155 : Ref sig .tc := ⟨.hbm, 224, rfl⟩
abbrev main_c_37 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_38 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x58_0_1 : S800000x1.BroadcastsInDim S800000x58 (![0, 1] : Fin 2 → Fin S800000x58.rank)
  bcast_S_S50000x58 : S_.BroadcastsInDim S50000x58 (![] : Fin 0 → Fin S50000x58.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  bcast_S800000x1_S800000x300_0_1 : S800000x1.BroadcastsInDim S800000x300 (![0, 1] : Fin 2 → Fin S800000x300.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  transposes_S100x58_S58x100_1_0 : S100x58.Transposes [1, 0] S58x100
  reducesTo_S800000x100_S800000_d1 : S800000x100.ReducesTo [1] S800000
  h_S_ : 0 < S_.numel
  reducesTo_S800000_S_d0 : S800000.ReducesTo [0] S_
  bcast_S800000x1_S800000x100_0_1 : S800000x1.BroadcastsInDim S800000x100 (![0, 1] : Fin 2 → Fin S800000x100.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x58_S800000x1_S800000x58_1_0_n_n_0_1_158_wf : GatherDims.WF S50000x58 S800000x1 S800000x58 [1] [0] [] [0] [] 1 ![1, 58]
  scatter_S50000x58_S800000x1_S800000x58_1_0_0_1_wf : ScatterDims.WF S50000x58 S800000x1 S800000x58 [1] [0] [0] 1
  dot_S50000x58_S58x300_S50000x300_1_0_0_1_n_n_wf : DotDims.WF S50000x58 S58x300 S50000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S50000x300_S300x100_S50000x100_1_0_0_1_n_n_wf : DotDims.WF S50000x300 S300x100 S50000x100 [1] [0] [0] [1] [] []
  dot_S50000x58_S58x100_S50000x100_1_0_0_1_n_n_wf : DotDims.WF S50000x58 S58x100 S50000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x1_S50000x1_1_0_0_1_n_n_wf : DotDims.WF S50000x100 S100x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x58_S800000x1_S800000x58_1_0_n_n_0_1_158 : GatherDims S50000x58 S800000x1 S800000x58 where
  offsetDims := [1]
  collapsedSliceDims := [0]
  operandBatchingDims := []
  startIndicesBatchingDims := []
  startIndexMap := [0]
  indexVectorDim := 1
  sliceSizes := ![1, 58]
  wf := gather_S50000x58_S800000x1_S800000x58_1_0_n_n_0_1_158_wf
def scatter_S50000x58_S800000x1_S800000x58_1_0_0_1 : ScatterDims S50000x58 S800000x1 S800000x58 where
  updateWindowDims := [1]
  insertedWindowDims := [0]
  scatterDimsToOperandDims := [0]
  indexVectorDim := 1
  wf := scatter_S50000x58_S800000x1_S800000x58_1_0_0_1_wf
def dot_S50000x58_S58x300_S50000x300_1_0_0_1_n_n : DotDims S50000x58 S58x300 S50000x300 where
  lhsContracting := [1]
  rhsContracting := [0]
  lhsNonContracting := [0]
  rhsNonContracting := [1]
  lhsBatch := []
  rhsBatch := []
  wf := dot_S50000x58_S58x300_S50000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S50000x300_S300x100_S50000x100_1_0_0_1_n_n : DotDims S50000x300 S300x100 S50000x100 where
  lhsContracting := [1]
  rhsContracting := [0]
  lhsNonContracting := [0]
  rhsNonContracting := [1]
  lhsBatch := []
  rhsBatch := []
  wf := dot_S50000x300_S300x100_S50000x100_1_0_0_1_n_n_wf
def dot_S50000x58_S58x100_S50000x100_1_0_0_1_n_n : DotDims S50000x58 S58x100 S50000x100 where
  lhsContracting := [1]
  rhsContracting := [0]
  lhsNonContracting := [0]
  rhsNonContracting := [1]
  lhsBatch := []
  rhsBatch := []
  wf := dot_S50000x58_S58x100_S50000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x1_S50000x1_1_0_0_1_n_n : DotDims S50000x100 S100x1 S50000x1 where
  lhsContracting := [1]
  rhsContracting := [0]
  lhsNonContracting := [0]
  rhsNonContracting := [1]
  lhsBatch := []
  rhsBatch := []
  wf := dot_S50000x100_S100x1_S50000x1_1_0_0_1_n_n_wf

class Facts : Prop extends Facts₀ where

variable [Facts]
-- ==== Proof.ChainHost.lean ====
/-
  The host stretches of the kernel's program compute, operation for operation, what the reference's matching lines compute:
  started from buffers that hold the reference's earlier stages, each stretch's result buffer holds the reference's later
  stage.  Both sides are the same compositions of host operations (index normalisation, gather, scaling by the edge
  normalisation, scatter-add; transposes), so each equation closes by unfolding the stages.  Stated for any float
  family and any buffer contents the stretch starts from.
-/
import proofs.«120157_j9294309229063_1_alg».proof.Proof.Gen.KernelIdeal.Frame
import proofs.«120157_j9294309229063_1_alg».proof.Proof.RefRead
import Idealize.ShloMosaic.Lib.StableHlo.Run

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]
variable (W : Valuation τ sig (Elt F))
variable (x0 : (⟨Cert.ReferenceIdeal.S50000x58, .f32⟩ : BufTy).Contents (Elt F)) (x1 x2 : (⟨Cert.ReferenceIdeal.S2x800000, .i32⟩ : BufTy).Contents (Elt F))
  (x3 x4 : (⟨Cert.ReferenceIdeal.S58x300, .f32⟩ : BufTy).Contents (Elt F)) (x5 : (⟨Cert.ReferenceIdeal.S300, .f32⟩ : BufTy).Contents (Elt F))
  (x6 x7 : (⟨Cert.ReferenceIdeal.S300x100, .f32⟩ : BufTy).Contents (Elt F)) (x8 : (⟨Cert.ReferenceIdeal.S100, .f32⟩ : BufTy).Contents (Elt F))
  (x9 x10 : (⟨Cert.ReferenceIdeal.S100x1, .f32⟩ : BufTy).Contents (Elt F)) (x11 : (⟨Cert.ReferenceIdeal.S1, .f32⟩ : BufTy).Contents (Elt F))
  (x12 x14 : (⟨Cert.ReferenceIdeal.S100x58, .f32⟩ : BufTy).Contents (Elt F)) (x13 x15 : (⟨Cert.ReferenceIdeal.S100, .f32⟩ : BufTy).Contents (Elt F))

/-- The source endpoints, the destination endpoints and the edge normalisation, from the edge list. -/
theorem host0_v1 (h1 : W (Proc.devRef .tc main_arg1) = x1) :
    StableHlo.after hostOps0_4 (StableHlo.after hostOps0_3 (StableHlo.after hostOps0_2 (StableHlo.after hostOps0_1 (StableHlo.after hostOps0 W)))) (Proc.devRef .tc main_v1)
      = val_main_v1 (F := F) x1 := by
  after_results_simp
  rw [h1]
  rfl

theorem host0_v3 (h1 : W (Proc.devRef .tc main_arg1) = x1) :
    StableHlo.after hostOps0_4 (StableHlo.after hostOps0_3 (StableHlo.after hostOps0_2 (StableHlo.after hostOps0_1 (StableHlo.after hostOps0 W)))) (Proc.devRef .tc main_v3)
      = val_main_v3 (F := F) x1 := by
  after_results_simp
  rw [h1]
  rfl

theorem host0_v32 (h1 : W (Proc.devRef .tc main_arg1) = x1) :
    StableHlo.after hostOps0_4 (StableHlo.after hostOps0_3 (StableHlo.after hostOps0_2 (StableHlo.after hostOps0_1 (StableHlo.after hostOps0 W)))) (Proc.devRef .tc main_v32)
      = val_main_v32 (F := F) x1 := by
  after_results_simp
  rw [h1]
  rfl

/-- The first propagated operand: the input features gathered at the sources, scaled, and summed at the destinations. -/
theorem host0_v45 (h0 : W (Proc.devRef .tc main_arg0) = x0) (h1 : W (Proc.devRef .tc main_arg1) = x1) :
    StableHlo.after hostOps0_4 (StableHlo.after hostOps0_3 (StableHlo.after hostOps0_2 (StableHlo.after hostOps0_1 (StableHlo.after hostOps0 W)))) (Proc.devRef .tc main_v45)
      = val_main_v45 (F := F) x0 x1 := by
  after_results_simp
  rw [h0, h1]
  rfl

/-- The second propagated operand, from the first dense stage's output. -/
theorem host1_v60 (h47 : W (Proc.devRef .tc main_v47) = val_main_v52 (F := F) x0 x1 x3 x4 x5)
    (h1 : W (Proc.devRef .tc main_v1) = val_main_v1 (F := F) x1) (h3 : W (Proc.devRef .tc main_v3) = val_main_v3 (F := F) x1)
    (h32 : W (Proc.devRef .tc main_v32) = val_main_v32 (F := F) x1) :
    StableHlo.after hostOps1 W (Proc.devRef .tc main_v60) = val_main_v65 (F := F) x0 x1 x3 x4 x5 := by
  after_results_simp
  rw [h47, h1, h3, h32]
  rfl

/-- The two transposed branch weights. -/
theorem host2_v63 (h12 : W (Proc.devRef .tc main_arg12) = x12) :
    StableHlo.after hostOps2 W (Proc.devRef .tc main_v63) = val_main_v73 (F := F) x12 := by
  after_results_simp
  rw [h12]
  rfl

theorem host2_v64 (h14 : W (Proc.devRef .tc main_arg14) = x14) :
    StableHlo.after hostOps2 W (Proc.devRef .tc main_v64) = val_main_v80 (F := F) x14 := by
  after_results_simp
  rw [h14]
  rfl

/-- The four gathered endpoint feature arrays of the loss, from the second combined output. -/
theorem host3_v76 (hz : W (Proc.devRef .tc main_v67_1) = val_main_v86 (F := F) x0 x1 x3 x4 x5 x6 x7 x8 x14 x15)
    (h1 : W (Proc.devRef .tc main_arg1) = x1) :
    StableHlo.after hostOps3 W (Proc.devRef .tc main_v76) = val_main_v95 (F := F) x0 x1 x3 x4 x5 x6 x7 x8 x14 x15 := by
  after_results_simp
  rw [hz, h1]
  rfl

theorem host3_v85 (hz : W (Proc.devRef .tc main_v67_1) = val_main_v86 (F := F) x0 x1 x3 x4 x5 x6 x7 x8 x14 x15)
    (h1 : W (Proc.devRef .tc main_arg1) = x1) :
    StableHlo.after hostOps3 W (Proc.devRef .tc main_v85) = val_main_v104 (F := F) x0 x1 x3 x4 x5 x6 x7 x8 x14 x15 := by
  after_results_simp
  rw [hz, h1]
  rfl

theorem host3_v94 (hz : W (Proc.devRef .tc main_v67_1) = val_main_v86 (F := F) x0 x1 x3 x4 x5 x6 x7 x8 x14 x15)
    (h2 : W (Proc.devRef .tc main_arg2) = x2) :
    StableHlo.after hostOps3 W (Proc.devRef .tc main_v94) = val_main_v127 (F := F) x0 x1 x2 x3 x4 x5 x6 x7 x8 x14 x15 := by
  after_results_simp
  rw [hz, h2]
  rfl

theorem host3_v103 (hz : W (Proc.devRef .tc main_v67_1) = val_main_v86 (F := F) x0 x1 x3 x4 x5 x6 x7 x8 x14 x15)
    (h2 : W (Proc.devRef .tc main_arg2) = x2) :
    StableHlo.after hostOps3 W (Proc.devRef .tc main_v103) = val_main_v136 (F := F) x0 x1 x2 x3 x4 x5 x6 x7 x8 x14 x15 := by
  after_results_simp
  rw [hz, h2]
  rfl

/-- The third propagated operand, from the first combined output. -/
theorem host4_v124 (hxm : W (Proc.devRef .tc main_v67_0) = val_main_v79 (F := F) x0 x1 x3 x4 x5 x6 x7 x8 x12 x13)
    (h1 : W (Proc.devRef .tc main_v1) = val_main_v1 (F := F) x1) (h3 : W (Proc.devRef .tc main_v3) = val_main_v3 (F := F) x1)
    (h32 : W (Proc.devRef .tc main_v32) = val_main_v32 (F := F) x1) :
    StableHlo.after hostOps4 W (Proc.devRef .tc main_v124) = val_main_v166 (F := F) x0 x1 x3 x4 x5 x6 x7 x8 x12 x13 := by
  after_results_simp
  rw [hxm, h1, h3, h32]
  rfl

end Cert.KernelIdeal.Chain

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.Region0.lean ====
/-
  Region 0 (the first dense stage): what its output array holds after the run, entry by entry, as a function of
  the arrays the region finds at its entry.
-/
import proofs.«120157_j9294309229063_1_alg».proof.Proof.Gen.KernelIdeal.Frame
import proofs.«120157_j9294309229063_1_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Region0

/-- The zero offset pair is the constant zero function. -/
theorem zero_off0 : (![0, 0] : Fin 2 → Nat) = fun _ => 0 := funext fun a => by fin_cases a <;> rfl

/-- The printed dimension numbers of the region's two products: rows by columns, no batch axis. -/
theorem plain0 : Cert.Gcn.IsPlain dot_S2000x58_S58x300_S2000x300_1_0_0_1_n_n := ⟨rfl, rfl, rfl, rfl, rfl, rfl⟩

/-- The body's value at entry (r, q) of a block: the two row-by-column sums, the bias's entry q, clipped at zero. -/
theorem pay0_at (x0 x1 : Vec Ideal S2000x58 .f32) (x2 x3 : Vec Ideal S58x300 .f32) (x4 : Vec Ideal S1x300 .f32)
    (r : Fin 2000) (q : Fin 300) :
    (k0_pay1 (F := Ideal) x0 x1 x2 x3 x4 : S2000x300.Idx → EReal) (ix2 r q)
      = max (((∑ l : Fin 58, (x0 : S2000x58.Idx → EReal) (ix2 r l) * (x2 : S58x300.Idx → EReal) (ix2 l q))
          + (∑ l : Fin 58, (x1 : S2000x58.Idx → EReal) (ix2 r l) * (x3 : S58x300.Idx → EReal) (ix2 l q)))
          + (x4 : S1x300.Idx → EReal) (ix2 0 q)) 0 := by
  unfold k0_pay1
  simp only [shapeCast_self]
  rw [maximumf_apply, addf_apply, addf_apply, broadcast_apply,
    Cert.Gcn.matmul_plain_apply _ plain0, Cert.Gcn.matmul_plain_apply _ plain0,
    broadcastTo_apply x4 broadcasts_S1x300_S2000x300 (ix2 r q) (ix2 0 q) (fun a => by
      match a with
      | ⟨0, _⟩ => rfl
      | ⟨1, _⟩ => rfl)]
  simp only [truncf_apply]
  exact congrArg (max _) Ideal.ofBits_zero_f32

/-- The printed index maps, decided once over the grid: the two row-blocked inputs and the output sit at block (t, 0),
    the two weights and the bias at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array the region leaves, as one function of the five arrays it reads. -/
def G0 (A T : S50000x58.Idx → EReal) (W0 W1 : S58x300.Idx → EReal) (b : S1x300.Idx → EReal) : S50000x300.Idx → EReal :=
  fun i => max (((∑ l : Fin 58, A (ix2 (i 0 : Fin 50000) l) * W0 (ix2 l (i 1 : Fin 300)))
      + (∑ l : Fin 58, T (ix2 (i 0 : Fin 50000) l) * W1 (ix2 l (i 1 : Fin 300))))
      + b (ix2 0 (i 1 : Fin 300))) 0

variable (V : (c : Dev nD) → (b : Ref sig .tc) → Buf (Elt Ideal) ((c : Thread nD τ).loc b))

/-- A block of the first operand at point t is rows 2000·t … 2000·t + 1999 of its array. -/
theorem blk0_0_at (c : Dev nD) (t : Fin cfg0.N) (x : S2000x58.Idx) (k : S50000x58.Idx)
    (hk0 : (k 0).val = 2000 * t.val + (x 0).val) (hk1 : (k 1).val = (x 1).val) :
    (iblk0 (F := Ideal) V c 0 t : S2000x58.Idx → EReal) x = (V c main_arg0 : S50000x58.Idx → EReal) k := by
  obtain ⟨e0, e1, -⟩ := idx_facts0 t
  unfold iblk0
  rw [View.read_apply]
  show (V c main_arg0 : S50000x58.Idx → EReal) _ = (V c main_arg0 : S50000x58.Idx → EReal) k
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 58 + 1 * (x 1).val = (k 1).val; rw [e1, hk1]; omega

/-- A block of the propagated operand at point t is rows 2000·t … 2000·t + 1999 of its array. -/
theorem blk0_1_at (c : Dev nD) (t : Fin cfg0.N) (x : S2000x58.Idx) (k : S50000x58.Idx)
    (hk0 : (k 0).val = 2000 * t.val + (x 0).val) (hk1 : (k 1).val = (x 1).val) :
    (iblk0 (F := Ideal) V c 1 t : S2000x58.Idx → EReal) x = (V c main_v45 : S50000x58.Idx → EReal) k := by
  obtain ⟨-, -, e0, e1, -⟩ := idx_facts0 t
  unfold iblk0
  rw [View.read_apply]
  show (V c main_v45 : S50000x58.Idx → EReal) _ = (V c main_v45 : S50000x58.Idx → EReal) k
  congr 1
  funext a
  apply Fin.ext
  match a with
  | ⟨0, _⟩ => show win0_1.index t (0 : Fin 2) * 2000 + 1 * (x 0).val = (k 0).val; rw [e0, hk0]; omega
  | ⟨1, _⟩ => show win0_1.index t (1 : Fin 2) * 58 + 1 * (x 1).val = (k 1).val; rw [e1, hk1]; omega

/-- The first weight's block at every point is the whole array. -/
theorem blk0_2_at (c : Dev nD) (t : Fin cfg0.N) (x k : S58x300.Idx)
    (hk0 : (k 0).val = (x 0).val) (hk1 : (k 1).val = (x 1).val) :
    (iblk0 (F := Ideal) V c 2 t : S58x300.Idx → EReal) x = (V c main_arg3 : S58x300.Idx → EReal) k := by
  obtain ⟨-, -, -, -, e0, e1, -⟩ := idx_facts0 t
  unfold iblk0
  rw [View.read_apply]
  show (V c main_arg3 : S58x300.Idx → EReal) _ = (V c main_arg3 : S58x300.Idx → EReal) k
  congr 1
  funext a
  apply Fin.ext
  match a with
  | ⟨0, _⟩ => show win0_2.index t (0 : Fin 2) * 58 + 1 * (x 0).val = (k 0).val; rw [e0, hk0]; omega
  | ⟨1, _⟩ => show win0_2.index t (1 : Fin 2) * 300 + 1 * (x 1).val = (k 1).val; rw [e1, hk1]; omega

/-- The second weight's block at every point is the whole array. -/
theorem blk0_3_at (c : Dev nD) (t : Fin cfg0.N) (x k : S58x300.Idx)
    (hk0 : (k 0).val = (x 0).val) (hk1 : (k 1).val = (x 1).val) :
    (iblk0 (F := Ideal) V c 3 t : S58x300.Idx → EReal) x = (V c main_arg4 : S58x300.Idx → EReal) k := by
  obtain ⟨-, -, -, -, -, -, e0, e1, -⟩ := idx_facts0 t
  unfold iblk0
  rw [View.read_apply]
  show (V c main_arg4 : S58x300.Idx → EReal) _ = (V c main_arg4 : S58x300.Idx → EReal) k
  congr 1
  funext a
  apply Fin.ext
  match a with
  | ⟨0, _⟩ => show win0_3.index t (0 : Fin 2) * 58 + 1 * (x 0).val = (k 0).val; rw [e0, hk0]; omega
  | ⟨1, _⟩ => show win0_3.index t (1 : Fin 2) * 300 + 1 * (x 1).val = (k 1).val; rw [e1, hk1]; omega

/-- The bias row's block at every point is the whole row. -/
theorem blk0_4_at (c : Dev nD) (t : Fin cfg0.N) (x k : S1x300.Idx)
    (hk0 : (k 0).val = (x 0).val) (hk1 : (k 1).val = (x 1).val) :
    (iblk0 (F := Ideal) V c 4 t : S1x300.Idx → EReal) x = (V c main_v46 : S1x300.Idx → EReal) k := by
  obtain ⟨-, -, -, -, -, -, -, -, e0, e1, -⟩ := idx_facts0 t
  unfold iblk0
  rw [View.read_apply]
  show (V c main_v46 : S1x300.Idx → EReal) _ = (V c main_v46 : S1x300.Idx → EReal) k
  congr 1
  funext a
  apply Fin.ext
  match a with
  | ⟨0, _⟩ => show win0_4.index t (0 : Fin 2) * 1 + 1 * (x 0).val = (k 0).val; rw [e0, hk0]; omega
  | ⟨1, _⟩ => show win0_4.index t (1 : Fin 2) * 300 + 1 * (x 1).val = (k 1).val; rw [e1, hk1]; omega

omit V in
/-- The whole-array function at an index whose row and column the block entries agree with. -/
theorem G0_of_blocks (A T : S50000x58.Idx → EReal) (W0 W1 : S58x300.Idx → EReal) (b : S1x300.Idx → EReal)
    (i : S50000x300.Idx) (B0 B1 : S2000x58.Idx → EReal) (B2 B3 : S58x300.Idx → EReal) (B4 : S1x300.Idx → EReal)
    (r : Fin 2000) (q : Fin 300)
    (h0 : ∀ l : Fin 58, B0 (ix2 r l) = A (ix2 (i 0 : Fin 50000) l))
    (h1 : ∀ l : Fin 58, B1 (ix2 r l) = T (ix2 (i 0 : Fin 50000) l))
    (h2 : ∀ l : Fin 58, B2 (ix2 l q) = W0 (ix2 l (i 1 : Fin 300)))
    (h3 : ∀ l : Fin 58, B3 (ix2 l q) = W1 (ix2 l (i 1 : Fin 300)))
    (h4 : B4 (ix2 0 q) = b (ix2 0 (i 1 : Fin 300))) :
    max (((∑ l : Fin 58, B0 (ix2 r l) * B2 (ix2 l q)) + (∑ l : Fin 58, B1 (ix2 r l) * B3 (ix2 l q))) + B4 (ix2 0 q)) 0
      = G0 A T W0 W1 b i := by
  unfold G0
  simp only [h0, h1, h2, h3, h4]

/-- What point t writes back is block t of the one whole-array function. -/
theorem flushed0_eq (c : Dev nD) (t : Fin cfg0.N) :
    (dat0 (F := Ideal) V c).flushed 5 t = ((cfg0.win 5).blk t).view.read (Elt Ideal)
      (G0 (V c main_arg0) (V c main_v45) (V c main_arg3) (V c main_arg4) (V c main_v46)) := by
  show (cfg0.win 5).cut (grid0.coords t) ((dat0 (F := Ideal) V c).after 5 t) = _
  rw [after0_5]
  unfold out0_5
  rw [View.canon_unit_zero zero_off0]
  simp only [View.ld_unit_zero (S := S2000x58) zero_off0, View.ld_unit_zero (S := S58x300) zero_off0, View.ld_unit_zero (S := S1x300) zero_off0]
  obtain ⟨-, -, -, -, -, -, -, -, -, -, e0, e1⟩ := idx_facts0 t
  funext j
  revert j
  intro (j : S2000x300.Idx)
  obtain ⟨r, q, rfl⟩ : ∃ (r : Fin 2000) (q : Fin 300), j = ix2 r q := ⟨j 0, j 1, eq_ix2 j⟩
  have hr : ((((cfg0.win 5).blk t).view.emb (ix2 r q) : S50000x300.Idx) 0).val = 2000 * t.val + r.val := by
    show win0_5.index t (0 : Fin 2) * 2000 + 1 * r.val = _
    rw [e0]; omega
  have hq : ((((cfg0.win 5).blk t).view.emb (ix2 r q) : S50000x300.Idx) 1).val = q.val := by
    show win0_5.index t (1 : Fin 2) * 300 + 1 * q.val = _
    rw [e1]; omega
  refine (pay0_at (iblk0 V c 0 t) (iblk0 V c 1 t) (iblk0 V c 2 t) (iblk0 V c 3 t) (iblk0 V c 4 t) r q).trans ?_
  show _ = G0 (V c main_arg0) (V c main_v45) (V c main_arg3) (V c main_arg4) (V c main_v46)
    (((cfg0.win 5).blk t).view.emb (ix2 r q) : S50000x300.Idx)
  exact G0_of_blocks (V c main_arg0) (V c main_v45) (V c main_arg3) (V c main_arg4) (V c main_v46)
    (((cfg0.win 5).blk t).view.emb (ix2 r q) : S50000x300.Idx)
    (iblk0 V c 0 t) (iblk0 V c 1 t) (iblk0 V c 2 t) (iblk0 V c 3 t) (iblk0 V c 4 t) r q
    (fun l => blk0_0_at V c t (ix2 r l) (ix2 ((((cfg0.win 5).blk t).view.emb (ix2 r q) : S50000x300.Idx) 0 : Fin 50000) l) hr rfl)
    (fun l => blk0_1_at V c t (ix2 r l) (ix2 ((((cfg0.win 5).blk t).view.emb (ix2 r q) : S50000x300.Idx) 0 : Fin 50000) l) hr rfl)
    (fun l => blk0_2_at V c t (ix2 l q) (ix2 l ((((cfg0.win 5).blk t).view.emb (ix2 r q) : S50000x300.Idx) 1 : Fin 300)) rfl hq)
    (fun l => blk0_3_at V c t (ix2 l q) (ix2 l ((((cfg0.win 5).blk t).view.emb (ix2 r q) : S50000x300.Idx) 1 : Fin 300)) rfl hq)
    (blk0_4_at V c t (ix2 0 q) (ix2 0 ((((cfg0.win 5).blk t).view.emb (ix2 r q) : S50000x300.Idx) 1 : Fin 300)) rfl hq)

omit V in
/-- An index of the output array lies in point t's block iff each coordinate lies in the block's range on its axis. -/
theorem mem_blk0 (t : Fin cfg0.N) (i : S50000x300.Idx) :
    i ∈ ((cfg0.win 5).blk t).view.set ↔ ∀ a : Fin 2, win0_5.index t a * S2000x300.size a ≤ (i a).val
      ∧ (i a).val < win0_5.index t a * S2000x300.size a + S2000x300.size a := by
  show i ∈ ((View.whole main_v47).slice (win0_5.rect t)).set ↔ _
  rw [View.set_slice_whole, Rect.mem_set_unit]
  exact Iff.rfl

omit V in
/-- Row p of the output lies in the block of point p / 2000, and every point writes its block back. -/
theorem cover0 (i : S50000x300.Idx) :
    ∃ t : Fin cfg0.N, (cfg0.win 5).flush t = true ∧ i ∈ ((cfg0.win 5).blk t).view.set := by
  have hi0 : (i 0).val < 50000 := idx2_lt0 i
  have hi1 : (i 1).val < 300 := idx2_lt1 i
  have hN : grid0.N = 25 := N_0
  have ht : (i 0).val / 2000 < cfg0.N := by show _ < grid0.N; rw [hN]; omega
  obtain ⟨-, -, -, -, -, -, -, -, -, -, e0, e1⟩ := idx_facts0 ⟨(i 0).val / 2000, ht⟩
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 300 ≤ (i 1).val
      ∧ (i 1).val < win0_5.index ⟨(i 0).val / 2000, ht⟩ (1 : Fin 2) * 300 + 300
    rw [e1]
    omega

/-- The output array after the run is the one whole-array function of the arrays the region reads. -/
theorem final0 (c : Dev nD) :
    ((dat0 (F := Ideal) V c).arrAt 5 cfg0.N : S50000x300.Idx → EReal)
      = G0 (V c main_arg0) (V c main_v45) (V c main_arg3) (V c main_arg4) (V c main_v46) :=
  (dat0 (F := Ideal) V c).arrAt_eq_of_cover 5
    (G0 (V c main_arg0) (V c main_v45) (V c main_arg3) (V c main_arg4) (V c main_v46))
    (fun t _ => flushed0_eq V c t) cover0

end Region0

/-- Entry (p, q) of the array region 0 leaves in its output: row p of the first operand against column q of the first
    weight, plus row p of the propagated operand against column q of the second weight, plus the bias's entry q, clipped below at zero. -/
theorem region0_at (V : (c : Dev nD) → (b : Ref sig .tc) → Buf (Elt Ideal) ((c : Thread nD τ).loc b)) (c : Dev nD) (p : Fin 50000) (q : Fin 300) :
    ((dat0 (F := Ideal) V c).arrAt 5 cfg0.N : S50000x300.Idx → EReal) (ix2 p q)
      = (fun (x tx : S50000x58.Idx → EReal) (w0 w1 : S58x300.Idx → EReal) (b : S1x300.Idx → EReal) =>
          max (((∑ l : Fin 58, x (ix2 p l) * w0 (ix2 l q))
          + (∑ l : Fin 58, tx (ix2 p l) * w1 (ix2 l q)))
          + b (ix2 0 q)) 0) (V c main_arg0) (V c main_v45) (V c main_arg3) (V c main_arg4) (V c main_v46) := by
  rw [Region0.final0 V c]
  rfl

end Cert.KernelIdeal.Val

end
-- ==== Proof.Region1.lean ====
/-
  Region 1 (the second dense stage): what its output array holds after the run, entry by entry, as a function of
  the arrays the region finds at its entry.  The stage's body, on one block of 2000 rows, multiplies the block of the
  first operand by the first weight and the block of the propagated operand by the second weight (two products over the
  300 contraction coordinates, each into a zero accumulator), adds the two, adds the bias row, and clips below at zero.
  Point t of the 25 reads rows 2000 t … 2000 t + 1999 of the two operands and the whole weights and bias, and writes
  rows 2000 t … 2000 t + 1999 of the result; the 25 row blocks tile the 50000 rows, so the result array ends holding
  one function of the five arrays at every entry.
-/
import proofs.«120157_j9294309229063_1_alg».proof.Proof.Gen.KernelIdeal.Frame
import proofs.«120157_j9294309229063_1_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's payload at entry (r, q) of the block: narrowing to the 16-bit format is the identity on extended reals, a
    cast to the same shape is the identity, each product into the zero accumulator is the plain sum over the contraction
    coordinate, the bias row is read at column q, and the maximum with the zero word is the maximum with zero. -/
theorem pay1_apply (x0 x1 : Vec Ideal S2000x300 .f32) (x2 x3 : Vec Ideal S300x100 .f32) (x4 : Vec Ideal S1x100 .f32)
    (r : Fin 2000) (q : Fin 100) :
    (k1_pay1 (F := Ideal) x0 x1 x2 x3 x4 : S2000x100.Idx → EReal) (ix2 r q)
      = max (((∑ l : Fin 300, (x0 : S2000x300.Idx → EReal) (ix2 r l) * (x2 : S300x100.Idx → EReal) (ix2 l q))
          + (∑ l : Fin 300, (x1 : S2000x300.Idx → EReal) (ix2 r l) * (x3 : S300x100.Idx → EReal) (ix2 l q)))
          + (x4 : S1x100.Idx → EReal) (ix2 0 q)) 0 := by
  unfold k1_pay1
  simp only [shapeCast_self]
  rw [maximumf_apply, addf_apply, addf_apply, broadcast_apply]
  rw [Cert.Gcn.matmul_plain_apply _ ⟨rfl, rfl, rfl, rfl, rfl, rfl⟩, Cert.Gcn.matmul_plain_apply _ ⟨rfl, rfl, rfl, rfl, rfl, rfl⟩]
  rw [broadcastTo_apply (x4 : S1x100.Idx → EReal) broadcasts_S1x100_S2000x100 (ix2 r q) (ix2 0 q) (fun a => by
    match a with
    | ⟨0, _⟩ => rfl
    | ⟨1, _⟩ => rfl)]
  simp only [truncf_apply]
  exact congrArg (max _) Ideal.ofBits_zero_f32

/-- The payload at any index of the block. -/
theorem pay1_at (x0 x1 : Vec Ideal S2000x300 .f32) (x2 x3 : Vec Ideal S300x100 .f32) (x4 : Vec Ideal S1x100 .f32)
    (y : S2000x100.Idx) :
    (k1_pay1 (F := Ideal) x0 x1 x2 x3 x4 : S2000x100.Idx → EReal) y
      = max (((∑ l : Fin 300, (x0 : S2000x300.Idx → EReal) (ix2 (y 0) l) * (x2 : S300x100.Idx → EReal) (ix2 l (y 1)))
          + (∑ l : Fin 300, (x1 : S2000x300.Idx → EReal) (ix2 (y 0) l) * (x3 : S300x100.Idx → EReal) (ix2 l (y 1))))
          + (x4 : S1x100.Idx → EReal) (ix2 0 (y 1))) 0 := by
  obtain ⟨r, q, rfl⟩ : ∃ (r : Fin 2000) (q : Fin 100), y = ix2 r q := ⟨y 0, y 1, eq_ix2 y⟩
  exact pay1_apply x0 x1 x2 x3 x4 r q

/-- The pair of zero offsets is the constant zero function. -/
theorem zero_offsets1 : (![0, 0] : Fin 2 → Nat) = fun _ => 0 := funext fun a => by
  match a with
  | ⟨0, _⟩ => rfl
  | ⟨1, _⟩ => rfl

/-- The index maps, decided over the grid: the row-blocked windows sit at block (t, 0), the weights and the bias at block (0, 0). -/
theorem index_facts1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- The first operand's block at point t is rows 2000 t … 2000 t + 1999 of its array. -/
theorem iblk1_0_apply (c : Dev nD) (t : Fin cfg1.N) (y : S2000x300.Idx) (k : S50000x300.Idx)
    (hk0 : (k 0).val = 2000 * t.val + (y 0).val) (hk1 : (k 1).val = (y 1).val) :
    (iblk1 (F := Ideal) V c 0 t : S2000x300.Idx → EReal) y = (V c main_v47 : S50000x300.Idx → EReal) k := by
  obtain ⟨-, -, e0, e1, -⟩ := index_facts1 t
  unfold iblk1
  rw [View.read_apply]
  show (V c main_v47 : S50000x300.Idx → EReal) _ = _
  refine congrArg (V c main_v47 : S50000x300.Idx → EReal) (funext fun a => Fin.ext ?_)
  match a with
  | ⟨0, _⟩ => show win1_0.index t (0 : Fin 2) * 2000 + 1 * (y 0).val = (k 0).val; rw [e0, hk0]; omega
  | ⟨1, _⟩ => show win1_0.index t (1 : Fin 2) * 300 + 1 * (y 1).val = (k 1).val; rw [e1, hk1]; omega

/-- The propagated operand's block at point t is rows 2000 t … 2000 t + 1999 of its array. -/
theorem iblk1_1_apply (c : Dev nD) (t : Fin cfg1.N) (y : S2000x300.Idx) (k : S50000x300.Idx)
    (hk0 : (k 0).val = 2000 * t.val + (y 0).val) (hk1 : (k 1).val = (y 1).val) :
    (iblk1 (F := Ideal) V c 1 t : S2000x300.Idx → EReal) y = (V c main_v60 : S50000x300.Idx → EReal) k := by
  obtain ⟨-, -, -, -, e0, e1, -⟩ := index_facts1 t
  unfold iblk1
  rw [View.read_apply]
  show (V c main_v60 : S50000x300.Idx → EReal) _ = _
  refine congrArg (V c main_v60 : S50000x300.Idx → EReal) (funext fun a => Fin.ext ?_)
  match a with
  | ⟨0, _⟩ => show win1_1.index t (0 : Fin 2) * 2000 + 1 * (y 0).val = (k 0).val; rw [e0, hk0]; omega
  | ⟨1, _⟩ => show win1_1.index t (1 : Fin 2) * 300 + 1 * (y 1).val = (k 1).val; rw [e1, hk1]; omega

/-- The first weight's block at every point is the whole weight. -/
theorem iblk1_2_apply (c : Dev nD) (t : Fin cfg1.N) (y : S300x100.Idx) (k : S300x100.Idx)
    (hk0 : (k 0).val = (y 0).val) (hk1 : (k 1).val = (y 1).val) :
    (iblk1 (F := Ideal) V c 2 t : S300x100.Idx → EReal) y = (V c main_arg6 : S300x100.Idx → EReal) k := by
  have e := index_facts1 t
  have e0 : win1_2.index t (0 : Fin 2) = 0 := e.2.2.2.2.2.2.1
  have e1 : win1_2.index t (1 : Fin 2) = 0 := e.2.2.2.2.2.2.2.1
  unfold iblk1
  rw [View.read_apply]
  show (V c main_arg6 : S300x100.Idx → EReal) _ = _
  refine congrArg (V c main_arg6 : S300x100.Idx → EReal) (funext fun a => Fin.ext ?_)
  match a with
  | ⟨0, _⟩ => show win1_2.index t (0 : Fin 2) * 300 + 1 * (y 0).val = (k 0).val; rw [e0, hk0]; omega
  | ⟨1, _⟩ => show win1_2.index t (1 : Fin 2) * 100 + 1 * (y 1).val = (k 1).val; rw [e1, hk1]; omega

/-- The second weight's block at every point is the whole weight. -/
theorem iblk1_3_apply (c : Dev nD) (t : Fin cfg1.N) (y : S300x100.Idx) (k : S300x100.Idx)
    (hk0 : (k 0).val = (y 0).val) (hk1 : (k 1).val = (y 1).val) :
    (iblk1 (F := Ideal) V c 3 t : S300x100.Idx → EReal) y = (V c main_arg7 : S300x100.Idx → EReal) k := by
  have e := index_facts1 t
  have e0 : win1_3.index t (0 : Fin 2) = 0 := e.2.2.2.2.2.2.2.2.1
  have e1 : win1_3.index t (1 : Fin 2) = 0 := e.2.2.2.2.2.2.2.2.2.1
  unfold iblk1
  rw [View.read_apply]
  show (V c main_arg7 : S300x100.Idx → EReal) _ = _
  refine congrArg (V c main_arg7 : S300x100.Idx → EReal) (funext fun a => Fin.ext ?_)
  match a with
  | ⟨0, _⟩ => show win1_3.index t (0 : Fin 2) * 300 + 1 * (y 0).val = (k 0).val; rw [e0, hk0]; omega
  | ⟨1, _⟩ => show win1_3.index t (1 : Fin 2) * 100 + 1 * (y 1).val = (k 1).val; rw [e1, hk1]; omega

/-- The bias's block at every point is the whole bias row. -/
theorem iblk1_4_apply (c : Dev nD) (t : Fin cfg1.N) (y : S1x100.Idx) (k : S1x100.Idx)
    (hk0 : (k 0).val = (y 0).val) (hk1 : (k 1).val = (y 1).val) :
    (iblk1 (F := Ideal) V c 4 t : S1x100.Idx → EReal) y = (V c main_v61 : S1x100.Idx → EReal) k := by
  have e := index_facts1 t
  have e0 : win1_4.index t (0 : Fin 2) = 0 := e.2.2.2.2.2.2.2.2.2.2.1
  have e1 : win1_4.index t (1 : Fin 2) = 0 := e.2.2.2.2.2.2.2.2.2.2.2
  unfold iblk1
  rw [View.read_apply]
  show (V c main_v61 : S1x100.Idx → EReal) _ = _
  refine congrArg (V c main_v61 : S1x100.Idx → EReal) (funext fun a => Fin.ext ?_)
  match a with
  | ⟨0, _⟩ => show win1_4.index t (0 : Fin 2) * 1 + 1 * (y 0).val = (k 0).val; rw [e0, hk0]; omega
  | ⟨1, _⟩ => show win1_4.index t (1 : Fin 2) * 100 + 1 * (y 1).val = (k 1).val; rw [e1, hk1]; omega

/-- Entry (p, q) of the stage's result as a function of the five arrays it reads. -/
def entry1 (a0 a1 : S50000x300.Idx → EReal) (w0 w1 : S300x100.Idx → EReal) (b : S1x100.Idx → EReal) (p : Fin 50000) (q : Fin 100) : EReal :=
  max (((∑ l : Fin 300, a0 (ix2 p l) * w0 (ix2 l q)) + (∑ l : Fin 300, a1 (ix2 p l) * w1 (ix2 l q))) + b (ix2 0 q)) 0

/-- The whole result array. -/
abbrev G1 (a0 a1 : S50000x300.Idx → EReal) (w0 w1 : S300x100.Idx → EReal) (b : S1x100.Idx → EReal) : S50000x100.Idx → EReal :=
  fun i => entry1 a0 a1 w0 w1 b (i 0) (i 1)

/-- What point t writes back is block t of the result array. -/
theorem flushed1_eq (c : Dev nD) (t : Fin cfg1.N) :
    (dat1 (F := Ideal) V c).flushed 5 t
      = ((cfg1.win 5).blk t).view.read (Elt Ideal) (G1 (V c main_v47) (V c main_v60) (V c main_arg6) (V c main_arg7) (V c main_v61)) := by
  show (cfg1.win 5).cut (grid1.coords t) ((dat1 V c).after 5 t) = _
  rw [after1_5]
  unfold out1_5
  rw [View.canon_unit_zero zero_offsets1]
  simp only [View.ld_unit_zero (S := S2000x300) zero_offsets1, View.ld_unit_zero (S := S300x100) zero_offsets1, View.ld_unit_zero (S := S1x100) zero_offsets1]
  funext j
  obtain ⟨e0, e1, -⟩ := index_facts1 t
  rw [View.read_apply]
  have r0 : ((((cfg1.win 5).blk t).view.emb j) 0).val = 2000 * t.val + (j 0).val := by
    show win1_5.index t (0 : Fin 2) * 2000 + 1 * (j 0).val = _
    rw [e0]; omega
  have r1 : ((((cfg1.win 5).blk t).view.emb j) 1).val = (j 1).val := by
    show win1_5.index t (1 : Fin 2) * 100 + 1 * (j 1).val = _
    rw [e1]; omega
  refine (pay1_at _ _ _ _ _ _).trans ?_
  show max _ 0 = entry1 _ _ _ _ _ _ _
  unfold entry1
  refine congrArg (fun x => max x 0) (congrArg₂ (· + ·) (congrArg₂ (· + ·) (Finset.sum_congr rfl fun l _ => ?_) (Finset.sum_congr rfl fun l _ => ?_)) ?_)
  · exact congrArg₂ (· * ·) (iblk1_0_apply V c t _ _ r0 rfl) (iblk1_2_apply V c t _ _ rfl r1)
  · exact congrArg₂ (· * ·) (iblk1_1_apply V c t _ _ r0 rfl) (iblk1_3_apply V c t _ _ rfl r1)
  · exact iblk1_4_apply V c t _ _ rfl r1

/-- An index of the result array is in point t's block iff each coordinate is in the block's range on its axis. -/
theorem mem_blk1 (t : Fin cfg1.N) (i : S50000x100.Idx) :
    i ∈ ((cfg1.win 5).blk t).view.set
      ↔ ∀ a : Fin 2, win1_5.index t a * S2000x100.size a ≤ (i a).val ∧ (i a).val < win1_5.index t a * S2000x100.size a + S2000x100.size a := by
  show i ∈ ((View.whole main_v62).slice (win1_5.rect t)).set ↔ _
  rw [View.set_slice_whole, Rect.mem_set_unit]
  exact Iff.rfl

/-- Row p lies in the block of point p / 2000: the 25 blocks tile the array. -/
theorem cover1 (i : S50000x100.Idx) : ∃ t : Fin cfg1.N, (cfg1.win 5).flush t = true ∧ i ∈ ((cfg1.win 5).blk t).view.set := by
  have hi0 : (i 0).val < 50000 := (i 0).isLt
  have hi1 : (i 1).val < 100 := (i 1).isLt
  have hN : cfg1.N = 25 := N_1
  refine ⟨⟨(i 0).val / 2000, by rw [hN]; omega⟩, flush1_5 _, ?_⟩
  rw [mem_blk1]
  obtain ⟨e0, e1, -⟩ := index_facts1 ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 100 ≤ (i 1).val ∧ (i 1).val < win1_5.index _ (1 : Fin 2) * 100 + 100
    rw [e1]; omega

/-- The result array after the run. -/
theorem final1 (c : Dev nD) :
    (dat1 (F := Ideal) V c).arrAt 5 cfg1.N = G1 (V c main_v47) (V c main_v60) (V c main_arg6) (V c main_arg7) (V c main_v61) :=
  (dat1 (F := Ideal) V c).arrAt_eq_of_cover 5 _ (fun t _ => flushed1_eq V c t) cover1

end Cert.KernelIdeal.Val.Region1

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Entry (p, q) of the array region 1 leaves in its output: row p of the first operand against column q of the first
    weight, plus row p of the propagated operand against column q of the second weight, plus the bias's entry q, clipped below at zero. -/
theorem region1_at (V : (c : Dev nD) → (b : Ref sig .tc) → Buf (Elt Ideal) ((c : Thread nD τ).loc b)) (c : Dev nD) (p : Fin 50000) (q : Fin 100) :
    ((dat1 (F := Ideal) V c).arrAt 5 cfg1.N : S50000x100.Idx → EReal) (ix2 p q)
      = (fun (x tx : S50000x300.Idx → EReal) (w0 w1 : S300x100.Idx → EReal) (b : S1x100.Idx → EReal) =>
          max (((∑ l : Fin 300, x (ix2 p l) * w0 (ix2 l q))
            + (∑ l : Fin 300, tx (ix2 p l) * w1 (ix2 l q)))
            + b (ix2 0 q)) 0)
        (V c main_v47) (V c main_v60) (V c main_arg6) (V c main_arg7) (V c main_v61) := by
  rw [Region1.final1 V c]
  rfl

end Cert.KernelIdeal.Val

end
-- ==== Proof.RefDenseA.lean ====
/-
  The reference's three dense stages read at one entry: each is a sum of two matrix products and a bias row, the
  first two clipped below at zero.
-/
import proofs.«120157_j9294309229063_1_alg».proof.Proof.RefRead
import proofs.«120157_j9294309229063_1_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefVal

open Cert.ReferenceIdeal Cert.ReferenceIdeal.Read
open Idealize.ShloMosaic Idealize.ShloMosaic.TcCoe Idealize.ShloMosaic.ValueIdx Idealize.SL.Sem

variable (x0 : (⟨S50000x58, .f32⟩ : BufTy).Contents (Elt Ideal)) (x1 x2 : (⟨S2x800000, .i32⟩ : BufTy).Contents (Elt Ideal))
  (x3 x4 : (⟨S58x300, .f32⟩ : BufTy).Contents (Elt Ideal)) (x5 : (⟨S300, .f32⟩ : BufTy).Contents (Elt Ideal))
  (x6 x7 : (⟨S300x100, .f32⟩ : BufTy).Contents (Elt Ideal)) (x8 : (⟨S100, .f32⟩ : BufTy).Contents (Elt Ideal))
  (x9 x10 : (⟨S100x1, .f32⟩ : BufTy).Contents (Elt Ideal)) (x11 : (⟨S1, .f32⟩ : BufTy).Contents (Elt Ideal))
  (x12 x14 : (⟨S100x58, .f32⟩ : BufTy).Contents (Elt Ideal)) (x13 x15 : (⟨S100, .f32⟩ : BufTy).Contents (Elt Ideal))

/-- The first dense stage of the reference at entry (p, q). -/
theorem v52_at (p : Fin 50000) (q : Fin 300) :
    (val_main_v52 (F := Ideal) x0 x1 x3 x4 x5 : S50000x300.Idx → EReal) (ix2 p q)
      = max (((∑ l : Fin 58, (x0 : S50000x58.Idx → EReal) (ix2 p l) * (x3 : S58x300.Idx → EReal) (ix2 l q))
            + (∑ l : Fin 58, (val_main_v45 (F := Ideal) x0 x1 : S50000x58.Idx → EReal) (ix2 p l) * (x4 : S58x300.Idx → EReal) (ix2 l q)))
            + (x5 : S300.Idx → EReal) (ix1 q)) 0 := by
  -- the index maps of the two products and of the bias row, at the entry (p, q)
  have hl : ∀ k : Fin 58, lidx_main_v46 (ix2 p q) k = ix2 p k := fun k => funext fun a => Fin.ext (by
    match a with | ⟨0, _⟩ => rfl | ⟨1, _⟩ => rfl)
  have hr : ∀ k : Fin 58, ridx_main_v46 (ix2 p q) k = ix2 k q := fun k => funext fun a => Fin.ext (by
    match a with | ⟨0, _⟩ => rfl | ⟨1, _⟩ => rfl)
  have hl' : ∀ k : Fin 58, lidx_main_v47 (ix2 p q) k = ix2 p k := fun k => funext fun a => Fin.ext (by
    match a with | ⟨0, _⟩ => rfl | ⟨1, _⟩ => rfl)
  have hr' : ∀ k : Fin 58, ridx_main_v47 (ix2 p q) k = ix2 k q := fun k => funext fun a => Fin.ext (by
    match a with | ⟨0, _⟩ => rfl | ⟨1, _⟩ => rfl)
  have hb : idx_main_v49 (idx_main_v50 (ix2 p q)) = ix1 q := funext fun a => Fin.ext (by
    match a with | ⟨0, _⟩ => rfl)
  rw [val_main_v52_apply, val_main_v51_apply, val_main_v48_apply, val_main_v50_apply, val_main_v49_apply,
    val_main_call2_v0_apply, val_main_call2_cst_apply, val_main_v46_apply, val_main_v47_apply]
  simp only [hl, hr, hl', hr', hb, Ideal.maximumf_def, Ideal.addf_def, Ideal.ofBits_def, Ideal.ofBits_zero_f32]

/-- The second dense stage of the reference at entry (p, q). -/
theorem v72_at (p : Fin 50000) (q : Fin 100) :
    (val_main_v72 (F := Ideal) x0 x1 x3 x4 x5 x6 x7 x8 : S50000x100.Idx → EReal) (ix2 p q)
      = max (((∑ l : Fin 300, (val_main_v52 (F := Ideal) x0 x1 x3 x4 x5 : S50000x300.Idx → EReal) (ix2 p l) * (x6 : S300x100.Idx → EReal) (ix2 l q))
            + (∑ l : Fin 300, (val_main_v65 (F := Ideal) x0 x1 x3 x4 x5 : S50000x300.Idx → EReal) (ix2 p l) * (x7 : S300x100.Idx → EReal) (ix2 l q)))
            + (x8 : S100.Idx → EReal) (ix1 q)) 0 := by
  have hl : ∀ k : Fin 300, lidx_main_v66 (ix2 p q) k = ix2 p k := fun k => funext fun a => Fin.ext (by
    match a with | ⟨0, _⟩ => rfl | ⟨1, _⟩ => rfl)
  have hr : ∀ k : Fin 300, ridx_main_v66 (ix2 p q) k = ix2 k q := fun k => funext fun a => Fin.ext (by
    match a with | ⟨0, _⟩ => rfl | ⟨1, _⟩ => rfl)
  have hl' : ∀ k : Fin 300, lidx_main_v67 (ix2 p q) k = ix2 p k := fun k => funext fun a => Fin.ext (by
    match a with | ⟨0, _⟩ => rfl | ⟨1, _⟩ => rfl)
  have hr' : ∀ k : Fin 300, ridx_main_v67 (ix2 p q) k = ix2 k q := fun k => funext fun a => Fin.ext (by
    match a with | ⟨0, _⟩ => rfl | ⟨1, _⟩ => rfl)
  have hb : idx_main_v69 (idx_main_v70 (ix2 p q)) = ix1 q := funext fun a => Fin.ext (by
    match a with | ⟨0, _⟩ => rfl)
  rw [val_main_v72_apply, val_main_v71_apply, val_main_v68_apply, val_main_v70_apply, val_main_v69_apply,
    val_main_call3_v0_apply, val_main_call3_cst_apply, val_main_v66_apply, val_main_v67_apply]
  simp only [hl, hr, hl', hr', hb, Ideal.maximumf_def, Ideal.addf_def, Ideal.ofBits_def, Ideal.ofBits_zero_f32]

/-- The last dense stage of the reference (no clipping) at entry (p, q). -/
theorem v172_at (p : Fin 50000) (q : Fin 1) :
    (val_main_v172 (F := Ideal) x0 x1 x3 x4 x5 x6 x7 x8 x9 x10 x11 x12 x13 : S50000x1.Idx → EReal) (ix2 p q)
      = ((∑ l : Fin 100, (val_main_v79 (F := Ideal) x0 x1 x3 x4 x5 x6 x7 x8 x12 x13 : S50000x100.Idx → EReal) (ix2 p l) * (x9 : S100x1.Idx → EReal) (ix2 l q))
            + (∑ l : Fin 100, (val_main_v166 (F := Ideal) x0 x1 x3 x4 x5 x6 x7 x8 x12 x13 : S50000x100.Idx → EReal) (ix2 p l) * (x10 : S100x1.Idx → EReal) (ix2 l q)))
            + (x11 : S1.Idx → EReal) (ix1 q) := by
  have hl : ∀ k : Fin 100, lidx_main_v167 (ix2 p q) k = ix2 p k := fun k => funext fun a => Fin.ext (by
    match a with | ⟨0, _⟩ => rfl | ⟨1, _⟩ => rfl)
  have hr : ∀ k : Fin 100, ridx_main_v167 (ix2 p q) k = ix2 k q := fun k => funext fun a => Fin.ext (by
    match a with | ⟨0, _⟩ => rfl | ⟨1, _⟩ => rfl)
  have hl' : ∀ k : Fin 100, lidx_main_v168 (ix2 p q) k = ix2 p k := fun k => funext fun a => Fin.ext (by
    match a with | ⟨0, _⟩ => rfl | ⟨1, _⟩ => rfl)
  have hr' : ∀ k : Fin 100, ridx_main_v168 (ix2 p q) k = ix2 k q := fun k => funext fun a => Fin.ext (by
    match a with | ⟨0, _⟩ => rfl | ⟨1, _⟩ => rfl)
  -- the bias has one entry, and q is that entry's only coordinate
  have hb : idx_main_v170 (idx_main_v171 (ix2 p q)) = ix1 q := funext fun a => Fin.ext (by
    match a with | ⟨0, _⟩ => exact (Nat.lt_one_iff.mp q.isLt).symm)
  rw [val_main_v172_apply, val_main_v169_apply, val_main_v171_apply, val_main_v170_apply,
    val_main_v167_apply, val_main_v168_apply]
  simp only [hl, hr, hl', hr', hb, Ideal.addf_def]

end Cert.ReferenceIdeal.RefVal

end
-- ==== Proof.ChainA.lean ====
/-
  The kernel's buffers, boundary by boundary, up to the entry of the combine stage: each holds the reference's matching
  stage of the kernel's own arguments.  A host stretch is the reference's lines (the host-stretch module); a dense region's
  output is the reference's dense stage because both are, entry by entry, the same sums of products plus bias, clipped.
-/
import proofs.«120157_j9294309229063_1_alg».proof.Proof.ChainHost
import proofs.«120157_j9294309229063_1_alg».proof.Proof.Region0
import proofs.«120157_j9294309229063_1_alg».proof.Proof.Region1
import proofs.«120157_j9294309229063_1_alg».proof.Proof.RefDenseA
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Chain

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

/-- A buffer no later operation writes and no later region owns holds at a later boundary what it held at an earlier
    one: step back through region exits and host stretches. -/
macro "persist" : tactic => `(tactic| (
  try dsimp only [V5, V7, V9, V11, V13]
  repeat (first
  | (rw [W14_of_ne]; rotate_left; decide)
  | (rw [W12_of_ne]; rotate_left; decide)
  | (rw [W10_of_ne]; rotate_left; decide)
  | (rw [W8_of_ne]; rotate_left; decide)
  | (rw [W6_of_ne]; rotate_left; decide)
  | after_results_simp)))

variable (m : (ℓ : Loc nD τ sig) → Buf (Elt Ideal) ℓ) (ρ : Dev nD → PrngReg) (c : Dev nD)

/-- An argument of the kernel's program, as launched. -/
abbrev A (b : Ref sig .tc) : Buf (Elt Ideal) ((c : Thread nD τ).loc b) := m ((c : Thread nD τ).loc b)

/-! ## Entry of region 0 -/

theorem V5_arg0 : V5 m ρ c main_arg0 = A m c main_arg0 := by persist
theorem V5_arg3 : V5 m ρ c main_arg3 = A m c main_arg3 := by persist
theorem V5_arg4 : V5 m ρ c main_arg4 = A m c main_arg4 := by persist
theorem W5_v1 : W5 m ρ c (Proc.devRef .tc main_v1) = val_main_v1 (F := Ideal) (A m c main_arg1) :=
  host0_v1 (W0 m ρ c) (A m c main_arg1) rfl
theorem W5_v3 : W5 m ρ c (Proc.devRef .tc main_v3) = val_main_v3 (F := Ideal) (A m c main_arg1) :=
  host0_v3 (W0 m ρ c) (A m c main_arg1) rfl
theorem W5_v32 : W5 m ρ c (Proc.devRef .tc main_v32) = val_main_v32 (F := Ideal) (A m c main_arg1) :=
  host0_v32 (W0 m ρ c) (A m c main_arg1) rfl
theorem V5_v45 : V5 m ρ c main_v45 = val_main_v45 (F := Ideal) (A m c main_arg0) (A m c main_arg1) :=
  host0_v45 (W0 m ρ c) (A m c main_arg0) (A m c main_arg1) rfl rfl
/-- The bias row the region reads is the bias vector laid out as one row. -/
theorem V5_v46_at (q : Fin 300) :
    (V5 m ρ c main_v46 : S1x300.Idx → EReal) (ix2 0 q) = (A m c main_arg5 : S300.Idx → EReal) (ix1 q) := by
  have h : V5 m ρ c main_v46 = shapeCast S1x300 (A m c main_arg5) shapeCasts_S300_S1x300 := by
    persist
    rfl
  rw [h]
  refine (shapeCast_addUnit_apply _ _ _ _).trans ?_
  congr 1
  funext a
  match a with
  | ⟨0, _⟩ => rfl

/-! ## Exit of region 0 -/

theorem W6_v47 : W6 m ρ c (Proc.devRef .tc main_v47) = val_main_v52 (F := Ideal) (A m c main_arg0) (A m c main_arg1) (A m c main_arg3) (A m c main_arg4) (A m c main_arg5) := by
  refine (W6_arr m ρ c 5).trans ?_
  funext i
  obtain ⟨p, q, rfl⟩ : ∃ (p : Fin 50000) (q : Fin 300), i = ix2 p q := ⟨i 0, i 1, eq_ix2 i⟩
  have hk := Cert.KernelIdeal.Val.region0_at (V5 m ρ) c p q
  have hr := Cert.ReferenceIdeal.RefVal.v52_at (x0 := A m c main_arg0) (x1 := A m c main_arg1) (x3 := A m c main_arg3) (x4 := A m c main_arg4) (x5 := A m c main_arg5) p q
  beta_reduce at hk hr
  rw [V5_arg0, V5_arg3, V5_arg4, V5_v45, V5_v46_at] at hk
  exact hk.trans hr.symm
theorem W6_v1 : W6 m ρ c (Proc.devRef .tc main_v1) = val_main_v1 (F := Ideal) (A m c main_arg1) := by
  rw [W6_of_ne m ρ c main_v1 (by decide)]; exact W5_v1 m ρ c
theorem W6_v3 : W6 m ρ c (Proc.devRef .tc main_v3) = val_main_v3 (F := Ideal) (A m c main_arg1) := by
  rw [W6_of_ne m ρ c main_v3 (by decide)]; exact W5_v3 m ρ c
theorem W6_v32 : W6 m ρ c (Proc.devRef .tc main_v32) = val_main_v32 (F := Ideal) (A m c main_arg1) := by
  rw [W6_of_ne m ρ c main_v32 (by decide)]; exact W5_v32 m ρ c

/-! ## Entry of region 1 -/

theorem V7_v47 : V7 m ρ c main_v47 = val_main_v52 (F := Ideal) (A m c main_arg0) (A m c main_arg1) (A m c main_arg3) (A m c main_arg4) (A m c main_arg5) := by
  dsimp only [V7]
  after_results_simp
  exact W6_v47 m ρ c
theorem V7_v60 : V7 m ρ c main_v60 = val_main_v65 (F := Ideal) (A m c main_arg0) (A m c main_arg1) (A m c main_arg3) (A m c main_arg4) (A m c main_arg5) :=
  host1_v60 (W6 m ρ c) _ _ _ _ _ (W6_v47 m ρ c) (W6_v1 m ρ c) (W6_v3 m ρ c) (W6_v32 m ρ c)
theorem V7_arg6 : V7 m ρ c main_arg6 = A m c main_arg6 := by persist
theorem V7_arg7 : V7 m ρ c main_arg7 = A m c main_arg7 := by persist
theorem V7_v61_at (q : Fin 100) :
    (V7 m ρ c main_v61 : S1x100.Idx → EReal) (ix2 0 q) = (A m c main_arg8 : S100.Idx → EReal) (ix1 q) := by
  have h : V7 m ρ c main_v61 = shapeCast S1x100 (A m c main_arg8) shapeCasts_S100_S1x100 := by
    persist
    rfl
  rw [h]
  refine (shapeCast_addUnit_apply _ _ _ _).trans ?_
  congr 1
  funext a
  match a with
  | ⟨0, _⟩ => rfl

/-! ## Exit of region 1 -/

theorem W8_v62 : W8 m ρ c (Proc.devRef .tc main_v62) = val_main_v72 (F := Ideal) (A m c main_arg0) (A m c main_arg1) (A m c main_arg3) (A m c main_arg4) (A m c main_arg5) (A m c main_arg6) (A m c main_arg7) (A m c main_arg8) := by
  refine (W8_arr m ρ c 5).trans ?_
  funext i
  obtain ⟨p, q, rfl⟩ : ∃ (p : Fin 50000) (q : Fin 100), i = ix2 p q := ⟨i 0, i 1, eq_ix2 i⟩
  have hk := Cert.KernelIdeal.Val.region1_at (V7 m ρ) c p q
  have hr := Cert.ReferenceIdeal.RefVal.v72_at (x0 := A m c main_arg0) (x1 := A m c main_arg1) (x3 := A m c main_arg3) (x4 := A m c main_arg4) (x5 := A m c main_arg5) (x6 := A m c main_arg6) (x7 := A m c main_arg7) (x8 := A m c main_arg8) p q
  beta_reduce at hk hr
  rw [V7_v47, V7_v60, V7_arg6, V7_arg7, V7_v61_at] at hk
  exact hk.trans hr.symm

/-! ## Entry of region 2 -/

theorem V9_arg0 : V9 m ρ c main_arg0 = A m c main_arg0 := by
  persist
  exact ((W6_arr m ρ c 0).trans (((dat0 (V5 m ρ) c).arrAt_in 0 rfl _).trans (A_eq0 (V5 m ρ) c 0))).trans (V5_arg0 m ρ c)
theorem V9_v62 : V9 m ρ c main_v62 = val_main_v72 (F := Ideal) (A m c main_arg0) (A m c main_arg1) (A m c main_arg3) (A m c main_arg4) (A m c main_arg5) (A m c main_arg6) (A m c main_arg7) (A m c main_arg8) := by
  dsimp only [V9]
  after_results_simp
  exact W8_v62 m ρ c
theorem W8_arg12 : W8 m ρ c (Proc.devRef .tc main_arg12) = A m c main_arg12 := by persist
theorem W8_arg14 : W8 m ρ c (Proc.devRef .tc main_arg14) = A m c main_arg14 := by persist
theorem V9_v63 : V9 m ρ c main_v63 = val_main_v73 (F := Ideal) (A m c main_arg12) :=
  host2_v63 (W8 m ρ c) _ (W8_arg12 m ρ c)
theorem V9_v64 : V9 m ρ c main_v64 = val_main_v80 (F := Ideal) (A m c main_arg14) :=
  host2_v64 (W8 m ρ c) _ (W8_arg14 m ρ c)
theorem V9_v65_at (q : Fin 100) :
    (V9 m ρ c main_v65 : S1x100.Idx → EReal) (ix2 0 q) = (A m c main_arg13 : S100.Idx → EReal) (ix1 q) := by
  have h : V9 m ρ c main_v65 = shapeCast S1x100 (A m c main_arg13) shapeCasts_S100_S1x100 := by
    persist
    rfl
  rw [h]
  refine (shapeCast_addUnit_apply _ _ _ _).trans ?_
  congr 1
  funext a
  match a with
  | ⟨0, _⟩ => rfl
theorem V9_v66_at (q : Fin 100) :
    (V9 m ρ c main_v66 : S1x100.Idx → EReal) (ix2 0 q) = (A m c main_arg15 : S100.Idx → EReal) (ix1 q) := by
  have h : V9 m ρ c main_v66 = shapeCast S1x100 (A m c main_arg15) shapeCasts_S100_S1x100 := by
    persist
    rfl
  rw [h]
  refine (shapeCast_addUnit_apply _ _ _ _).trans ?_
  congr 1
  funext a
  match a with
  | ⟨0, _⟩ => rfl

end Cert.KernelIdeal.Chain

end
-- ==== Proof.Region2.lean ====
/-
  Region 2 (the combine stage, two outputs): what each output array holds after the run, entry by entry, as a
  function of the arrays the region finds at its entry.

  Both outputs have the same form.  The grid has 25 points; point t sees rows 2000·t … 2000·t + 1999 of the first
  operand (58 columns) and of the second operand (100 columns), and the whole of one weight (58 × 100) and one bias row
  (1 × 100) per output.  The body leaves, at row r and column q of the output block, the second operand's entry plus
  max(Σ_l first[r, l] · weight[l, q] + bias[0, q], 0): on the extended reals the narrowing casts are the identity, the
  product into the zero accumulator is the plain sum over the contraction coordinate, and the broadcast bias is read at
  its one row.  Point t writes that block back to rows 2000·t … of the output, and the 25 blocks tile the 50000 rows,
  so the whole output array is that formula read at (p, q).
-/
import proofs.«120157_j9294309229063_1_alg».proof.Proof.Gen.KernelIdeal.Frame
import proofs.«120157_j9294309229063_1_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Region2

/-- The zero offsets of a whole-buffer access, as the constant function. -/
theorem offsets_zero : (![0, 0] : Fin 2 → Nat) = fun _ => 0 := funext fun a => by fin_cases a <;> rfl

/-! ## The combine formula, over whole arrays and over one block -/

/-- The combine stage at one entry of the 50000 × 100 output: the second operand's entry plus the clipped sum of
    (row of the first operand · column of the weight) and the bias's entry. -/
def comb (a0 : S50000x58.Idx → EReal) (a1 : S50000x100.Idx → EReal) (w : S58x100.Idx → EReal) (b : S1x100.Idx → EReal) :
    S50000x100.Idx → EReal :=
  fun i => a1 (ix2 (i 0) (i 1)) + max ((∑ l : Fin 58, a0 (ix2 (i 0) l) * w (ix2 l (i 1))) + b (ix2 0 (i 1))) 0

/-- The formula read at (p, q). -/
theorem comb_ix2 (a0 : S50000x58.Idx → EReal) (a1 : S50000x100.Idx → EReal) (w : S58x100.Idx → EReal) (b : S1x100.Idx → EReal)
    (p : Fin 50000) (q : Fin 100) :
    comb a0 a1 w b (ix2 p q) = a1 (ix2 p q) + max ((∑ l : Fin 58, a0 (ix2 p l) * w (ix2 l q)) + b (ix2 0 q)) 0 := rfl

/-- The first output's payload at row r, column q of the block: the casts to the narrow type are the identity, the
    product into the zero accumulator is the sum over the 58 contraction coordinates, the broadcast bias is its one
    row, and the clip is the maximum with zero. -/
theorem pay2_at (x0 : Vec Ideal S2000x58 .f32) (x2 : Vec Ideal S58x100 .f32) (x3 : Vec Ideal S1x100 .f32) (x1 : Vec Ideal S2000x100 .f32)
    (r : Fin 2000) (q : Fin 100) :
    (k2_pay2 x0 x2 x3 x1 : S2000x100.Idx → EReal) (ix2 r q)
      = x1 (ix2 r q) + max ((∑ l : Fin 58, x0 (ix2 r l) * x2 (ix2 l q)) + x3 (ix2 0 q)) 0 := by
  unfold k2_pay2 k2_pay1
  simp only [shapeCast_self]
  rw [addf_apply, maximumf_apply, addf_apply, broadcast_apply]
  rw [Cert.Gcn.matmul_plain_apply dot_S2000x58_S58x100_S2000x100_1_0_0_1_n_n ⟨rfl, rfl, rfl, rfl, rfl, rfl⟩ none _ _ r q,
    broadcastTo_1b_ab_apply x3 broadcasts_S1x100_S2000x100 r q]
  simp only [truncf_apply]
  rw [show (FloatOps.ofBits FTy.f32 0x00000000#32 : Ideal .f32) = 0 from Ideal.ofBits_zero_f32]

/-- The second output's payload at row r, column q of the block: the same formula over its own weight and bias. -/
theorem pay3_at (x0 : Vec Ideal S2000x58 .f32) (x4 : Vec Ideal S58x100 .f32) (x5 : Vec Ideal S1x100 .f32) (x1 : Vec Ideal S2000x100 .f32)
    (r : Fin 2000) (q : Fin 100) :
    (k2_pay3 x0 x4 x5 x1 : S2000x100.Idx → EReal) (ix2 r q)
      = x1 (ix2 r q) + max ((∑ l : Fin 58, x0 (ix2 r l) * x4 (ix2 l q)) + x5 (ix2 0 q)) 0 := by
  unfold k2_pay3 k2_pay1
  simp only [shapeCast_self]
  rw [addf_apply, maximumf_apply, addf_apply, broadcast_apply]
  rw [Cert.Gcn.matmul_plain_apply dot_S2000x58_S58x100_S2000x100_1_0_0_1_n_n ⟨rfl, rfl, rfl, rfl, rfl, rfl⟩ none _ _ r q,
    broadcastTo_1b_ab_apply x5 broadcasts_S1x100_S2000x100 r q]
  simp only [truncf_apply]
  rw [show (FloatOps.ofBits FTy.f32 0x00000000#32 : Ideal .f32) = 0 from Ideal.ofBits_zero_f32]

/-- A block function P that is the combine formula of the blocks x0, x1 (rows o … o + 1999 of the arrays a0, a1) and
    of the whole weight and bias is, at block index j, the formula over the whole arrays at the array index i that
    j names (row o + j₀, column j₁). -/
theorem comb_block (x0 : Vec Ideal S2000x58 .f32) (x2 : Vec Ideal S58x100 .f32) (x3 : Vec Ideal S1x100 .f32) (x1 : Vec Ideal S2000x100 .f32)
    (P : S2000x100.Idx → EReal)
    (hP : ∀ (r : Fin 2000) (q : Fin 100),
      P (ix2 r q) = x1 (ix2 r q) + max ((∑ l : Fin 58, x0 (ix2 r l) * x2 (ix2 l q)) + x3 (ix2 0 q)) 0)
    (a0 : S50000x58.Idx → EReal) (a1 : S50000x100.Idx → EReal) (w : S58x100.Idx → EReal) (b : S1x100.Idx → EReal) (o : ℕ)
    (h0 : ∀ (x : S2000x58.Idx) (k : S50000x58.Idx), (k 0).val = o + (x 0).val → (k 1).val = (x 1).val → x0 x = a0 k)
    (h1 : ∀ (x : S2000x100.Idx) (k : S50000x100.Idx), (k 0).val = o + (x 0).val → (k 1).val = (x 1).val → x1 x = a1 k)
    (h2 : x2 = w) (h3 : x3 = b)
    (j : S2000x100.Idx) (i : S50000x100.Idx) (hi0 : (i 0).val = o + (j 0).val) (hi1 : (i 1).val = (j 1).val) :
    P j = comb a0 a1 w b i := by
  obtain ⟨r, q, rfl⟩ : ∃ (r : Fin 2000) (q : Fin 100), j = ix2 r q := ⟨j 0, j 1, eq_ix2 j⟩
  obtain ⟨p, q', rfl⟩ : ∃ (p : Fin 50000) (q' : Fin 100), i = ix2 p q' := ⟨i 0, i 1, eq_ix2 i⟩
  obtain rfl : q' = q := Fin.ext hi1
  rw [hP, comb_ix2, h1 (ix2 r q') (ix2 p q') hi0 rfl, h2, h3]
  refine congrArg (fun s => a1 (ix2 p q') + max (s + b (ix2 0 q')) 0) (Finset.sum_congr rfl fun l _ => ?_)
  rw [h0 (ix2 r l) (ix2 p l) hi0 rfl]

/-! ## The windows' blocks, read off the arrays the region finds -/

variable (V : (c : Dev nD) → (b : Ref sig .tc) → Buf (Elt Ideal) ((c : Thread nD τ).loc b))

/-- The printed index maps, decided over the 25 grid points: the row-blocked windows (both operands, both outputs) sit
    at block (t, 0), the whole-array windows (weights, biases) at block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- The first operand's block at point t is rows 2000·t … 2000·t + 1999 of its array. -/
theorem operand_block (c : Dev nD) (t : Fin cfg2.N) (x : S2000x58.Idx) (k : S50000x58.Idx)
    (hk0 : (k 0).val = 2000 * t.val + (x 0).val) (hk1 : (k 1).val = (x 1).val) :
    (iblk2 V c 0 t : Vec Ideal S2000x58 .f32) x = (V c main_arg0 : S50000x58.Idx → EReal) k := by
  obtain ⟨e0, e1, -⟩ := block_indices t
  unfold iblk2
  rw [View.read_apply]
  show V c main_arg0 _ = V c main_arg0 _
  congr 1
  funext a
  apply Fin.ext
  match a with
  | ⟨0, _⟩ => show win2_0.index t (0 : Fin 2) * 2000 + 1 * (x 0).val = (k 0).val; rw [e0, hk0]; omega
  | ⟨1, _⟩ => show win2_0.index t (1 : Fin 2) * 58 + 1 * (x 1).val = (k 1).val; rw [e1, hk1]; omega

/-- The second operand's block at point t is rows 2000·t … 2000·t + 1999 of its array. -/
theorem addend_block (c : Dev nD) (t : Fin cfg2.N) (x : S2000x100.Idx) (k : S50000x100.Idx)
    (hk0 : (k 0).val = 2000 * t.val + (x 0).val) (hk1 : (k 1).val = (x 1).val) :
    (iblk2 V c 1 t : Vec Ideal S2000x100 .f32) x = (V c main_v62 : S50000x100.Idx → EReal) k := by
  obtain ⟨-, -, e0, e1, -⟩ := block_indices t
  unfold iblk2
  rw [View.read_apply]
  show V c main_v62 _ = V c main_v62 _
  congr 1
  funext a
  apply Fin.ext
  match a with
  | ⟨0, _⟩ => show win2_1.index t (0 : Fin 2) * 2000 + 1 * (x 0).val = (k 0).val; rw [e0, hk0]; omega
  | ⟨1, _⟩ => show win2_1.index t (1 : Fin 2) * 100 + 1 * (x 1).val = (k 1).val; rw [e1, hk1]; omega

/-- The first weight's block at every point is the whole array. -/
theorem weight_block (c : Dev nD) (t : Fin cfg2.N) :
    (iblk2 V c 2 t : Vec Ideal S58x100 .f32) = (V c main_v63 : S58x100.Idx → EReal) := by
  obtain ⟨-, -, -, -, e0, e1, -⟩ := block_indices t
  funext x
  unfold iblk2
  rw [View.read_apply]
  show V c main_v63 _ = V c main_v63 _
  congr 1
  funext a
  apply Fin.ext
  match a with
  | ⟨0, _⟩ => show win2_2.index t (0 : Fin 2) * 58 + 1 * (x 0).val = (x 0).val; rw [e0]; omega
  | ⟨1, _⟩ => show win2_2.index t (1 : Fin 2) * 100 + 1 * (x 1).val = (x 1).val; rw [e1]; omega

/-- The first bias row's block at every point is the whole array. -/
theorem bias_block (c : Dev nD) (t : Fin cfg2.N) :
    (iblk2 V c 3 t : Vec Ideal S1x100 .f32) = (V c main_v65 : S1x100.Idx → EReal) := by
  obtain ⟨-, -, -, -, -, -, e0, e1, -⟩ := block_indices t
  funext x
  unfold iblk2
  rw [View.read_apply]
  show V c main_v65 _ = V c main_v65 _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 100 + 1 * (x 1).val = (x 1).val; rw [e1]; omega

/-- The second weight's block at every point is the whole array. -/
theorem weight_block' (c : Dev nD) (t : Fin cfg2.N) :
    (iblk2 V c 4 t : Vec Ideal S58x100 .f32) = (V c main_v64 : S58x100.Idx → EReal) := by
  obtain ⟨-, -, -, -, -, -, -, -, e0, e1, -⟩ := block_indices t
  funext x
  unfold iblk2
  rw [View.read_apply]
  show V c main_v64 _ = V c main_v64 _
  congr 1
  funext a
  apply Fin.ext
  match a with
  | ⟨0, _⟩ => show win2_4.index t (0 : Fin 2) * 58 + 1 * (x 0).val = (x 0).val; rw [e0]; omega
  | ⟨1, _⟩ => show win2_4.index t (1 : Fin 2) * 100 + 1 * (x 1).val = (x 1).val; rw [e1]; omega

/-- The second bias row's block at every point is the whole array. -/
theorem bias_block' (c : Dev nD) (t : Fin cfg2.N) :
    (iblk2 V c 5 t : Vec Ideal S1x100 .f32) = (V c main_v66 : S1x100.Idx → EReal) := by
  obtain ⟨-, -, -, -, -, -, -, -, -, -, e0, e1, -⟩ := block_indices t
  funext x
  unfold iblk2
  rw [View.read_apply]
  show V c main_v66 _ = V c main_v66 _
  congr 1
  funext a
  apply Fin.ext
  match a with
  | ⟨0, _⟩ => show win2_5.index t (0 : Fin 2) * 1 + 1 * (x 0).val = (x 0).val; rw [e0]; omega
  | ⟨1, _⟩ => show win2_5.index t (1 : Fin 2) * 100 + 1 * (x 1).val = (x 1).val; rw [e1]; omega

/-! ## What each point writes back, and the arrays after the run -/

/-- What point t writes back to the first output is block t of the combine formula over the whole arrays. -/
theorem written_first (c : Dev nD) (t : Fin cfg2.N) :
    (dat2 (F := Ideal) V c).flushed 6 t
      = ((cfg2.win 6).blk t).view.read (Elt Ideal) (comb (V c main_arg0) (V c main_v62) (V c main_v63) (V c main_v65)) := by
  show (cfg2.win 6).cut (grid2.coords t) ((dat2 V c).after 6 t) = _
  rw [after2_6]
  unfold out2_6
  rw [View.canon_unit_zero offsets_zero]
  simp only [View.ld_unit_zero (S := S2000x58) offsets_zero, View.ld_unit_zero (S := S58x100) offsets_zero,
    View.ld_unit_zero (S := S1x100) offsets_zero, View.ld_unit_zero (S := S2000x100) offsets_zero]
  obtain ⟨-, -, -, -, -, -, -, -, -, -, -, -, e0, e1, -⟩ := block_indices t
  funext j
  show k2_pay2 (iblk2 V c 0 t) (iblk2 V c 2 t) (iblk2 V c 3 t) (iblk2 V c 1 t) j
    = comb (V c main_arg0) (V c main_v62) (V c main_v63) (V c main_v65) (((cfg2.win 6).blk t).view.emb j)
  refine comb_block _ _ _ _ _ (pay2_at _ _ _ _) _ _ _ _ (2000 * t.val) (operand_block V c t) (addend_block V c t)
    (weight_block V c t) (bias_block V c t) j _ ?_ ?_
  · show win2_6.index t (0 : Fin 2) * 2000 + 1 * (j 0).val = 2000 * t.val + (j 0).val; rw [e0]; omega
  · show win2_6.index t (1 : Fin 2) * 100 + 1 * (j 1).val = (j 1).val; rw [e1]; omega

/-- What point t writes back to the second output is block t of the combine formula over the whole arrays. -/
theorem written_second (c : Dev nD) (t : Fin cfg2.N) :
    (dat2 (F := Ideal) V c).flushed 7 t
      = ((cfg2.win 7).blk t).view.read (Elt Ideal) (comb (V c main_arg0) (V c main_v62) (V c main_v64) (V c main_v66)) := by
  show (cfg2.win 7).cut (grid2.coords t) ((dat2 V c).after 7 t) = _
  rw [after2_7]
  unfold out2_7
  rw [View.canon_unit_zero offsets_zero]
  simp only [View.ld_unit_zero (S := S2000x58) offsets_zero, View.ld_unit_zero (S := S58x100) offsets_zero,
    View.ld_unit_zero (S := S1x100) offsets_zero, View.ld_unit_zero (S := S2000x100) offsets_zero]
  obtain ⟨-, -, -, -, -, -, -, -, -, -, -, -, -, -, e0, e1⟩ := block_indices t
  funext j
  show k2_pay3 (iblk2 V c 0 t) (iblk2 V c 4 t) (iblk2 V c 5 t) (iblk2 V c 1 t) j
    = comb (V c main_arg0) (V c main_v62) (V c main_v64) (V c main_v66) (((cfg2.win 7).blk t).view.emb j)
  refine comb_block _ _ _ _ _ (pay3_at _ _ _ _) _ _ _ _ (2000 * t.val) (operand_block V c t) (addend_block V c t)
    (weight_block' V c t) (bias_block' V c t) j _ ?_ ?_
  · show win2_7.index t (0 : Fin 2) * 2000 + 1 * (j 0).val = 2000 * t.val + (j 0).val; rw [e0]; omega
  · show win2_7.index t (1 : Fin 2) * 100 + 1 * (j 1).val = (j 1).val; rw [e1]; omega

/-- Row p of the first output lies in the block of point p / 2000: the 25 blocks of 2000 rows tile the 50000 rows. -/
theorem rows_tiled_first (i : S50000x100.Idx) :
    ∃ t : Fin cfg2.N, (cfg2.win 6).flush t = true ∧ i ∈ ((cfg2.win 6).blk t).view.set := by
  have hi0 : (i 0).val < 50000 := (i 0).isLt
  have hi1 : (i 1).val < 100 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, -, -, -, e0, e1, -⟩ := block_indices t
  refine ⟨t, flush2_6 t, ?_⟩
  show i ∈ ((View.whole main_v67_0).slice (win2_6.rect t)).set
  rw [View.set_slice_whole, Rect.mem_set_unit]
  intro a
  match a with
  | ⟨0, _⟩ =>
    show win2_6.index t (0 : Fin 2) * 2000 ≤ (i 0).val ∧ (i 0).val < win2_6.index t (0 : Fin 2) * 2000 + 2000
    rw [e0, ht]; omega
  | ⟨1, _⟩ =>
    show win2_6.index t (1 : Fin 2) * 100 ≤ (i 1).val ∧ (i 1).val < win2_6.index t (1 : Fin 2) * 100 + 100
    rw [e1]; omega

/-- Row p of the second output lies in the block of point p / 2000. -/
theorem rows_tiled_second (i : S50000x100.Idx) :
    ∃ t : Fin cfg2.N, (cfg2.win 7).flush t = true ∧ i ∈ ((cfg2.win 7).blk t).view.set := by
  have hi0 : (i 0).val < 50000 := (i 0).isLt
  have hi1 : (i 1).val < 100 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, -, -, -, -, -, e0, e1⟩ := block_indices t
  refine ⟨t, flush2_7 t, ?_⟩
  show i ∈ ((View.whole main_v67_1).slice (win2_7.rect t)).set
  rw [View.set_slice_whole, Rect.mem_set_unit]
  intro a
  match a with
  | ⟨0, _⟩ =>
    show win2_7.index t (0 : Fin 2) * 2000 ≤ (i 0).val ∧ (i 0).val < win2_7.index t (0 : Fin 2) * 2000 + 2000
    rw [e0, ht]; omega
  | ⟨1, _⟩ =>
    show win2_7.index t (1 : Fin 2) * 100 ≤ (i 1).val ∧ (i 1).val < win2_7.index t (1 : Fin 2) * 100 + 100
    rw [e1]; omega

/-- The first output array after the run is the combine formula over the whole arrays. -/
theorem array_first (c : Dev nD) :
    (dat2 (F := Ideal) V c).arrAt 6 cfg2.N = comb (V c main_arg0) (V c main_v62) (V c main_v63) (V c main_v65) :=
  (dat2 V c).arrAt_eq_of_cover 6 _ (fun t _ => written_first V c t) rows_tiled_first

/-- The second output array after the run is the combine formula over the whole arrays, with its own weight and bias. -/
theorem array_second (c : Dev nD) :
    (dat2 (F := Ideal) V c).arrAt 7 cfg2.N = comb (V c main_arg0) (V c main_v62) (V c main_v64) (V c main_v66) :=
  (dat2 V c).arrAt_eq_of_cover 7 _ (fun t _ => written_second V c t) rows_tiled_second

end Region2

/-- Entry (p, q) of the array region 2 leaves in output window 6: the second operand's entry plus the clipped
    product of row p of the first operand with column q of the (already transposed) weight plus the bias's entry q. -/
theorem region2_xm_at (V : (c : Dev nD) → (b : Ref sig .tc) → Buf (Elt Ideal) ((c : Thread nD τ).loc b)) (c : Dev nD) (p : Fin 50000) (q : Fin 100) :
    ((dat2 (F := Ideal) V c).arrAt 6 cfg2.N : S50000x100.Idx → EReal) (ix2 p q)
      = (fun (h : S50000x100.Idx → EReal) (x : S50000x58.Idx → EReal) (w : S58x100.Idx → EReal) (b : S1x100.Idx → EReal) =>
          h (ix2 p q) + max ((∑ l : Fin 58, x (ix2 p l) * w (ix2 l q)) + b (ix2 0 q)) 0)
        (V c main_v62) (V c main_arg0) (V c main_v63) (V c main_v65) :=
  (congrFun (Region2.array_first V c) (ix2 p q)).trans (Region2.comb_ix2 _ _ _ _ p q)

/-- Entry (p, q) of the array region 2 leaves in output window 7: the second operand's entry plus the clipped
    product of row p of the first operand with column q of the (already transposed) weight plus the bias's entry q. -/
theorem region2_z_at (V : (c : Dev nD) → (b : Ref sig .tc) → Buf (Elt Ideal) ((c : Thread nD τ).loc b)) (c : Dev nD) (p : Fin 50000) (q : Fin 100) :
    ((dat2 (F := Ideal) V c).arrAt 7 cfg2.N : S50000x100.Idx → EReal) (ix2 p q)
      = (fun (h : S50000x100.Idx → EReal) (x : S50000x58.Idx → EReal) (w : S58x100.Idx → EReal) (b : S1x100.Idx → EReal) =>
          h (ix2 p q) + max ((∑ l : Fin 58, x (ix2 p l) * w (ix2 l q)) + b (ix2 0 q)) 0)
        (V c main_v62) (V c main_arg0) (V c main_v64) (V c main_v66) :=
  (congrFun (Region2.array_second V c) (ix2 p q)).trans (Region2.comb_ix2 _ _ _ _ p q)

end Cert.KernelIdeal.Val

end
-- ==== Proof.LossSpec.lean ====
/-
  The link-prediction loss, as mathematics on the extended reals.  For an edge e with endpoint feature rows a(e,·), b(e,·)
  the score is their inner product over the 100 features; a positive edge contributes log(σ(score) + ε), a negative
  edge log((1 − σ(score)) + ε), where σ is the logistic function, ε the single-precision word of 1e-15 and 1 the word
  of one.  The kernel adds, tile by tile (200 tiles of 4000 edges), the NEGATED tile sums and divides the total by
  the word of 800000; the reference negates the mean over all 800000 edges.
-/
import Idealize.ShloMosaic.Lib.ValueIdx
import Idealize.ShloMosaic.PureOps.Ideal.Laws

noncomputable section

namespace Cert.LinkLoss

open Idealize.ShloMosaic Idealize.ShloMosaic.ValueIdx

/-- ε: the single-precision word of 1e-15. -/
abbrev eps : EReal := Ideal.ofBits .f32 0x26901D7D#32
/-- The single-precision word of one. -/
abbrev one : EReal := Ideal.ofBits .f32 0x3F800000#32
/-- The single-precision word of 800000, the number of edges. -/
abbrev cnt : EReal := Ideal.ofBits .f32 0x49435000#32

/-- One endpoint's gathered features: 800000 edges by 100 features. -/
abbrev Pairs := (⟨2, ![800000, 100]⟩ : Shape).Idx → EReal

/-- The inner product of edge e's two endpoint rows. -/
def score (a b : Pairs) (e : Fin 800000) : EReal := ∑ k : Fin 100, a (ix2 e k) * b (ix2 e k)
/-- A positive edge's term: log(σ(score) + ε). -/
def posTerm (a b : Pairs) (e : Fin 800000) : EReal := Ideal.log (Ideal.logistic (score a b e) + eps)
/-- A negative edge's term: log((1 − σ(score)) + ε). -/
def negTerm (a b : Pairs) (e : Fin 800000) : EReal := Ideal.log ((one - Ideal.logistic (score a b e)) + eps)
/-- Row r of tile t is edge 4000·t + r. -/
def edge (t : Fin 200) (r : Fin 4000) : Fin 800000 := ⟨4000 * t.val + r.val, by have := t.isLt; have := r.isLt; omega⟩
/-- What the kernel accumulates: over the 200 tiles, zero minus the tile's sum. -/
def tileSum (f : Fin 800000 → EReal) : EReal := ∑ t : Fin 200, (0 - ∑ r : Fin 4000, f (edge t r))
/-- What the reference computes: the negated mean over all edges. -/
def meanNeg (f : Fin 800000 → EReal) : EReal := -(Ideal.div (∑ e : Fin 800000, f e) cnt)

end Cert.LinkLoss

end
-- ==== Proof.Region3.lean ====
/-
  Region 3 (the loss reduction, an accumulator carried over 200 tiles): what the 1×2 accumulator holds after the
  run, as the tile-by-tile sum of the negated tile sums.

  The grid has 200 points; point t sees rows 4000·t … 4000·t + 3999 of the four 800000×100 arrays and ONE 1×2 output
  block that never moves. At point 0 the body stores zero into the block and then adds the tile's vector; at every
  later point it adds the tile's vector to what the point before left. The tile's vector is
  [0 − Σ_rows log(σ(row inner product of the first two blocks) + ε), 0 − Σ_rows log((1 − σ(row inner product of the
  last two blocks)) + ε)]. So after point n the block holds, entry by entry, the sum of the vectors of tiles 0 … n
  (0 + x = x and re-association of a running sum hold on the extended reals, an additive commutative monoid), and the
  array, written back once after the last point, ends holding the sum over all 200 tiles.
-/
import proofs.«120157_j9294309229063_1_alg».proof.Proof.Gen.KernelIdeal.Frame
import proofs.«120157_j9294309229063_1_alg».proof.Proof.LibMatmulPlain
import proofs.«120157_j9294309229063_1_alg».proof.Proof.LossSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat Cfg Window)

namespace R3

/-! ## What the body leaves in the accumulator, case by case -/

section Pieces
variable {F : FTy → Type} [FloatOps F]

theorem hz2 : (![0, 0] : Fin 2 → Nat) = fun _ => 0 := funext fun a => by fin_cases a <;> rfl

/-- At a point other than the first the body leaves the previous contents plus the tile's vector. -/
theorem out3_B_eq (c : Dev nD) (i : grid3.Coords)
    (a1 : Memref sig .tc .vmem S4000x100 .f32) (h1 : a1.IsWhole) (a2 : Memref sig .tc .vmem S4000x100 .f32) (h2 : a2.IsWhole)
    (a3 : Memref sig .tc .vmem S4000x100 .f32) (h3 : a3.IsWhole) (a4 : Memref sig .tc .vmem S4000x100 .f32) (h4 : a4.IsWhole)
    (a5 : Memref sig .tc .vmem S1x2 .f32) (h5 : a5.IsWhole) (hc : ¬cond3_0 i)
    (x0 x1 x2 x3 : Vec F S4000x100 .f32) (xo : Vec F S1x2 .f32) :
    out3_B_4 c i a1 h1 a2 h2 a3 h3 a4 h4 a5 h5 hc x0 x1 x2 x3 xo = k3_pay1 (k3_pay3 x0 x1 x2 x3) xo := by
  unfold out3_B_4
  rw [View.read_writes_eq_canon _ _ _ (cover3_B_4 c i a1 h1 a2 h2 a3 h3 a4 h4 a5 h5 hc x0 x1 x2 x3 xo)]
  unfold kernelRun3_B
  dsimp only
  sl_unfold_words
  rw [View.canon_unit_zero hz2]
  simp only [View.readAt_eq_ld, h1.read_unread, h2.read_unread, h3.read_unread, h4.read_unread, h5.read_unread,
    View.ld_unit_zero (S := S4000x100) hz2, View.ld_unit_zero (S := S1x2) hz2]

/-- At the first point the body stores zero, reads it back, and leaves zero plus the tile's vector. -/
theorem out3_A_eq (c : Dev nD) (i : grid3.Coords)
    (a1 : Memref sig .tc .vmem S4000x100 .f32) (h1 : a1.IsWhole) (a2 : Memref sig .tc .vmem S4000x100 .f32) (h2 : a2.IsWhole)
    (a3 : Memref sig .tc .vmem S4000x100 .f32) (h3 : a3.IsWhole) (a4 : Memref sig .tc .vmem S4000x100 .f32) (h4 : a4.IsWhole)
    (a5 : Memref sig .tc .vmem S1x2 .f32) (h5 : a5.IsWhole) (hc : cond3_0 i)
    (x0 x1 x2 x3 : Vec F S4000x100 .f32) :
    out3_A_4 c i a1 h1 a2 h2 a3 h3 a4 h4 a5 h5 hc x0 x1 x2 x3 = k3_pay1 (k3_pay3 x0 x1 x2 x3) (k3_pay2 (F := F)) := by
  unfold out3_A_4
  rw [View.read_writes_eq_canon _ _ _ (cover3_A_4 c i a1 h1 a2 h2 a3 h3 a4 h4 a5 h5 hc x0 x1 x2 x3)]
  unfold kernelRun3_A
  dsimp only
  sl_unfold_words
  rw [View.canon_cons_unit_zero (S := S1x2) hz2, View.readCov_unit_zero (S := S1x2) _ hz2]
  simp only [View.readAt_eq_ld, h1.read_unread, h2.read_unread, h3.read_unread, h4.read_unread,
    View.ld_unit_zero (S := S4000x100) hz2, View.ld_unit_zero (S := S1x2) hz2]

end Pieces

/-! ## The tile's vector and the update, entry by entry, on the extended reals -/

section Pure

/-- The sum along the 100 lanes of row r. -/
theorem laneSum_apply (v : FVec Ideal S4000x100 .f32) (h : S4000x100.Reduces [1] S4000) (hφ : FKind.Formats .f32)
    (hacc : (0x00000000#32 : BitVec 32) = FKind.add.neutral .f32 hφ) (r : Fin 4000) :
    multiReduction .add [1] S4000 v 0x00000000#32 h hφ hacc (ix1 r) = ∑ k : Fin 100, v (ix2 r k) := by
  refine (Ideal.multiReduction_add_single v _ h hφ hacc (ix1 r)).trans ?_
  refine Finset.sum_congr rfl fun k _ => congrArg v ?_
  funext a; apply Fin.ext; match a with | ⟨0, _⟩ => rfl | ⟨1, _⟩ => rfl

/-- The sum down the 4000 rows of a one-column array. -/
theorem colSum_apply (v : FVec Ideal S4000x1 .f32) (h : S4000x1.Reduces [0] S1) (hφ : FKind.Formats .f32)
    (hacc : (0x00000000#32 : BitVec 32) = FKind.add.neutral .f32 hφ) :
    multiReduction .add [0] S1 v 0x00000000#32 h hφ hacc (ix1 0) = ∑ r : Fin 4000, v (ix2 r 0) := by
  refine (Ideal.multiReduction_add_single v _ h hφ hacc (ix1 0)).trans ?_
  refine Finset.sum_congr rfl fun k _ => congrArg v ?_
  funext a; apply Fin.ext; match a with | ⟨0, _⟩ => rfl | ⟨1, _⟩ => rfl

/-- A vector recast as one column reads, at row r, the vector at r. -/
theorem shapeCast_col_apply {α : Type} (x : S4000.Idx → α) (h : S4000.ShapeCasts S4000x1) (r : Fin 4000) (u : Fin 1) :
    shapeCast S4000x1 x h (ix2 r u) = x (ix1 r) :=
  shapeCast_apply x h _ _ (by
    rw [Shape.rowMajor_val_two, Shape.rowMajor_val_one]
    show r.val = r.val * 1 + u.val
    omega)

/-- Two 1×1 pieces laid side by side: entry (0, 0) is the first piece's entry, -/
theorem concat_at0 {α : Type} (v w : S1x1.Idx → α) (h : Shape.Concatenates [S1x1, S1x1] S1x2 (1 : Fin S1x2.rank)) :
    concatenate S1x2 1 [⟨S1x1, v⟩, ⟨S1x1, w⟩] h (ix2 (0 : Fin 1) (0 : Fin 2)) = v (ix2 (0 : Fin 1) (0 : Fin 1)) :=
  concatenate_pair_apply_left (1 : Fin S1x2.rank) v w h (ix2 (0 : Fin 1) (0 : Fin 2)) rfl (ix2 (0 : Fin 1) (0 : Fin 1))
    (fun b => by match b with | ⟨0, _⟩ => rfl | ⟨1, _⟩ => rfl)

/-- and entry (0, 1) the second piece's. -/
theorem concat_at1 {α : Type} (v w : S1x1.Idx → α) (h : Shape.Concatenates [S1x1, S1x1] S1x2 (1 : Fin S1x2.rank)) :
    concatenate S1x2 1 [⟨S1x1, v⟩, ⟨S1x1, w⟩] h (ix2 (0 : Fin 1) (1 : Fin 2)) = w (ix2 (0 : Fin 1) (0 : Fin 1)) :=
  concatenate_pair_apply_right (1 : Fin S1x2.rank) v w h (ix2 (0 : Fin 1) (1 : Fin 2)) rfl rfl (ix2 (0 : Fin 1) (0 : Fin 1))
    (fun b hb => by match b with | ⟨0, _⟩ => rfl | ⟨1, _⟩ => exact absurd rfl hb) rfl

theorem pay3_at0 (x0 x1 x2 x3 : Vec Ideal S4000x100 .f32) :
    k3_pay3 (F := Ideal) x0 x1 x2 x3 (ix2 0 0)
      = 0 - ∑ r : Fin 4000, Ideal.log (Ideal.logistic (∑ k : Fin 100, x0 (ix2 r k) * x1 (ix2 r k)) + Ideal.ofBits .f32 0x26901D7D#32) := by
  unfold k3_pay3
  dsimp only
  refine (concat_at0 _ _ _).trans ?_
  rw [subf_apply, broadcast_apply, shapeCast_a_1a_apply]
  refine congrArg₂ (· - ·) Ideal.ofBits_zero_f32 ((colSum_apply _ _ _ _).trans (Finset.sum_congr rfl fun r _ => ?_))
  show Ideal.log (Ideal.logistic (shapeCast S4000x1 _ _ (ix2 r 0)) + _) = _
  rw [shapeCast_col_apply]
  refine congrArg (fun z => Ideal.log (Ideal.logistic z + _)) ((laneSum_apply _ _ _ _ r).trans ?_)
  exact Finset.sum_congr rfl fun k _ => by rw [mulf_apply, shapeCast_self, shapeCast_self]

theorem pay3_at1 (x0 x1 x2 x3 : Vec Ideal S4000x100 .f32) :
    k3_pay3 (F := Ideal) x0 x1 x2 x3 (ix2 0 1)
      = 0 - ∑ r : Fin 4000, Ideal.log ((Ideal.ofBits .f32 0x3F800000#32 - Ideal.logistic (∑ k : Fin 100, x2 (ix2 r k) * x3 (ix2 r k))) + Ideal.ofBits .f32 0x26901D7D#32) := by
  unfold k3_pay3
  dsimp only
  refine (concat_at1 _ _ _).trans ?_
  rw [subf_apply, broadcast_apply, shapeCast_a_1a_apply]
  refine congrArg₂ (· - ·) Ideal.ofBits_zero_f32 ((colSum_apply _ _ _ _).trans (Finset.sum_congr rfl fun r _ => ?_))
  show Ideal.log ((_ - Ideal.logistic (shapeCast S4000x1 _ _ (ix2 r 0))) + _) = _
  rw [shapeCast_col_apply]
  refine congrArg (fun z => Ideal.log ((_ - Ideal.logistic z) + _)) ((laneSum_apply _ _ _ _ r).trans ?_)
  exact Finset.sum_congr rfl fun k _ => by rw [mulf_apply, shapeCast_self, shapeCast_self]

/-- The update adds the tile's vector to what the block held. -/
theorem pay1_apply (d : FVec Ideal S1x2 .f32) (prev : Vec Ideal S1x2 .f32) (i : S1x2.Idx) :
    k3_pay1 d prev i = prev i + d i := by
  unfold k3_pay1
  rw [shapeCast_self]
  rfl

/-- The reset stores zero. -/
theorem pay2_apply (i : S1x2.Idx) : (k3_pay2 (F := Ideal)) i = 0 := by
  unfold k3_pay2
  exact Ideal.ofBits_zero_f32

end Pure

/-! ## A tile's blocks are rows of the arrays -/

section Run
variable (V : (c : Dev nD) → (b : Ref sig .tc) → Buf (Elt Ideal) ((c : Thread nD τ).loc b))

/-- Point t of the grid, as a tile number below 200. -/
def tile (t : Fin cfg3.N) : Fin 200 := ⟨t.val, lt_of_lt_of_eq t.isLt N_3⟩

/-- Every input window's block at point t starts at row block t, lane block 0; the output's block never moves and is
    the whole 1×2 array. -/
theorem idx_facts : ∀ t : Fin cfg3.N,
    (win3_0.index t 0 = t.val ∧ win3_0.index t 1 = 0) ∧ (win3_1.index t 0 = t.val ∧ win3_1.index t 1 = 0)
    ∧ (win3_2.index t 0 = t.val ∧ win3_2.index t 1 = 0) ∧ (win3_3.index t 0 = t.val ∧ win3_3.index t 1 = 0)
    ∧ (win3_4.index t 0 = 0 ∧ win3_4.index t 1 = 0)
    ∧ (win3_4.xsize (grid3.coords t) 0 = 1 ∧ win3_4.xsize (grid3.coords t) 1 = 2) :=
  (by decide +kernel : ∀ t : Fin grid3.N, _)

/-- Row r, lane k of tile t's block of the first array is the array at row 4000·t + r, lane k. -/
theorem blk0_apply (c : Dev nD) (t : Fin cfg3.N) (r : Fin 4000) (k : Fin 100) :
    (iblk3 V c 0 t : Vec Ideal S4000x100 .f32) (ix2 r k)
      = (V c main_v76 : S800000x100.Idx → EReal) (ix2 (Cert.LinkLoss.edge (tile t) r) k) := by
  unfold iblk3
  rw [View.read_apply]
  show V c main_v76 _ = V c main_v76 _
  congr 1
  funext a
  apply Fin.ext
  match a with
  | ⟨0, _⟩ => show win3_0.index t 0 * 4000 + 1 * r.val = 4000 * t.val + r.val; rw [(idx_facts t).1.1]; omega
  | ⟨1, _⟩ => show win3_0.index t 1 * 100 + 1 * k.val = k.val; rw [(idx_facts t).1.2]; omega

/-- Row r, lane k of tile t's block of the second array is the array at row 4000·t + r, lane k. -/
theorem blk1_apply (c : Dev nD) (t : Fin cfg3.N) (r : Fin 4000) (k : Fin 100) :
    (iblk3 V c 1 t : Vec Ideal S4000x100 .f32) (ix2 r k)
      = (V c main_v85 : S800000x100.Idx → EReal) (ix2 (Cert.LinkLoss.edge (tile t) r) k) := by
  unfold iblk3
  rw [View.read_apply]
  show V c main_v85 _ = V c main_v85 _
  congr 1
  funext a
  apply Fin.ext
  match a with
  | ⟨0, _⟩ => show win3_1.index t 0 * 4000 + 1 * r.val = 4000 * t.val + r.val; rw [(idx_facts t).2.1.1]; omega
  | ⟨1, _⟩ => show win3_1.index t 1 * 100 + 1 * k.val = k.val; rw [(idx_facts t).2.1.2]; omega

/-- Row r, lane k of tile t's block of the third array is the array at row 4000·t + r, lane k. -/
theorem blk2_apply (c : Dev nD) (t : Fin cfg3.N) (r : Fin 4000) (k : Fin 100) :
    (iblk3 V c 2 t : Vec Ideal S4000x100 .f32) (ix2 r k)
      = (V c main_v94 : S800000x100.Idx → EReal) (ix2 (Cert.LinkLoss.edge (tile t) r) k) := by
  unfold iblk3
  rw [View.read_apply]
  show V c main_v94 _ = V c main_v94 _
  congr 1
  funext a
  apply Fin.ext
  match a with
  | ⟨0, _⟩ => show win3_2.index t 0 * 4000 + 1 * r.val = 4000 * t.val + r.val; rw [(idx_facts t).2.2.1.1]; omega
  | ⟨1, _⟩ => show win3_2.index t 1 * 100 + 1 * k.val = k.val; rw [(idx_facts t).2.2.1.2]; omega

/-- Row r, lane k of tile t's block of the fourth array is the array at row 4000·t + r, lane k. -/
theorem blk3_apply (c : Dev nD) (t : Fin cfg3.N) (r : Fin 4000) (k : Fin 100) :
    (iblk3 V c 3 t : Vec Ideal S4000x100 .f32) (ix2 r k)
      = (V c main_v103 : S800000x100.Idx → EReal) (ix2 (Cert.LinkLoss.edge (tile t) r) k) := by
  unfold iblk3
  rw [View.read_apply]
  show V c main_v103 _ = V c main_v103 _
  congr 1
  funext a
  apply Fin.ext
  match a with
  | ⟨0, _⟩ => show win3_3.index t 0 * 4000 + 1 * r.val = 4000 * t.val + r.val; rw [(idx_facts t).2.2.2.1.1]; omega
  | ⟨1, _⟩ => show win3_3.index t 1 * 100 + 1 * k.val = k.val; rw [(idx_facts t).2.2.2.1.2]; omega

/-! ## The accumulator after each tile -/

/-- Tile n's addend: zero minus the tile's sum of the edges' terms (zero past the grid, where it is never used). -/
def addend (f : Fin 800000 → EReal) (n : ℕ) : EReal :=
  if h : n < 200 then 0 - ∑ r : Fin 4000, f (Cert.LinkLoss.edge ⟨n, h⟩ r) else 0

/-- Entry (0, 0) of tile t's vector is the addend of the positive edges' terms. -/
theorem tile_at0 (c : Dev nD) (t : Fin cfg3.N) :
    k3_pay3 (F := Ideal) (iblk3 V c 0 t) (iblk3 V c 1 t) (iblk3 V c 2 t) (iblk3 V c 3 t) (ix2 0 0)
      = addend (Cert.LinkLoss.posTerm (V c main_v76) (V c main_v85)) t.val := by
  have ht : t.val < 200 := lt_of_lt_of_eq t.isLt N_3
  unfold addend
  rw [dif_pos ht]
  refine (pay3_at0 (iblk3 V c 0 t) (iblk3 V c 1 t) (iblk3 V c 2 t) (iblk3 V c 3 t)).trans ?_
  refine congrArg (fun z => (0 : EReal) - z) (Finset.sum_congr rfl fun r _ => ?_)
  unfold Cert.LinkLoss.posTerm Cert.LinkLoss.score
  refine congrArg (fun z => Ideal.log (Ideal.logistic z + _)) (Finset.sum_congr rfl fun k _ => ?_)
  exact congrArg₂ (· * ·) (blk0_apply V c t r k) (blk1_apply V c t r k)

/-- Entry (0, 1) of tile t's vector is the addend of the negative edges' terms. -/
theorem tile_at1 (c : Dev nD) (t : Fin cfg3.N) :
    k3_pay3 (F := Ideal) (iblk3 V c 0 t) (iblk3 V c 1 t) (iblk3 V c 2 t) (iblk3 V c 3 t) (ix2 0 1)
      = addend (Cert.LinkLoss.negTerm (V c main_v94) (V c main_v103)) t.val := by
  have ht : t.val < 200 := lt_of_lt_of_eq t.isLt N_3
  unfold addend
  rw [dif_pos ht]
  refine (pay3_at1 (iblk3 V c 0 t) (iblk3 V c 1 t) (iblk3 V c 2 t) (iblk3 V c 3 t)).trans ?_
  refine congrArg (fun z => (0 : EReal) - z) (Finset.sum_congr rfl fun r _ => ?_)
  unfold Cert.LinkLoss.negTerm Cert.LinkLoss.score
  refine congrArg (fun z => Ideal.log ((_ - Ideal.logistic z) + _)) (Finset.sum_congr rfl fun k _ => ?_)
  exact congrArg₂ (· * ·) (blk2_apply V c t r k) (blk3_apply V c t r k)

/-- After tile n the accumulator's entry (0, j) is the sum of the addends of tiles 0 … n: the first tile starts from
    zero, every later one adds to what the tile before left; by induction on the tile. -/
theorem acc_at (c : Dev nD) (j : Fin 2) (f : Fin 800000 → EReal)
    (hstep : ∀ t : Fin cfg3.N, k3_pay3 (F := Ideal) (iblk3 V c 0 t) (iblk3 V c 1 t) (iblk3 V c 2 t) (iblk3 V c 3 t) (ix2 0 j) = addend f t.val) :
    ∀ (n : ℕ) (h : n < cfg3.N), (outsAt3 V c n h : Vec Ideal S1x2 .f32) (ix2 0 j) = ∑ s ∈ Finset.range (n + 1), addend f s
  | 0, h => by
    refine (congrFun (outsAt3_A V c ⟨0, h⟩ rfl) (ix2 0 j)).trans ?_
    refine (congrFun (out3_A_eq (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) ((hcond3_0 ⟨0, h⟩).mpr (Nat.zero_mod _)) (iblk3 V c 0 ⟨0, h⟩) (iblk3 V c 1 ⟨0, h⟩) (iblk3 V c 2 ⟨0, h⟩) (iblk3 V c 3 ⟨0, h⟩)) (ix2 0 j)).trans ?_
    rw [pay1_apply, pay2_apply, zero_add, Finset.sum_range_one]
    exact hstep ⟨0, h⟩
  | n + 1, h => by
    have hN : cfg3.N = 200 := N_3
    have hB : ¬(⟨n + 1, h⟩ : Fin cfg3.N).val % 200 = 0 := by dsimp only; omega
    refine (congrFun (outsAt3_B V c ⟨n + 1, h⟩ hB) (ix2 0 j)).trans ?_
    refine (congrFun (out3_B_eq (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (fun hh => hB ((hcond3_0 ⟨n + 1, h⟩).mp hh)) (iblk3 V c 0 ⟨n + 1, h⟩) (iblk3 V c 1 ⟨n + 1, h⟩) (iblk3 V c 2 ⟨n + 1, h⟩) (iblk3 V c 3 ⟨n + 1, h⟩) (outsAt3 V c n (Nat.lt_of_succ_lt h))) (ix2 0 j)).trans ?_
    rw [pay1_apply, Finset.sum_range_succ _ (n + 1)]
    exact congrArg₂ (· + ·) (acc_at c j f hstep n (Nat.lt_of_succ_lt h)) (hstep ⟨n + 1, h⟩)

/-- The addends of all 200 tiles add up to the tile-by-tile sum. -/
theorem sum_addend (f : Fin 800000 → EReal) : ∑ s ∈ Finset.range 200, addend f s = Cert.LinkLoss.tileSum f := by
  unfold Cert.LinkLoss.tileSum
  rw [Finset.sum_range]
  exact Finset.sum_congr rfl fun t _ => by unfold addend; rw [dif_pos t.isLt]

/-! ## The array after the run: what the last tile leaves -/

theorem last_lt : 199 < cfg3.N := by rw [show cfg3.N = 200 from N_3]; decide

theorem outsAt_congr (c : Dev nD) (n n' : ℕ) (h : n < cfg3.N) (h' : n' < cfg3.N) (e : n = n') :
    outsAt3 V c n h = outsAt3 V c n' h' := by subst e; rfl

/-- The one write-back, after the last tile, writes the accumulator: its block is the whole 1×2 array. -/
theorem flushed_last (c : Dev nD) (t : Fin cfg3.N) (hf : (cfg3.win 4).flush t = true) :
    (dat3 V c).flushed 4 t = ((cfg3.win 4).blk t).view.read (Elt Ideal) (outsAt3 V c 199 last_lt) := by
  have hN : cfg3.N = 200 := N_3
  have h199 : t.val = 199 := by have := (flush3_4 t).mp hf; have := t.isLt; omega
  show (cfg3.win 4).cut (grid3.coords t) ((dat3 V c).after 4 t) = _
  rw [after3_4, outsAt_congr V c t.val 199 t.isLt last_lt h199]
  have hz' : (fun a => win3_4.index t a * main_v104.ty.shape.size a) = fun _ => 0 :=
    funext fun a => by
      match a with
      | ⟨0, _⟩ => show win3_4.index t 0 * _ = 0; rw [(idx_facts t).2.2.2.2.1.1, Nat.zero_mul]
      | ⟨1, _⟩ => show win3_4.index t 1 * _ = 0; rw [(idx_facts t).2.2.2.2.1.2, Nat.zero_mul]
  exact (Memref.read_access_unit_zero (Elt Ideal) main_v104 hz' (fun a => by rw [congrFun hz' a]; simp) (outsAt3 V c 199 last_lt)).symm

/-- So the array ends holding what the last tile leaves. -/
theorem arr_last (c : Dev nD) : (dat3 V c).arrAt 4 cfg3.N = outsAt3 V c 199 last_lt := by
  obtain ⟨t, ht⟩ : ∃ t : Fin cfg3.N, t.val = 199 := ⟨⟨199, last_lt⟩, rfl⟩
  refine (dat3 V c).arrAt_eq_of_cover 4 (outsAt3 V c 199 last_lt) (flushed_last V c) fun i =>
    ⟨t, (flush3_4 t).mpr (by rw [ht]), ?_⟩
  show i ∈ ((View.whole main_v104).slice (win3_4.rect t)).set
  rw [View.set_slice_whole, Rect.mem_set_unit]
  intro a
  have h0 : (i 0 : Nat) < 1 := (i 0).isLt
  have h1 : (i 1 : Nat) < 2 := (i 1).isLt
  match a with
  | ⟨0, _⟩ =>
    show win3_4.index t 0 * win3_4.size 0 ≤ (i 0 : Nat) ∧ (i 0 : Nat) < win3_4.index t 0 * win3_4.size 0 + win3_4.xsize (grid3.coords t) 0
    rw [(idx_facts t).2.2.2.2.1.1, (idx_facts t).2.2.2.2.2.1]; omega
  | ⟨1, _⟩ =>
    show win3_4.index t 1 * win3_4.size 1 ≤ (i 1 : Nat) ∧ (i 1 : Nat) < win3_4.index t 1 * win3_4.size 1 + win3_4.xsize (grid3.coords t) 1
    rw [(idx_facts t).2.2.2.2.1.2, (idx_facts t).2.2.2.2.2.2]; omega

end Run

end R3

/-- Entry (0, 0) of the accumulator after the 200 tiles: over the tiles, zero minus the tile's sum of the positive
    edges' terms. -/
theorem region3_at0 (V : (c : Dev nD) → (b : Ref sig .tc) → Buf (Elt Ideal) ((c : Thread nD τ).loc b)) (c : Dev nD) :
    ((dat3 (F := Ideal) V c).arrAt 4 cfg3.N : S1x2.Idx → EReal) (ix2 0 0)
      = Cert.LinkLoss.tileSum (Cert.LinkLoss.posTerm (V c main_v76) (V c main_v85)) :=
  (congrFun (R3.arr_last V c) (ix2 0 0)).trans
    ((R3.acc_at V c 0 (Cert.LinkLoss.posTerm (V c main_v76) (V c main_v85)) (R3.tile_at0 V c) 199 R3.last_lt).trans
      (R3.sum_addend (Cert.LinkLoss.posTerm (V c main_v76) (V c main_v85))))

/-- Entry (0, 1): the same over the negative edges' terms. -/
theorem region3_at1 (V : (c : Dev nD) → (b : Ref sig .tc) → Buf (Elt Ideal) ((c : Thread nD τ).loc b)) (c : Dev nD) :
    ((dat3 (F := Ideal) V c).arrAt 4 cfg3.N : S1x2.Idx → EReal) (ix2 0 1)
      = Cert.LinkLoss.tileSum (Cert.LinkLoss.negTerm (V c main_v94) (V c main_v103)) :=
  (congrFun (R3.arr_last V c) (ix2 0 1)).trans
    ((R3.acc_at V c 1 (Cert.LinkLoss.negTerm (V c main_v94) (V c main_v103)) (R3.tile_at1 V c) 199 R3.last_lt).trans
      (R3.sum_addend (Cert.LinkLoss.negTerm (V c main_v94) (V c main_v103))))

end Cert.KernelIdeal.Val

end
-- ==== Proof.Region4.lean ====
/-
  Region 4 (the last dense stage, no clipping): what its output array holds after the run, entry by entry, as a
  function of the arrays the region finds at its entry.

  The stage runs over 25 points; point t works on rows 2000·t … 2000·t + 1999.  At a point the body forms, for each of
  its 2000 rows, the row of the first operand against the one column of the first weight, plus the row of the second
  operand against the one column of the second weight, plus the bias.  The roundings to the narrow format before the two
  products are the identity on extended reals, and a product into a zero accumulator is the plain sum of products.
  Every point writes its block back, the 25 blocks tile the 50000 rows, so row p is the work of point p / 2000.
-/
import proofs.«120157_j9294309229063_1_alg».proof.Proof.Gen.KernelIdeal.Frame
import proofs.«120157_j9294309229063_1_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Region4

/-- The dimension numbers of the stage's two products are the plain row-by-column pattern. -/
theorem plain4 : Cert.Gcn.IsPlain (M := 2000) (K := 100) (N := 1) dot_S2000x100_S100x1_S2000x1_1_0_0_1_n_n := ⟨rfl, rfl, rfl, rfl, rfl, rfl⟩

/-- The body's stored value at row r, column q of a block: the two rows-by-column sums of products and the bias's entry,
    over any five loaded blocks. -/
theorem pay4_at (x0 x1 : FVec Ideal S2000x100 .f32) (x2 x3 : FVec Ideal S100x1 .f32) (x4 : FVec Ideal S1x1 .f32) (r : Fin 2000) (q : Fin 1) :
    k4_pay1 (F := Ideal) x0 x1 x2 x3 x4 (ix2 r q)
      = ((∑ l : Fin 100, x0 (ix2 r l) * x2 (ix2 l q)) + (∑ l : Fin 100, x1 (ix2 r l) * x3 (ix2 l q))) + x4 (ix2 0 q) := by
  unfold k4_pay1
  refine (addf_apply _ _ _).trans (congrArg₂ (· + ·) ((addf_apply _ _ _).trans (congrArg₂ (· + ·) ?_ ?_)) ?_)
  · rw [shapeCast_self]
    exact Cert.Gcn.matmul_plain_apply _ plain4 none _ _ r q
  · rw [shapeCast_self]
    exact Cert.Gcn.matmul_plain_apply _ plain4 none _ _ r q
  · rw [shapeCast_self]
    exact broadcastTo_1b_ab_apply x4 _ r q

/-- The zero offsets of a whole-buffer access, as a constant function. -/
theorem hz4 : (![0, 0] : Fin 2 → Nat) = fun _ => 0 := funext fun a => by fin_cases a <;> rfl

/-- The printed index maps, decided once over the 25 points: the two row operands and the output move with the point on
    the row axis and stay at block 0 on the column axis; the two weights and the bias stay at block (0, 0). -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

section Blocks

variable (V : (c : Dev nD) → (b : Ref sig .tc) → Buf (Elt Ideal) ((c : Thread nD τ).loc b))

/-! Each input window's block at point `t`, read at an element, is its array read where the block sits: a block's
    coordinate in the array is block index × block extent + the coordinate inside the block. -/

theorem iblk4_0_apply (c : Dev nD) (t : Fin cfg4.N) (x : S2000x100.Idx) (k : S50000x100.Idx)
    (hk0 : (k 0).val = t.val * 2000 + (x 0).val) (hk1 : (k 1).val = (x 1).val) :
    (iblk4 (F := Ideal) V c 0 t : FVec Ideal S2000x100 .f32) x = (V c main_v67_0 : S50000x100.Idx → EReal) k := by
  obtain ⟨e00, e01, e10, e11, e20, e21, e30, e31, e40, e41, e50, e51⟩ := idx4 t
  unfold iblk4
  rw [View.read_apply]
  show (V c main_v67_0 : S50000x100.Idx → EReal) (((cfg4.win 0).blk t).view.emb x) = _
  refine congrArg (V c main_v67_0 : S50000x100.Idx → EReal) ?_
  funext a
  apply Fin.ext
  match a with
  | ⟨0, _⟩ => show win4_0.index t (0 : Fin 2) * 2000 + 1 * (x 0).val = (k 0).val; rw [e00, hk0]; omega
  | ⟨1, _⟩ => show win4_0.index t (1 : Fin 2) * 100 + 1 * (x 1).val = (k 1).val; rw [e01, hk1]; omega

theorem iblk4_1_apply (c : Dev nD) (t : Fin cfg4.N) (x : S2000x100.Idx) (k : S50000x100.Idx)
    (hk0 : (k 0).val = t.val * 2000 + (x 0).val) (hk1 : (k 1).val = (x 1).val) :
    (iblk4 (F := Ideal) V c 1 t : FVec Ideal S2000x100 .f32) x = (V c main_v124 : S50000x100.Idx → EReal) k := by
  obtain ⟨e00, e01, e10, e11, e20, e21, e30, e31, e40, e41, e50, e51⟩ := idx4 t
  unfold iblk4
  rw [View.read_apply]
  show (V c main_v124 : S50000x100.Idx → EReal) (((cfg4.win 1).blk t).view.emb x) = _
  refine congrArg (V c main_v124 : S50000x100.Idx → EReal) ?_
  funext a
  apply Fin.ext
  match a with
  | ⟨0, _⟩ => show win4_1.index t (0 : Fin 2) * 2000 + 1 * (x 0).val = (k 0).val; rw [e10, hk0]; omega
  | ⟨1, _⟩ => show win4_1.index t (1 : Fin 2) * 100 + 1 * (x 1).val = (k 1).val; rw [e11, hk1]; omega

theorem iblk4_2_apply (c : Dev nD) (t : Fin cfg4.N) (x : S100x1.Idx) (k : S100x1.Idx)
    (hk0 : (k 0).val = (x 0).val) (hk1 : (k 1).val = (x 1).val) :
    (iblk4 (F := Ideal) V c 2 t : FVec Ideal S100x1 .f32) x = (V c main_arg9 : S100x1.Idx → EReal) k := by
  obtain ⟨e00, e01, e10, e11, e20, e21, e30, e31, e40, e41, e50, e51⟩ := idx4 t
  unfold iblk4
  rw [View.read_apply]
  show (V c main_arg9 : S100x1.Idx → EReal) (((cfg4.win 2).blk t).view.emb x) = _
  refine congrArg (V c main_arg9 : S100x1.Idx → EReal) ?_
  funext a
  apply Fin.ext
  match a with
  | ⟨0, _⟩ => show win4_2.index t (0 : Fin 2) * 100 + 1 * (x 0).val = (k 0).val; rw [e20, hk0]; omega
  | ⟨1, _⟩ => show win4_2.index t (1 : Fin 2) * 1 + 1 * (x 1).val = (k 1).val; rw [e21, hk1]; omega

theorem iblk4_3_apply (c : Dev nD) (t : Fin cfg4.N) (x : S100x1.Idx) (k : S100x1.Idx)
    (hk0 : (k 0).val = (x 0).val) (hk1 : (k 1).val = (x 1).val) :
    (iblk4 (F := Ideal) V c 3 t : FVec Ideal S100x1 .f32) x = (V c main_arg10 : S100x1.Idx → EReal) k := by
  obtain ⟨e00, e01, e10, e11, e20, e21, e30, e31, e40, e41, e50, e51⟩ := idx4 t
  unfold iblk4
  rw [View.read_apply]
  show (V c main_arg10 : S100x1.Idx → EReal) (((cfg4.win 3).blk t).view.emb x) = _
  refine congrArg (V c main_arg10 : S100x1.Idx → EReal) ?_
  funext a
  apply Fin.ext
  match a with
  | ⟨0, _⟩ => show win4_3.index t (0 : Fin 2) * 100 + 1 * (x 0).val = (k 0).val; rw [e30, hk0]; omega
  | ⟨1, _⟩ => show win4_3.index t (1 : Fin 2) * 1 + 1 * (x 1).val = (k 1).val; rw [e31, hk1]; omega

theorem iblk4_4_apply (c : Dev nD) (t : Fin cfg4.N) (x : S1x1.Idx) (k : S1x1.Idx)
    (hk0 : (k 0).val = (x 0).val) (hk1 : (k 1).val = (x 1).val) :
    (iblk4 (F := Ideal) V c 4 t : FVec Ideal S1x1 .f32) x = (V c main_v125 : S1x1.Idx → EReal) k := by
  obtain ⟨e00, e01, e10, e11, e20, e21, e30, e31, e40, e41, e50, e51⟩ := idx4 t
  unfold iblk4
  rw [View.read_apply]
  show (V c main_v125 : S1x1.Idx → EReal) (((cfg4.win 4).blk t).view.emb x) = _
  refine congrArg (V c main_v125 : S1x1.Idx → EReal) ?_
  funext a
  apply Fin.ext
  match a with
  | ⟨0, _⟩ => show win4_4.index t (0 : Fin 2) * 1 + 1 * (x 0).val = (k 0).val; rw [e40, hk0]; omega
  | ⟨1, _⟩ => show win4_4.index t (1 : Fin 2) * 1 + 1 * (x 1).val = (k 1).val; rw [e41, hk1]; omega

/-- The stage as one function of whole arrays: entry (i₀, i₁) is row i₀ of the first operand against column i₁ of the
    first weight, plus row i₀ of the second operand against column i₁ of the second weight, plus the bias at i₁. -/
def G4 (a0 a1 : S50000x100.Idx → EReal) (b0 b1 : S100x1.Idx → EReal) (bias : S1x1.Idx → EReal) : S50000x1.Idx → EReal :=
  fun i => ((∑ l : Fin 100, a0 (ix2 (i 0) l) * b0 (ix2 l (i 1))) + (∑ l : Fin 100, a1 (ix2 (i 0) l) * b1 (ix2 l (i 1))))
    + bias (ix2 0 (i 1))

/-- What point `t` writes back is block `t` of that one whole-array function of the arrays the stage finds. -/
theorem flushed4_eq (c : Dev nD) (t : Fin cfg4.N) :
    (dat4 (F := Ideal) V c).flushed 5 t = ((cfg4.win 5).blk t).view.read (Elt Ideal)
      (G4 (V c main_v67_0) (V c main_v124) (V c main_arg9) (V c main_arg10) (V c main_v125)) := by
  show (cfg4.win 5).cut (grid4.coords t) ((dat4 (F := Ideal) V c).after 5 t) = _
  rw [after4_5]
  unfold out4_5
  rw [View.canon_unit_zero hz4]
  simp only [View.ld_unit_zero (S := S2000x100) hz4, View.ld_unit_zero (S := S100x1) hz4, View.ld_unit_zero (S := S1x1) hz4]
  funext j
  obtain ⟨r, q, rfl⟩ : ∃ (r : Fin 2000) (q : Fin 1), j = ix2 r q := ⟨j 0, j 1, eq_ix2 j⟩
  obtain ⟨e00, e01, e10, e11, e20, e21, e30, e31, e40, e41, e50, e51⟩ := idx4 t
  show k4_pay1 (F := Ideal) (iblk4 V c 0 t) (iblk4 V c 1 t) (iblk4 V c 2 t) (iblk4 V c 3 t) (iblk4 V c 4 t) (ix2 r q)
      = G4 (V c main_v67_0) (V c main_v124) (V c main_arg9) (V c main_arg10) (V c main_v125) (((cfg4.win 5).blk t).view.emb (ix2 r q))
  refine (pay4_at (iblk4 V c 0 t) (iblk4 V c 1 t) (iblk4 V c 2 t) (iblk4 V c 3 t) (iblk4 V c 4 t) r q).trans ?_
  have h0 : ((((cfg4.win 5).blk t).view.emb (ix2 r q)) 0).val = t.val * 2000 + r.val := by
    show win4_5.index t (0 : Fin 2) * 2000 + 1 * r.val = _
    rw [e50]; omega
  have h1 : ((((cfg4.win 5).blk t).view.emb (ix2 r q)) 1).val = q.val := by
    show win4_5.index t (1 : Fin 2) * 1 + 1 * q.val = _
    rw [e51]; omega
  unfold G4
  beta_reduce
  refine congrArg₂ (· + ·) (congrArg₂ (· + ·) (Finset.sum_congr rfl fun l _ => congrArg₂ (· * ·) ?_ ?_)
    (Finset.sum_congr rfl fun l _ => congrArg₂ (· * ·) ?_ ?_)) ?_
  · exact iblk4_0_apply V c t (ix2 r l) _ h0 rfl
  · exact iblk4_2_apply V c t (ix2 l q) _ rfl h1
  · exact iblk4_1_apply V c t (ix2 r l) _ h0 rfl
  · exact iblk4_3_apply V c t (ix2 l q) _ rfl h1
  · exact iblk4_4_apply V c t (ix2 0 q) _ rfl h1

/-- An index of the output array lies in the block point `t` writes back iff each coordinate lies in the block's range. -/
theorem mem_blk4 (t : Fin cfg4.N) (i : S50000x1.Idx) :
    i ∈ ((cfg4.win 5).blk t).view.set ↔ ∀ a : Fin 2, win4_5.index t a * S2000x1.size a ≤ (i a).val ∧ (i a).val < win4_5.index t a * S2000x1.size a + S2000x1.size a := by
  show i ∈ ((View.whole main_v126).slice (win4_5.rect t)).set ↔ _
  rw [View.set_slice_whole, Rect.mem_set_unit]
  exact Iff.rfl

end Blocks

end Region4

open Region4 in
/-- Entry (p, q) of the array region 4 leaves in its output: row p of the first operand against column q of the first
    weight, plus row p of the propagated operand against column q of the second weight, plus the bias's entry q. -/
theorem region4_at (V : (c : Dev nD) → (b : Ref sig .tc) → Buf (Elt Ideal) ((c : Thread nD τ).loc b)) (c : Dev nD) (p : Fin 50000) (q : Fin 1) :
    ((dat4 (F := Ideal) V c).arrAt 5 cfg4.N : S50000x1.Idx → EReal) (ix2 p q)
      = (fun (x tx : S50000x100.Idx → EReal) (w0 w1 : S100x1.Idx → EReal) (b : S1x1.Idx → EReal) =>
          ((∑ l : Fin 100, x (ix2 p l) * w0 (ix2 l q)) + (∑ l : Fin 100, tx (ix2 p l) * w1 (ix2 l q))) + b (ix2 0 q))
        (V c main_v67_0) (V c main_v124) (V c main_arg9) (V c main_arg10) (V c main_v125) := by
  have hN : cfg4.N = 25 := N_4
  have hp : p.val < 50000 := p.isLt
  have hq : q.val < 1 := q.isLt
  obtain ⟨t, ht⟩ : ∃ t : Fin cfg4.N, t.val = p.val / 2000 := ⟨⟨p.val / 2000, by rw [hN]; omega⟩, rfl⟩
  obtain ⟨-, -, -, -, -, -, -, -, -, -, e50, e51⟩ := idx4 t
  have hmem : (ix2 p q : S50000x1.Idx) ∈ ((cfg4.win 5).blk t).view.set := by
    rw [mem_blk4]
    intro a
    match a with
    | ⟨0, _⟩ =>
      show win4_5.index t (0 : Fin 2) * 2000 ≤ p.val ∧ p.val < win4_5.index t (0 : Fin 2) * 2000 + 2000
      rw [e50, ht]; omega
    | ⟨1, _⟩ =>
      show win4_5.index t (1 : Fin 2) * 1 ≤ q.val ∧ q.val < win4_5.index t (1 : Fin 2) * 1 + 1
      rw [e51]; omega
  exact (dat4 (F := Ideal) V c).arrAt_apply_of_mem 5
    (G4 (V c main_v67_0) (V c main_v124) (V c main_arg9) (V c main_arg10) (V c main_v125))
    (fun t _ => flushed4_eq V c t) cfg4.N t (ix2 p q) t.isLt (flush4_5 t) hmem

end Cert.KernelIdeal.Val

end
-- ==== Proof.RefDenseB.lean ====
/-
  The reference's two combined outputs read at one entry: the second dense stage plus a clipped linear branch of
  the input features.
-/
import proofs.«120157_j9294309229063_1_alg».proof.Proof.RefRead
import proofs.«120157_j9294309229063_1_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefVal

open Cert.ReferenceIdeal Cert.ReferenceIdeal.Read
open Idealize.ShloMosaic Idealize.ShloMosaic.TcCoe Idealize.ShloMosaic.ValueIdx Idealize.SL.Sem

variable (x0 : (⟨S50000x58, .f32⟩ : BufTy).Contents (Elt Ideal)) (x1 x2 : (⟨S2x800000, .i32⟩ : BufTy).Contents (Elt Ideal))
  (x3 x4 : (⟨S58x300, .f32⟩ : BufTy).Contents (Elt Ideal)) (x5 : (⟨S300, .f32⟩ : BufTy).Contents (Elt Ideal))
  (x6 x7 : (⟨S300x100, .f32⟩ : BufTy).Contents (Elt Ideal)) (x8 : (⟨S100, .f32⟩ : BufTy).Contents (Elt Ideal))
  (x9 x10 : (⟨S100x1, .f32⟩ : BufTy).Contents (Elt Ideal)) (x11 : (⟨S1, .f32⟩ : BufTy).Contents (Elt Ideal))
  (x12 x14 : (⟨S100x58, .f32⟩ : BufTy).Contents (Elt Ideal)) (x13 x15 : (⟨S100, .f32⟩ : BufTy).Contents (Elt Ideal))

/-- The first combined output of the reference at entry (p, q): the second dense stage plus the clipped linear branch
    (the branch's weight enters through its transpose, kept as the stage that computes it). -/
theorem v79_at (p : Fin 50000) (q : Fin 100) :
    (val_main_v79 (F := Ideal) x0 x1 x3 x4 x5 x6 x7 x8 x12 x13 : S50000x100.Idx → EReal) (ix2 p q)
      = (val_main_v72 (F := Ideal) x0 x1 x3 x4 x5 x6 x7 x8 : S50000x100.Idx → EReal) (ix2 p q)
        + max ((∑ l : Fin 58, (x0 : S50000x58.Idx → EReal) (ix2 p l) * (val_main_v73 (F := Ideal) x12 : S58x100.Idx → EReal) (ix2 l q))
               + (x13 : S100.Idx → EReal) (ix1 q)) 0 := by
  -- the contraction's operand entries at output entry (p, q) and summation index k are (p, k) and (k, q)
  have hl : ∀ k : Fin 58, lidx_main_v74 (ix2 p q : S50000x100.Idx) k = (ix2 p k : S50000x58.Idx) := fun k =>
    funext fun a => Fin.ext (by match a with | ⟨0, _⟩ => rfl | ⟨1, _⟩ => rfl)
  have hr : ∀ k : Fin 58, ridx_main_v74 (ix2 p q : S50000x100.Idx) k = (ix2 k q : S58x100.Idx) := fun k =>
    funext fun a => Fin.ext (by match a with | ⟨0, _⟩ => rfl | ⟨1, _⟩ => rfl)
  -- the bias, broadcast along the rows, is read at q
  have hb : idx_main_v75 (idx_main_v76 (ix2 p q : S50000x100.Idx)) = (ix1 q : S100.Idx) :=
    funext fun a => Fin.ext (by match a with | ⟨0, _⟩ => rfl)
  rw [val_main_v79_apply, val_main_v78_apply, val_main_v77_apply, val_main_v74_apply, val_main_v76_apply,
    val_main_v75_apply, val_main_call4_v0_apply, val_main_call4_cst_apply, hb]
  simp only [hl, hr, Ideal.addf_def, Ideal.maximumf_def, Ideal.ofBits_def, Ideal.ofBits_zero_f32]

/-- The second combined output of the reference at entry (p, q). -/
theorem v86_at (p : Fin 50000) (q : Fin 100) :
    (val_main_v86 (F := Ideal) x0 x1 x3 x4 x5 x6 x7 x8 x14 x15 : S50000x100.Idx → EReal) (ix2 p q)
      = (val_main_v72 (F := Ideal) x0 x1 x3 x4 x5 x6 x7 x8 : S50000x100.Idx → EReal) (ix2 p q)
        + max ((∑ l : Fin 58, (x0 : S50000x58.Idx → EReal) (ix2 p l) * (val_main_v80 (F := Ideal) x14 : S58x100.Idx → EReal) (ix2 l q))
               + (x15 : S100.Idx → EReal) (ix1 q)) 0 := by
  -- the contraction's operand entries at output entry (p, q) and summation index k are (p, k) and (k, q)
  have hl : ∀ k : Fin 58, lidx_main_v81 (ix2 p q : S50000x100.Idx) k = (ix2 p k : S50000x58.Idx) := fun k =>
    funext fun a => Fin.ext (by match a with | ⟨0, _⟩ => rfl | ⟨1, _⟩ => rfl)
  have hr : ∀ k : Fin 58, ridx_main_v81 (ix2 p q : S50000x100.Idx) k = (ix2 k q : S58x100.Idx) := fun k =>
    funext fun a => Fin.ext (by match a with | ⟨0, _⟩ => rfl | ⟨1, _⟩ => rfl)
  -- the bias, broadcast along the rows, is read at q
  have hb : idx_main_v82 (idx_main_v83 (ix2 p q : S50000x100.Idx)) = (ix1 q : S100.Idx) :=
    funext fun a => Fin.ext (by match a with | ⟨0, _⟩ => rfl)
  rw [val_main_v86_apply, val_main_v85_apply, val_main_v84_apply, val_main_v81_apply, val_main_v83_apply,
    val_main_v82_apply, val_main_call5_v0_apply, val_main_call5_cst_apply, hb]
  simp only [hl, hr, Ideal.addf_def, Ideal.maximumf_def, Ideal.ofBits_def, Ideal.ofBits_zero_f32]

end Cert.ReferenceIdeal.RefVal

end
-- ==== Proof.RefLoss.lean ====
/-
  The reference's link-prediction loss as the negated means of the edge terms: its sigmoid is spelled out as
  1 / (1 + exp(−x)), which is the logistic function on the extended reals by definition.
-/
import proofs.«120157_j9294309229063_1_alg».proof.Proof.RefRead
import proofs.«120157_j9294309229063_1_alg».proof.Proof.LibMatmulPlain
import proofs.«120157_j9294309229063_1_alg».proof.Proof.LossSpec
import Idealize.ShloMosaic.Lib.ValueIdx
import Idealize.ShloMosaic.Lib.ValueIdxRank1
import Idealize.ShloMosaic.Lib.IdealHost
import Idealize.ShloMosaic.Lib.Pipeline.Value
import Idealize.ShloMosaic.Lib.ValueLayout
import Idealize.ShloMosaic.PureOps.Ideal.Laws

set_option maxRecDepth 16384

noncomputable section

namespace Cert.ReferenceIdeal.RefVal

open Cert.ReferenceIdeal Cert.ReferenceIdeal.Read
open Idealize.ShloMosaic Idealize.ShloMosaic.TcCoe Idealize.ShloMosaic.ValueIdx Idealize.SL.Sem

/-- A sum over a rank-1 index set is the sum over its one coordinate. -/
private theorem sum_idx1 {n : Nat} (f : (⟨1, ![n]⟩ : Shape).Idx → EReal) : ∑ j, f j = ∑ e : Fin n, f (ix1 e) := by
  rw [← Equiv.sum_comp (idxEquiv1 (n := n)).symm f]
  rfl

/-- The spelled-out sigmoid, with both of its ones the single-precision word of one, is the logistic function. -/
private theorem sigmoid_words (s : EReal) :
    Ideal.div (Ideal.ofBits .f32 0x3F800000#32) (Ideal.ofBits .f32 0x3F800000#32 + Ideal.exp (-s)) = Ideal.logistic s := by
  rw [Ideal.ofBits_one_f32]
  rfl

variable (x0 : (⟨S50000x58, .f32⟩ : BufTy).Contents (Elt Ideal)) (x1 x2 : (⟨S2x800000, .i32⟩ : BufTy).Contents (Elt Ideal))
  (x3 x4 : (⟨S58x300, .f32⟩ : BufTy).Contents (Elt Ideal)) (x5 : (⟨S300, .f32⟩ : BufTy).Contents (Elt Ideal))
  (x6 x7 : (⟨S300x100, .f32⟩ : BufTy).Contents (Elt Ideal)) (x8 : (⟨S100, .f32⟩ : BufTy).Contents (Elt Ideal))
  (x9 x10 : (⟨S100x1, .f32⟩ : BufTy).Contents (Elt Ideal)) (x11 : (⟨S1, .f32⟩ : BufTy).Contents (Elt Ideal))
  (x12 x14 : (⟨S100x58, .f32⟩ : BufTy).Contents (Elt Ideal)) (x13 x15 : (⟨S100, .f32⟩ : BufTy).Contents (Elt Ideal))

/-- A positive edge's score: the sum over the 100 features of the product of the two gathered rows. -/
theorem v106_at (e : Fin 800000) :
    (val_main_v106 (F := Ideal) x0 x1 x3 x4 x5 x6 x7 x8 x14 x15 : S800000.Idx → EReal) (ix1 e)
      = Cert.LinkLoss.score (val_main_v95 (F := Ideal) x0 x1 x3 x4 x5 x6 x7 x8 x14 x15) (val_main_v104 (F := Ideal) x0 x1 x3 x4 x5 x6 x7 x8 x14 x15) e := by
  rw [val_main_v106_apply, val_main_cst_19_apply]
  simp only [Ideal.ofBits_def, Ideal.ofBits_zero_f32, zero_add]
  unfold Cert.LinkLoss.score
  refine Finset.sum_congr rfl fun k _ => ?_
  have h : idx_main_v106 (ix1 e) k = ix2 e k :=
    funext fun a => Fin.ext (by match a with | ⟨0, _⟩ => rfl | ⟨1, _⟩ => rfl)
  rw [h, val_main_v105_apply, Ideal.mulf_def]

/-- A positive edge's term: the logarithm of the spelled-out sigmoid of the score plus ε. -/
theorem v115_at (e : Fin 800000) :
    (val_main_v115 (F := Ideal) x0 x1 x3 x4 x5 x6 x7 x8 x14 x15 : S800000.Idx → EReal) (ix1 e)
      = Cert.LinkLoss.posTerm (val_main_v95 (F := Ideal) x0 x1 x3 x4 x5 x6 x7 x8 x14 x15) (val_main_v104 (F := Ideal) x0 x1 x3 x4 x5 x6 x7 x8 x14 x15) e := by
  rw [val_main_v115_apply, val_main_v114_apply, val_main_v112_apply, val_main_v113_apply, val_main_cst_22_apply,
    val_main_v111_apply, val_main_cst_21_apply, val_main_v110_apply, val_main_v109_apply, val_main_cst_20_apply,
    val_main_v108_apply, val_main_v107_apply, v106_at]
  simp only [Ideal.hostUnary_log_def, Ideal.hostUnary_exp_def, Ideal.addf_def, Ideal.hostDivf_def,
    Ideal.hostNegf_def, Ideal.negf_def, Ideal.ofBits_def]
  rw [sigmoid_words]
  rfl

/-- The sum of the positive edges' terms over the reference's rank-1 index set, edge by edge. -/
theorem v115_sum :
    ∑ j : S800000.Idx, (val_main_v115 (F := Ideal) x0 x1 x3 x4 x5 x6 x7 x8 x14 x15 : S800000.Idx → EReal) j
      = ∑ e : Fin 800000, Cert.LinkLoss.posTerm (val_main_v95 (F := Ideal) x0 x1 x3 x4 x5 x6 x7 x8 x14 x15) (val_main_v104 (F := Ideal) x0 x1 x3 x4 x5 x6 x7 x8 x14 x15) e := by
  refine (sum_idx1 (n := 800000) _).trans ?_
  exact Finset.sum_congr rfl fun e _ => v115_at x0 x1 x3 x4 x5 x6 x7 x8 x14 x15 e

/-- A negative edge's score. -/
theorem v138_at (e : Fin 800000) :
    (val_main_v138 (F := Ideal) x0 x1 x2 x3 x4 x5 x6 x7 x8 x14 x15 : S800000.Idx → EReal) (ix1 e)
      = Cert.LinkLoss.score (val_main_v127 (F := Ideal) x0 x1 x2 x3 x4 x5 x6 x7 x8 x14 x15) (val_main_v136 (F := Ideal) x0 x1 x2 x3 x4 x5 x6 x7 x8 x14 x15) e := by
  rw [val_main_v138_apply, val_main_cst_29_apply]
  simp only [Ideal.ofBits_def, Ideal.ofBits_zero_f32, zero_add]
  unfold Cert.LinkLoss.score
  refine Finset.sum_congr rfl fun k _ => ?_
  have h : idx_main_v138 (ix1 e) k = ix2 e k :=
    funext fun a => Fin.ext (by match a with | ⟨0, _⟩ => rfl | ⟨1, _⟩ => rfl)
  rw [h, val_main_v137_apply, Ideal.mulf_def]

/-- A negative edge's term: the logarithm of one minus the spelled-out sigmoid of the score, plus ε. -/
theorem v149_at (e : Fin 800000) :
    (val_main_v149 (F := Ideal) x0 x1 x2 x3 x4 x5 x6 x7 x8 x14 x15 : S800000.Idx → EReal) (ix1 e)
      = Cert.LinkLoss.negTerm (val_main_v127 (F := Ideal) x0 x1 x2 x3 x4 x5 x6 x7 x8 x14 x15) (val_main_v136 (F := Ideal) x0 x1 x2 x3 x4 x5 x6 x7 x8 x14 x15) e := by
  rw [val_main_v149_apply, val_main_v148_apply, val_main_v147_apply, val_main_cst_33_apply,
    val_main_v146_apply, val_main_v145_apply, val_main_cst_32_apply,
    val_main_v144_apply, val_main_v143_apply, val_main_cst_31_apply,
    val_main_v142_apply, val_main_v141_apply, val_main_cst_30_apply,
    val_main_v140_apply, val_main_v139_apply, v138_at]
  simp only [Ideal.hostUnary_log_def, Ideal.hostUnary_exp_def, Ideal.addf_def, Ideal.subf_def, Ideal.hostDivf_def,
    Ideal.hostNegf_def, Ideal.negf_def, Ideal.ofBits_def]
  rw [sigmoid_words]
  rfl

/-- The sum of the negative edges' terms over the reference's rank-1 index set, edge by edge. -/
theorem v149_sum :
    ∑ j : S800000.Idx, (val_main_v149 (F := Ideal) x0 x1 x2 x3 x4 x5 x6 x7 x8 x14 x15 : S800000.Idx → EReal) j
      = ∑ e : Fin 800000, Cert.LinkLoss.negTerm (val_main_v127 (F := Ideal) x0 x1 x2 x3 x4 x5 x6 x7 x8 x14 x15) (val_main_v136 (F := Ideal) x0 x1 x2 x3 x4 x5 x6 x7 x8 x14 x15) e := by
  refine (sum_idx1 (n := 800000) _).trans ?_
  exact Finset.sum_congr rfl fun e _ => v149_at x0 x1 x2 x3 x4 x5 x6 x7 x8 x14 x15 e

/-- The reference's loss: the negated mean of the positive edges' terms plus the negated mean of the negative edges'. -/
theorem v153_at (i : S_.Idx) :
    (val_main_v153 (F := Ideal) x0 x1 x2 x3 x4 x5 x6 x7 x8 x14 x15 : S_.Idx → EReal) i
      = Cert.LinkLoss.meanNeg (Cert.LinkLoss.posTerm (val_main_v95 (F := Ideal) x0 x1 x3 x4 x5 x6 x7 x8 x14 x15) (val_main_v104 (F := Ideal) x0 x1 x3 x4 x5 x6 x7 x8 x14 x15))
        + Cert.LinkLoss.meanNeg (Cert.LinkLoss.negTerm (val_main_v127 (F := Ideal) x0 x1 x2 x3 x4 x5 x6 x7 x8 x14 x15) (val_main_v136 (F := Ideal) x0 x1 x2 x3 x4 x5 x6 x7 x8 x14 x15)) := by
  rw [val_main_v153_apply, val_main_v118_apply, val_main_v117_apply, val_main_v116_apply, val_main_cst_23_apply,
    val_main_cst_24_apply, val_main_v152_apply, val_main_v151_apply, val_main_v150_apply, val_main_cst_34_apply,
    val_main_cst_35_apply, v115_sum, v149_sum]
  simp only [Ideal.addf_def, Ideal.hostDivf_def, Ideal.hostNegf_def, Ideal.negf_def, Ideal.ofBits_def,
    Ideal.ofBits_zero_f32, zero_add]
  rfl

end Cert.ReferenceIdeal.RefVal

end
-- ==== Proof.LossAlgebra.lean ====
/-
  The algebra of the loss on the extended reals: each edge's term is a real number (the logistic function lies in
  [0, 1] and ε is positive, so the logarithm's argument is a positive real), and for real terms the kernel's tile-by-tile
  accumulation of negated tile sums, divided by the edge count, is the reference's negated mean.
-/
import proofs.«120157_j9294309229063_1_alg».proof.Proof.LossSpec
import Idealize.ShloMosaic.Lib.IdealHost
import Mathlib.Logic.Equiv.Fin.Basic
import Mathlib.Algebra.BigOperators.Fin

noncomputable section

namespace Cert.LinkLoss

open Idealize.ShloMosaic Idealize.ShloMosaic.ValueIdx

/-! ### The three words -/

/-- The word of 800000 is the real 800000 = (2²³ + 4411392) · 2⁻⁴. -/
theorem cnt_eq : cnt = ((800000 : ℝ) : EReal) := by
  simp [Ideal.ofBits, Ideal.ieee, -EReal.coe_mul]; norm_num

/-- The word of one is the real one. -/
theorem one_eq : one = ((1 : ℝ) : EReal) := by
  rw [one, Ideal.ofBits_one_f32]; norm_cast

/-- ε is the real 9444733 · 2⁻⁷³ (sign 0, exponent 77, fraction 1056125). -/
theorem eps_eq : eps = (((9444733 : ℝ) * (2 : ℝ) ^ (-73 : ℤ) : ℝ) : EReal) := by
  simp [Ideal.ofBits, Ideal.ieee, -EReal.coe_mul]

/-- ε is a positive real. -/
theorem eps_pos : ∃ r : ℝ, 0 < r ∧ eps = (r : EReal) :=
  ⟨(9444733 : ℝ) * (2 : ℝ) ^ (-73 : ℤ), by positivity, eps_eq⟩

/-! ### The logistic function lies in [0, 1] -/

/-- On every extended real the logistic function is a real number of the unit interval: 0 at −∞, 1 at +∞ and
    1 / (1 + e⁻ʳ) at a real r. -/
theorem logistic_unit (x : EReal) : ∃ l : ℝ, 0 ≤ l ∧ l ≤ 1 ∧ Ideal.logistic x = (l : EReal) := by
  induction x using EReal.rec with
  | bot => exact ⟨0, le_rfl, zero_le_one, by rw [Ideal.logistic_bot]; norm_cast⟩
  | top => exact ⟨1, zero_le_one, le_rfl, by rw [Ideal.logistic_top]; norm_cast⟩
  | coe r =>
    have hp : (0 : ℝ) < Real.exp (-r) := Real.exp_pos _
    refine ⟨(1 + Real.exp (-r))⁻¹, ?_, ?_, Ideal.logistic_coe r⟩
    · positivity
    · exact inv_le_one_of_one_le₀ (by linarith)

/-- The logarithm of a positive real is a real number. -/
theorem log_pos_real {r : ℝ} (h : 0 < r) : Ideal.log (r : EReal) = ((Real.log r : ℝ) : EReal) := by
  rw [Ideal.log_coe, if_neg (not_le.mpr h)]

/-- A positive edge's term is a real number. -/
theorem posTerm_real (a b : Pairs) (e : Fin 800000) : ∃ r : ℝ, posTerm a b e = (r : EReal) := by
  obtain ⟨l, h0, _, hl⟩ := logistic_unit (score a b e)
  obtain ⟨ε, hε, he⟩ := eps_pos
  refine ⟨Real.log (l + ε), ?_⟩
  rw [posTerm, hl, he, ← EReal.coe_add, log_pos_real (by linarith)]

/-- A negative edge's term is a real number. -/
theorem negTerm_real (a b : Pairs) (e : Fin 800000) : ∃ r : ℝ, negTerm a b e = (r : EReal) := by
  obtain ⟨l, _, h1, hl⟩ := logistic_unit (score a b e)
  obtain ⟨ε, hε, he⟩ := eps_pos
  refine ⟨Real.log ((1 - l) + ε), ?_⟩
  rw [negTerm, hl, he, one_eq, ← EReal.coe_sub, ← EReal.coe_add, log_pos_real (by linarith)]

/-! ### Tile sums against the mean -/

/-- The coercion of a finite sum of reals is the sum of the coercions. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The 200 tiles of 4000 rows enumerate the 800000 edges once each: (t, r) ↦ 4000·t + r is a bijection. -/
theorem sum_edge (g : Fin 800000 → ℝ) :
    ∑ t : Fin 200, ∑ r : Fin 4000, g (edge t r) = ∑ e : Fin 800000, g e := by
  rw [← Fintype.sum_prod_type']
  refine Fintype.sum_equiv (finProdFinEquiv (m := 200) (n := 4000)) _ g (fun x => ?_)
  congr 1
  apply Fin.ext
  simp only [edge, finProdFinEquiv_apply_val]
  omega

/-- For real terms, the tile-by-tile sum of negated tile sums divided by the edge count is the negated mean. -/
theorem tile_mean (f : Fin 800000 → EReal) (hf : ∀ e, ∃ r : ℝ, f e = (r : EReal)) :
    Ideal.div (tileSum f) cnt = meanNeg f := by
  choose g hg using hf
  obtain rfl : f = fun e => (g e : EReal) := funext hg
  have h1 : ∀ t : Fin 200, (0 : EReal) - ∑ r : Fin 4000, ((g (edge t r) : ℝ) : EReal)
      = ((-(∑ r : Fin 4000, g (edge t r)) : ℝ) : EReal) := by
    intro t
    rw [← coe_sum, zero_sub, EReal.coe_neg]
  have hc : (800000 : ℝ) ≠ 0 := by norm_num
  rw [tileSum, meanNeg, Finset.sum_congr rfl (fun t _ => h1 t), ← coe_sum, ← coe_sum, cnt_eq,
    Ideal.div_coe hc, Ideal.div_coe hc, ← EReal.coe_mul, ← EReal.coe_mul, ← EReal.coe_neg,
    Finset.sum_neg_distrib, sum_edge, neg_mul]

end Cert.LinkLoss

end
-- ==== Proof.ChainB.lean ====
/-
  The kernel's buffers, boundary by boundary, from the combine stage to the return: the two combined outputs, the four
  gathered endpoint arrays, the accumulated loss and the last dense stage each hold the reference's matching stage of the
  kernel's own arguments; in particular the two result buffers do.  The loss is where the two programs differ in
  arrangement: the kernel's tile-by-tile accumulation of negated tile sums divided by the edge count is the reference's
  negated mean because every edge's term is a real number.
-/
import proofs.«120157_j9294309229063_1_alg».proof.Proof.ChainA
import proofs.«120157_j9294309229063_1_alg».proof.Proof.Region2
import proofs.«120157_j9294309229063_1_alg».proof.Proof.Region3
import proofs.«120157_j9294309229063_1_alg».proof.Proof.Region4
import proofs.«120157_j9294309229063_1_alg».proof.Proof.RefDenseB
import proofs.«120157_j9294309229063_1_alg».proof.Proof.RefLoss
import proofs.«120157_j9294309229063_1_alg».proof.Proof.LossAlgebra
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Chain

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

/-- As `persist`, stopping at the exit of region 0 (where the edge-list stages are already named). -/
macro "persist6" : tactic => `(tactic| repeat (first
  | (rw [W14_of_ne]; rotate_left; decide)
  | (rw [W12_of_ne]; rotate_left; decide)
  | (rw [W10_of_ne]; rotate_left; decide)
  | (rw [W8_of_ne]; rotate_left; decide)
  | after_results_simp))

variable (m : (ℓ : Loc nD τ sig) → Buf (Elt Ideal) ℓ) (ρ : Dev nD → PrngReg) (c : Dev nD)

/-! ## Exit of region 2 -/

theorem W10_v67_0 : W10 m ρ c (Proc.devRef .tc main_v67_0) = val_main_v79 (F := Ideal) (A m c main_arg0) (A m c main_arg1) (A m c main_arg3) (A m c main_arg4) (A m c main_arg5) (A m c main_arg6) (A m c main_arg7) (A m c main_arg8) (A m c main_arg12) (A m c main_arg13) := by
  refine (W10_arr m ρ c 6).trans ?_
  funext i
  obtain ⟨p, q, rfl⟩ : ∃ (p : Fin 50000) (q : Fin 100), i = ix2 p q := ⟨i 0, i 1, eq_ix2 i⟩
  have hk := Cert.KernelIdeal.Val.region2_xm_at (V9 m ρ) c p q
  have hr := Cert.ReferenceIdeal.RefVal.v79_at (x0 := A m c main_arg0) (x1 := A m c main_arg1) (x3 := A m c main_arg3) (x4 := A m c main_arg4) (x5 := A m c main_arg5) (x6 := A m c main_arg6) (x7 := A m c main_arg7) (x8 := A m c main_arg8) (x12 := A m c main_arg12) (x13 := A m c main_arg13) p q
  beta_reduce at hk hr
  rw [V9_v62, V9_arg0, V9_v63, V9_v65_at] at hk
  exact hk.trans hr.symm
theorem W10_v67_1 : W10 m ρ c (Proc.devRef .tc main_v67_1) = val_main_v86 (F := Ideal) (A m c main_arg0) (A m c main_arg1) (A m c main_arg3) (A m c main_arg4) (A m c main_arg5) (A m c main_arg6) (A m c main_arg7) (A m c main_arg8) (A m c main_arg14) (A m c main_arg15) := by
  refine (W10_arr m ρ c 7).trans ?_
  funext i
  obtain ⟨p, q, rfl⟩ : ∃ (p : Fin 50000) (q : Fin 100), i = ix2 p q := ⟨i 0, i 1, eq_ix2 i⟩
  have hk := Cert.KernelIdeal.Val.region2_z_at (V9 m ρ) c p q
  have hr := Cert.ReferenceIdeal.RefVal.v86_at (x0 := A m c main_arg0) (x1 := A m c main_arg1) (x3 := A m c main_arg3) (x4 := A m c main_arg4) (x5 := A m c main_arg5) (x6 := A m c main_arg6) (x7 := A m c main_arg7) (x8 := A m c main_arg8) (x14 := A m c main_arg14) (x15 := A m c main_arg15) p q
  beta_reduce at hk hr
  rw [V9_v62, V9_arg0, V9_v64, V9_v66_at] at hk
  exact hk.trans hr.symm
theorem W10_arg1 : W10 m ρ c (Proc.devRef .tc main_arg1) = A m c main_arg1 := by persist
theorem W10_arg2 : W10 m ρ c (Proc.devRef .tc main_arg2) = A m c main_arg2 := by persist

/-! ## Entry of region 3 -/

theorem V11_v76 : V11 m ρ c main_v76 = val_main_v95 (F := Ideal) (A m c main_arg0) (A m c main_arg1) (A m c main_arg3) (A m c main_arg4) (A m c main_arg5) (A m c main_arg6) (A m c main_arg7) (A m c main_arg8) (A m c main_arg14) (A m c main_arg15) :=
  host3_v76 (W10 m ρ c) _ _ _ _ _ _ _ _ _ _ (W10_v67_1 m ρ c) (W10_arg1 m ρ c)
theorem V11_v85 : V11 m ρ c main_v85 = val_main_v104 (F := Ideal) (A m c main_arg0) (A m c main_arg1) (A m c main_arg3) (A m c main_arg4) (A m c main_arg5) (A m c main_arg6) (A m c main_arg7) (A m c main_arg8) (A m c main_arg14) (A m c main_arg15) :=
  host3_v85 (W10 m ρ c) _ _ _ _ _ _ _ _ _ _ (W10_v67_1 m ρ c) (W10_arg1 m ρ c)
theorem V11_v94 : V11 m ρ c main_v94 = val_main_v127 (F := Ideal) (A m c main_arg0) (A m c main_arg1) (A m c main_arg2) (A m c main_arg3) (A m c main_arg4) (A m c main_arg5) (A m c main_arg6) (A m c main_arg7) (A m c main_arg8) (A m c main_arg14) (A m c main_arg15) :=
  host3_v94 (W10 m ρ c) _ _ _ _ _ _ _ _ _ _ _ (W10_v67_1 m ρ c) (W10_arg2 m ρ c)
theorem V11_v103 : V11 m ρ c main_v103 = val_main_v136 (F := Ideal) (A m c main_arg0) (A m c main_arg1) (A m c main_arg2) (A m c main_arg3) (A m c main_arg4) (A m c main_arg5) (A m c main_arg6) (A m c main_arg7) (A m c main_arg8) (A m c main_arg14) (A m c main_arg15) :=
  host3_v103 (W10 m ρ c) _ _ _ _ _ _ _ _ _ _ _ (W10_v67_1 m ρ c) (W10_arg2 m ρ c)

/-! ## Exit of region 3 -/

theorem W12_v104_at0 :
    (W12 m ρ c (Proc.devRef .tc main_v104) : S1x2.Idx → EReal) (ix2 0 0)
      = Cert.LinkLoss.tileSum (Cert.LinkLoss.posTerm (val_main_v95 (F := Ideal) (A m c main_arg0) (A m c main_arg1) (A m c main_arg3) (A m c main_arg4) (A m c main_arg5) (A m c main_arg6) (A m c main_arg7) (A m c main_arg8) (A m c main_arg14) (A m c main_arg15)) (val_main_v104 (F := Ideal) (A m c main_arg0) (A m c main_arg1) (A m c main_arg3) (A m c main_arg4) (A m c main_arg5) (A m c main_arg6) (A m c main_arg7) (A m c main_arg8) (A m c main_arg14) (A m c main_arg15))) := by
  refine (congrFun (W12_arr m ρ c 4) (ix2 0 0)).trans ?_
  refine (Cert.KernelIdeal.Val.region3_at0 (V11 m ρ) c).trans ?_
  rw [V11_v76, V11_v85]
theorem W12_v104_at1 :
    (W12 m ρ c (Proc.devRef .tc main_v104) : S1x2.Idx → EReal) (ix2 0 1)
      = Cert.LinkLoss.tileSum (Cert.LinkLoss.negTerm (val_main_v127 (F := Ideal) (A m c main_arg0) (A m c main_arg1) (A m c main_arg2) (A m c main_arg3) (A m c main_arg4) (A m c main_arg5) (A m c main_arg6) (A m c main_arg7) (A m c main_arg8) (A m c main_arg14) (A m c main_arg15)) (val_main_v136 (F := Ideal) (A m c main_arg0) (A m c main_arg1) (A m c main_arg2) (A m c main_arg3) (A m c main_arg4) (A m c main_arg5) (A m c main_arg6) (A m c main_arg7) (A m c main_arg8) (A m c main_arg14) (A m c main_arg15))) := by
  refine (congrFun (W12_arr m ρ c 4) (ix2 0 1)).trans ?_
  refine (Cert.KernelIdeal.Val.region3_at1 (V11 m ρ) c).trans ?_
  rw [V11_v94, V11_v103]
theorem W12_v67_0 : W12 m ρ c (Proc.devRef .tc main_v67_0) = val_main_v79 (F := Ideal) (A m c main_arg0) (A m c main_arg1) (A m c main_arg3) (A m c main_arg4) (A m c main_arg5) (A m c main_arg6) (A m c main_arg7) (A m c main_arg8) (A m c main_arg12) (A m c main_arg13) := by
  persist6
  exact W10_v67_0 m ρ c
theorem W12_v1 : W12 m ρ c (Proc.devRef .tc main_v1) = val_main_v1 (F := Ideal) (A m c main_arg1) := by
  persist6
  exact W6_v1 m ρ c
theorem W12_v3 : W12 m ρ c (Proc.devRef .tc main_v3) = val_main_v3 (F := Ideal) (A m c main_arg1) := by
  persist6
  exact W6_v3 m ρ c
theorem W12_v32 : W12 m ρ c (Proc.devRef .tc main_v32) = val_main_v32 (F := Ideal) (A m c main_arg1) := by
  persist6
  exact W6_v32 m ρ c

/-! ## Entry of region 4, and the loss -/

theorem V13_v67_0 : V13 m ρ c main_v67_0 = val_main_v79 (F := Ideal) (A m c main_arg0) (A m c main_arg1) (A m c main_arg3) (A m c main_arg4) (A m c main_arg5) (A m c main_arg6) (A m c main_arg7) (A m c main_arg8) (A m c main_arg12) (A m c main_arg13) := by
  dsimp only [V13]
  after_results_simp
  exact W12_v67_0 m ρ c
theorem V13_v124 : V13 m ρ c main_v124 = val_main_v166 (F := Ideal) (A m c main_arg0) (A m c main_arg1) (A m c main_arg3) (A m c main_arg4) (A m c main_arg5) (A m c main_arg6) (A m c main_arg7) (A m c main_arg8) (A m c main_arg12) (A m c main_arg13) :=
  host4_v124 (W12 m ρ c) _ _ _ _ _ _ _ _ _ _ (W12_v67_0 m ρ c) (W12_v1 m ρ c) (W12_v3 m ρ c) (W12_v32 m ρ c)
theorem V13_arg9 : V13 m ρ c main_arg9 = A m c main_arg9 := by persist
theorem V13_arg10 : V13 m ρ c main_arg10 = A m c main_arg10 := by persist
theorem V13_v125_at (q : Fin 1) :
    (V13 m ρ c main_v125 : S1x1.Idx → EReal) (ix2 0 q) = (A m c main_arg11 : S1.Idx → EReal) (ix1 q) := by
  have h : V13 m ρ c main_v125 = shapeCast S1x1 (A m c main_arg11) shapeCasts_S1_S1x1 := by
    persist
    rfl
  rw [h]
  refine (shapeCast_addUnit_apply _ _ _ _).trans ?_
  congr 1
  funext a
  match a with
  | ⟨0, _⟩ => rfl

/-- The loss buffer after the last host stretch: each accumulated entry divided by the edge count, added. -/
theorem W13_v111_at (i : S_.Idx) : (W13 m ρ c (Proc.devRef .tc main_v111) : S_.Idx → EReal) i
    = Ideal.div ((W12 m ρ c (Proc.devRef .tc main_v104) : S1x2.Idx → EReal) (ix2 0 0)) Cert.LinkLoss.cnt
      + Ideal.div ((W12 m ρ c (Proc.devRef .tc main_v104) : S1x2.Idx → EReal) (ix2 0 1)) Cert.LinkLoss.cnt := by
  obtain rfl : i = (fun a => a.elim0) := funext fun a => a.elim0
  show StableHlo.after hostOps4 (W12 m ρ c) (Proc.devRef .tc main_v111) _ = _
  after_results_simp
  have e0 : shapeCast main_v106.ty.shape (extractStridedSlice S1x1 ![0, 0] (W12 m ρ c (Proc.devRef .tc main_v104)) slices_S1x2_S1x1_0_0) shapeCasts_S1x1_S_ (fun a => a.elim0)
      = (W12 m ρ c (Proc.devRef .tc main_v104) : S1x2.Idx → EReal) (ix2 0 0) := by
    refine (shapeCast_apply _ _ _ (ix2 0 0) (by decide)).trans ?_
    exact extractStridedSlice_apply ![0, 0] _ slices_S1x2_S1x1_0_0 (ix2 0 0) (ix2 0 0) (fun a => match a with
      | ⟨0, _⟩ => rfl
      | ⟨1, _⟩ => rfl)
  have e1 : shapeCast main_v109.ty.shape (extractStridedSlice S1x1 ![0, 1] (W12 m ρ c (Proc.devRef .tc main_v104)) slices_S1x2_S1x1_0_1) shapeCasts_S1x1_S_ (fun a => a.elim0)
      = (W12 m ρ c (Proc.devRef .tc main_v104) : S1x2.Idx → EReal) (ix2 0 1) := by
    refine (shapeCast_apply _ _ _ (ix2 0 0) (by decide)).trans ?_
    exact extractStridedSlice_apply ![0, 1] _ slices_S1x2_S1x1_0_1 (ix2 0 0) (ix2 0 1) (fun a => match a with
      | ⟨0, _⟩ => rfl
      | ⟨1, _⟩ => rfl)
  exact congrArg₂ (· + ·) (congrArg (Ideal.div · _) e0) (congrArg (Ideal.div · _) e1)

/-- The kernel's loss is the reference's: the accumulated entries are the tile-by-tile sums of negated tile sums of real
    terms, whose quotients by the edge count are the negated means. -/
theorem W13_v111 : W13 m ρ c (Proc.devRef .tc main_v111) = val_main_v153 (F := Ideal) (A m c main_arg0) (A m c main_arg1) (A m c main_arg2) (A m c main_arg3) (A m c main_arg4) (A m c main_arg5) (A m c main_arg6) (A m c main_arg7) (A m c main_arg8) (A m c main_arg14) (A m c main_arg15) := by
  funext i
  rw [W13_v111_at m ρ c i, W12_v104_at0, W12_v104_at1,
    Cert.LinkLoss.tile_mean _ (Cert.LinkLoss.posTerm_real _ _), Cert.LinkLoss.tile_mean _ (Cert.LinkLoss.negTerm_real _ _)]
  exact (Cert.ReferenceIdeal.RefVal.v153_at (x0 := A m c main_arg0) (x1 := A m c main_arg1) (x2 := A m c main_arg2) (x3 := A m c main_arg3) (x4 := A m c main_arg4) (x5 := A m c main_arg5) (x6 := A m c main_arg6) (x7 := A m c main_arg7) (x8 := A m c main_arg8) (x14 := A m c main_arg14) (x15 := A m c main_arg15) i).symm

/-! ## The results -/

theorem W14_v126 : W14 m ρ c (Proc.devRef .tc main_v126) = val_main_v172 (F := Ideal) (A m c main_arg0) (A m c main_arg1) (A m c main_arg3) (A m c main_arg4) (A m c main_arg5) (A m c main_arg6) (A m c main_arg7) (A m c main_arg8) (A m c main_arg9) (A m c main_arg10) (A m c main_arg11) (A m c main_arg12) (A m c main_arg13) := by
  refine (W14_arr m ρ c 5).trans ?_
  funext i
  obtain ⟨p, q, rfl⟩ : ∃ (p : Fin 50000) (q : Fin 1), i = ix2 p q := ⟨i 0, i 1, eq_ix2 i⟩
  have hk := Cert.KernelIdeal.Val.region4_at (V13 m ρ) c p q
  have hr := Cert.ReferenceIdeal.RefVal.v172_at (x0 := A m c main_arg0) (x1 := A m c main_arg1) (x3 := A m c main_arg3) (x4 := A m c main_arg4) (x5 := A m c main_arg5) (x6 := A m c main_arg6) (x7 := A m c main_arg7) (x8 := A m c main_arg8) (x9 := A m c main_arg9) (x10 := A m c main_arg10) (x11 := A m c main_arg11) (x12 := A m c main_arg12) (x13 := A m c main_arg13) p q
  beta_reduce at hk hr
  rw [V13_v67_0, V13_v124, V13_arg9, V13_arg10, V13_v125_at] at hk
  exact hk.trans hr.symm
theorem W14_v111 : W14 m ρ c (Proc.devRef .tc main_v111) = val_main_v153 (F := Ideal) (A m c main_arg0) (A m c main_arg1) (A m c main_arg2) (A m c main_arg3) (A m c main_arg4) (A m c main_arg5) (A m c main_arg6) (A m c main_arg7) (A m c main_arg8) (A m c main_arg14) (A m c main_arg15) := by
  rw [W14_of_ne m ρ c main_v111 (by decide)]
  exact W13_v111 m ρ c

end Cert.KernelIdeal.Chain

end
-- ==== Proof.lean ====
/-
  A three-layer graph network with a link-prediction loss: three dense stages (two matrix products and a bias, the first two
  clipped below at zero), a combine stage (two clipped linear branches added to the second dense stage), and the loss over
  the gathered endpoint features of 800000 positive and 800000 negative edges.  The kernel's program runs the dense stages,
  the combine stage and the loss reduction as five tiled regions (row blocks of 2000 nodes; 200 tiles of 4000 edges with an
  accumulator carried from tile to tile) between the same host gathers and scatter-adds the reference uses.

  On the extended reals the two programs compute one function.  The narrowing of the matrix products' operands to half
  precision is the identity; a product accumulated into zeros is the plain sum over the contraction, as the host's product
  is; the kernel's logistic is the reference's 1 / (1 + exp(−x)) by definition.  The one rearrangement is in the loss: the
  kernel adds, tile by tile, zero minus the tile's sum of log terms and divides by the edge count, the reference negates the
  mean of all the terms.  Every term is the logarithm of a real number in [ε, 1 + ε], hence a real number, and for real
  numbers the two arrangements agree.

  The kernel's run is followed boundary by boundary: at each boundary every buffer a later step reads holds the reference's
  matching stage of the kernel's own arguments, and so do the two result buffers at the end.  The frames of the two kernel
  programs are the generated ones; the reference's frame is its generated run with the results dropped; nothing is owed
  for the idealization (its ledger is empty).
-/
import proofs.«120157_j9294309229063_1_alg».proof.Defs
import proofs.«120157_j9294309229063_1_alg».proof.Proof.Gen.Kernel
import proofs.«120157_j9294309229063_1_alg».proof.Proof.Gen.Kernel.Skeleton
import proofs.«120157_j9294309229063_1_alg».proof.Proof.Gen.Kernel.Launch
import proofs.«120157_j9294309229063_1_alg».proof.Proof.Gen.Kernel.Points
import proofs.«120157_j9294309229063_1_alg».proof.Proof.Gen.Kernel.Frame
import proofs.«120157_j9294309229063_1_alg».proof.Proof.Gen.KernelIdeal
import proofs.«120157_j9294309229063_1_alg».proof.Proof.Gen.KernelIdeal.Skeleton
import proofs.«120157_j9294309229063_1_alg».proof.Proof.Gen.KernelIdeal.Launch
import proofs.«120157_j9294309229063_1_alg».proof.Proof.Gen.KernelIdeal.Points
import proofs.«120157_j9294309229063_1_alg».proof.Proof.Gen.KernelIdeal.Frame
import proofs.«120157_j9294309229063_1_alg».proof.Proof.Gen.ReferenceIdeal
import proofs.«120157_j9294309229063_1_alg».proof.Proof.Gen.Pre_finite_inputs
import proofs.«120157_j9294309229063_1_alg».proof.Proof.RunResults
import proofs.«120157_j9294309229063_1_alg».proof.Proof.ChainB
import Idealize.ShloMosaic.Adequacy
import Idealize.ShloMosaic.Init

set_option maxRecDepth 16384

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's run with its two results dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2.2.2)
    (Cert.ReferenceIdeal.Value.run (F := Ideal) m ρ)

/-- Run from memories that agree on the arguments, both programs end with the reference's two result stages of the
    kernel's arguments in their result buffers, and with the two pass-through arguments unchanged. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W14 m ρ c (Proc.devRef .tc Cert.KernelIdeal.main_v126),
    fun c => Cert.KernelIdeal.Gen.W14 m ρ c (Proc.devRef .tc Cert.KernelIdeal.main_v111),
    fun c => m ((c.tc : Thread Cert.KernelIdeal.nD Cert.KernelIdeal.τ).loc Cert.KernelIdeal.main_arg16),
    fun c => m ((c.tc : Thread Cert.KernelIdeal.nD Cert.KernelIdeal.τ).loc Cert.KernelIdeal.main_arg17), ?_, ?_⟩
  · refine (θ_run Cert.KernelIdeal.defs _ _).mono (fun r h c => ?_) (Cert.KernelIdeal.Results.run_results (F := Ideal) m ρ)
    obtain ⟨h126, h111, h0, h1, h2, h3, h4, h5, h6, h7, h8, h9, h10, h11, h12, h13, h14, h15, h16, h17⟩ := h c
    exact ⟨h126, h111, h16, h17, h0, h1, h2, h3, h4, h5, h6, h7, h8, h9, h10, h11, h12, h13, h14, h15, h16, h17⟩
  · refine (θ_run Cert.ReferenceIdeal.defs _ _).mono (fun r h c => ?_) (Cert.ReferenceIdeal.Value.run (F := Ideal) m' ρ')
    obtain ⟨h172, h153, h16, h17, rest⟩ := h c
    obtain ⟨e0, e1, e2, e3, e4, e5, e6, e7, e8, e9, e10, e11, e12, e13, e14, e15, e16, e17⟩ := hagree c
    refine ⟨h172.trans ?_, h153.trans ?_, h16.trans e16, h17.trans e17, rest⟩
    · rw [Cert.ReferenceIdeal.Read.val_main_v172_eq, e0, e1, e3, e4, e5, e6, e7, e8, e9, e10, e11, e12, e13]
      exact (Cert.KernelIdeal.Chain.W14_v126 m ρ c).symm
    · rw [Cert.ReferenceIdeal.Read.val_main_v153_eq, e0, e1, e2, e3, e4, e5, e6, e7, e8, e14, e15]
      exact (Cert.KernelIdeal.Chain.W14_v111 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
